-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S4096x2048 : Shape := ⟨2, ![4096, 2048]⟩
abbrev S4096x1 : Shape := ⟨2, ![4096, 1]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn_part4 {F : FTy → Type} [FloatOps F] (main_arg14 : FVec F S4096x1 .f32) (main_v63 : IVec S_ 1) (main_v67 : IVec S_ 1) : IVec S_ 1 :=
  let main_v68 : IVec S_ 1 := andi main_v63 main_v67
  let main_v69 : FVec F S4096x1 .f32 := Host.absf main_arg14
  let main_cst_26 : FVec F S_ .f32 := constant S_ .f32 0x7F800000#32
  let main_v70 : FVec F S4096x1 .f32 := broadcastInDim S4096x1 ![] bcast_S_S4096x1 main_cst_26
  let main_v71 : IVec S4096x1 1 := cmpf .olt main_v69 main_v70
  let main_c_27 : IVec S_ 1 := constantI S_ 1 1#1
  let main_v72 : IVec S_ 1 := (fun x v => Host.reduce IntOp.andi x v reducesTo_S4096x1_S_d0_1 h_S_) main_v71 main_c_27
  let main_v73 : IVec S_ 1 := andi main_v68 main_v72
  main_v73

def fn_part3 {F : FTy → Type} [FloatOps F] (main_arg11 : FVec F S4096x1 .f32) (main_arg12 : FVec F S4096x2048 .f32) (main_arg13 : FVec F S4096x4096 .f32) (main_arg14 : FVec F S4096x1 .f32) (main_v48 : IVec S_ 1) (main_v49 : FVec F S4096x4096 .f32) (main_v50 : FVec F S4096x4096 .f32) : IVec S_ 1 :=
  let main_v51 : IVec S4096x4096 1 := cmpf .olt main_v49 main_v50
  let main_c_19 : IVec S_ 1 := constantI S_ 1 1#1
  let main_v52 : IVec S_ 1 := (fun x v => Host.reduce IntOp.andi x v reducesTo_S4096x4096_S_d0_1 h_S_) main_v51 main_c_19
  let main_v53 : IVec S_ 1 := andi main_v48 main_v52
  let main_v54 : FVec F S4096x1 .f32 := Host.absf main_arg11
  let main_cst_20 : FVec F S_ .f32 := constant S_ .f32 0x7F800000#32
  let main_v55 : FVec F S4096x1 .f32 := broadcastInDim S4096x1 ![] bcast_S_S4096x1 main_cst_20
  let main_v56 : IVec S4096x1 1 := cmpf .olt main_v54 main_v55
  let main_c_21 : IVec S_ 1 := constantI S_ 1 1#1
  let main_v57 : IVec S_ 1 := (fun x v => Host.reduce IntOp.andi x v reducesTo_S4096x1_S_d0_1 h_S_) main_v56 main_c_21
  let main_v58 : IVec S_ 1 := andi main_v53 main_v57
  let main_v59 : FVec F S4096x2048 .f32 := Host.absf main_arg12
  let main_cst_22 : FVec F S_ .f32 := constant S_ .f32 0x7F800000#32
  let main_v60 : FVec F S4096x2048 .f32 := broadcastInDim S4096x2048 ![] bcast_S_S4096x2048 main_cst_22
  let main_v61 : IVec S4096x2048 1 := cmpf .olt main_v59 main_v60
  let main_c_23 : IVec S_ 1 := constantI S_ 1 1#1
  let main_v62 : IVec S_ 1 := (fun x v => Host.reduce IntOp.andi x v reducesTo_S4096x2048_S_d0_1 h_S_) main_v61 main_c_23
  let main_v63 : IVec S_ 1 := andi main_v58 main_v62
  let main_v64 : FVec F S4096x4096 .f32 := Host.absf main_arg13
  let main_cst_24 : FVec F S_ .f32 := constant S_ .f32 0x7F800000#32
  let main_v65 : FVec F S4096x4096 .f32 := broadcastInDim S4096x4096 ![] bcast_S_S4096x4096 main_cst_24
  let main_v66 : IVec S4096x4096 1 := cmpf .olt main_v64 main_v65
  let main_c_25 : IVec S_ 1 := constantI S_ 1 1#1
  let main_v67 : IVec S_ 1 := (fun x v => Host.reduce IntOp.andi x v reducesTo_S4096x4096_S_d0_1 h_S_) main_v66 main_c_25
  fn_part4 (F := F) main_arg14 main_v63 main_v67

def fn_part2 {F : FTy → Type} [FloatOps F] (main_arg7 : FVec F S4096x4096 .f32) (main_arg8 : FVec F S4096x1 .f32) (main_arg9 : FVec F S4096x2048 .f32) (main_arg10 : FVec F S4096x4096 .f32) (main_arg11 : FVec F S4096x1 .f32) (main_arg12 : FVec F S4096x2048 .f32) (main_arg13 : FVec F S4096x4096 .f32) (main_arg14 : FVec F S4096x1 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096x1 .f32 := Host.absf main_arg8
  let main_cst_14 : FVec F S_ .f32 := constant S_ .f32 0x7F800000#32
  let main_v40 : FVec F S4096x1 .f32 := broadcastInDim S4096x1 ![] bcast_S_S4096x1 main_cst_14
  let main_v41 : IVec S4096x1 1 := cmpf .olt main_v39 main_v40
  let main_c_15 : IVec S_ 1 := constantI S_ 1 1#1
  let main_v42 : IVec S_ 1 := (fun x v => Host.reduce IntOp.andi x v reducesTo_S4096x1_S_d0_1 h_S_) main_v41 main_c_15
  let main_v43 : IVec S_ 1 := andi main_v38 main_v42
  let main_v44 : FVec F S4096x2048 .f32 := Host.absf main_arg9
  let main_cst_16 : FVec F S_ .f32 := constant S_ .f32 0x7F800000#32
  let main_v45 : FVec F S4096x2048 .f32 := broadcastInDim S4096x2048 ![] bcast_S_S4096x2048 main_cst_16
  let main_v46 : IVec S4096x2048 1 := cmpf .olt main_v44 main_v45
  let main_c_17 : IVec S_ 1 := constantI S_ 1 1#1
  let main_v47 : IVec S_ 1 := (fun x v => Host.reduce IntOp.andi x v reducesTo_S4096x2048_S_d0_1 h_S_) main_v46 main_c_17
  let main_v48 : IVec S_ 1 := andi main_v43 main_v47
  let main_v49 : FVec F S4096x4096 .f32 := Host.absf main_arg10
  let main_cst_18 : FVec F S_ .f32 := constant S_ .f32 0x7F800000#32
  let main_v50 : FVec F S4096x4096 .f32 := broadcastInDim S4096x4096 ![] bcast_S_S4096x4096 main_cst_18
  fn_part3 (F := F) main_arg11 main_arg12 main_arg13 main_arg14 main_v48 main_v49 main_v50

def fn_part1 {F : FTy → Type} [FloatOps F] (main_arg4 : FVec F S4096x4096 .f32) (main_arg5 : FVec F S4096x1 .f32) (main_arg6 : FVec F S4096x2048 .f32) (main_arg7 : FVec F S4096x4096 .f32) (main_arg8 : FVec F S4096x1 .f32) (main_arg9 : FVec F S4096x2048 .f32) (main_arg10 : FVec F S4096x4096 .f32) (main_arg11 : FVec F S4096x1 .f32) (main_arg12 : FVec F S4096x2048 .f32) (main_arg13 : FVec F S4096x4096 .f32) (main_arg14 : FVec F S4096x1 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x1 .f32 := Host.absf main_arg5
  let main_cst_8 : FVec F S_ .f32 := constant S_ .f32 0x7F800000#32
  let main_v25 : FVec F S4096x1 .f32 := broadcastInDim S4096x1 ![] bcast_S_S4096x1 main_cst_8
  let main_v26 : IVec S4096x1 1 := cmpf .olt main_v24 main_v25
  let main_c_9 : IVec S_ 1 := constantI S_ 1 1#1
  let main_v27 : IVec S_ 1 := (fun x v => Host.reduce IntOp.andi x v reducesTo_S4096x1_S_d0_1 h_S_) main_v26 main_c_9
  let main_v28 : IVec S_ 1 := andi main_v23 main_v27
  let main_v29 : FVec F S4096x2048 .f32 := Host.absf main_arg6
  let main_cst_10 : FVec F S_ .f32 := constant S_ .f32 0x7F800000#32
  let main_v30 : FVec F S4096x2048 .f32 := broadcastInDim S4096x2048 ![] bcast_S_S4096x2048 main_cst_10
  let main_v31 : IVec S4096x2048 1 := cmpf .olt main_v29 main_v30
  let main_c_11 : IVec S_ 1 := constantI S_ 1 1#1
  let main_v32 : IVec S_ 1 := (fun x v => Host.reduce IntOp.andi x v reducesTo_S4096x2048_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S2048x4096 .f32) (main_arg1 : FVec F S4096x4096 .f32) (main_arg2 : FVec F S4096x4096 .f32) (main_arg3 : FVec F S4096x2048 .f32) (main_arg4 : FVec F S4096x4096 .f32) (main_arg5 : FVec F S4096x1 .f32) (main_arg6 : FVec F S4096x2048 .f32) (main_arg7 : FVec F S4096x4096 .f32) (main_arg8 : FVec F S4096x1 .f32) (main_arg9 : FVec F S4096x2048 .f32) (main_arg10 : FVec F S4096x4096 .f32) (main_arg11 : FVec F S4096x1 .f32) (main_arg12 : FVec F S4096x2048 .f32) (main_arg13 : FVec F S4096x4096 .f32) (main_arg14 : FVec F S4096x1 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S2048x4096 : Shape := ⟨2, ![2048, 4096]⟩
abbrev S4096x4096 : Shape := ⟨2, ![4096, 4096]⟩
abbrev S4096x2048 : Shape := ⟨2, ![4096, 2048]⟩
abbrev S4096x1 : Shape := ⟨2, ![4096, 1]⟩
abbrev S512x512 : Shape := ⟨2, ![512, 512]⟩
abbrev S512x1 : Shape := ⟨2, ![512, 1]⟩

abbrev nBuf : Space → Nat
  | .hbm => 17
  | .vmem => 38
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096x4096, .f32⟩
  | .hbm, ⟨3, _⟩ => ⟨S4096x2048, .f32⟩
  | .hbm, ⟨4, _⟩ => ⟨S4096x4096, .f32⟩
  | .hbm, ⟨5, _⟩ => ⟨S4096x1, .f32⟩
  | .hbm, ⟨6, _⟩ => ⟨S4096x2048, .f32⟩
  | .hbm, ⟨7, _⟩ => ⟨S4096x4096, .f32⟩
  | .hbm, ⟨8, _⟩ => ⟨S4096x1, .f32⟩
  | .hbm, ⟨9, _⟩ => ⟨S4096x2048, .f32⟩
  | .hbm, ⟨10, _⟩ => ⟨S4096x4096, .f32⟩
  | .hbm, ⟨11, _⟩ => ⟨S4096x1, .f32⟩
  | .hbm, ⟨12, _⟩ => ⟨S4096x2048, .f32⟩
  | .hbm, ⟨13, _⟩ => ⟨S4096x4096, .f32⟩
  | .hbm, ⟨14, _⟩ => ⟨S4096x1, .f32⟩
  | .hbm, ⟨15, _⟩ => ⟨S4096x4096, .f32⟩
  | .hbm, ⟨16, _⟩ => ⟨S4096x4096, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1, .f32⟩
  | .local _ .vmem, ⟨11, _⟩ => ⟨S512x1, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x1, .f32⟩
  | .local _ .vmem, ⟨17, _⟩ => ⟨S512x1, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x1, .f32⟩
  | .local _ .vmem, ⟨23, _⟩ => ⟨S512x1, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x1, .f32⟩
  | .local _ .vmem, ⟨29, _⟩ => ⟨S512x1, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S512x512, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨3, ![8, 8, 12], ![false, false, false]⟩

def k0_cond4 (i : grid0.Coords) : BitVec 1 :=
  let arg2 : BitVec 32 := BitVec.ofNat 32 (i 2).val
  let c11_i32 : BitVec 32 := 11#32
  let v9 : BitVec 1 := Scalar.cmpi .eq arg2 c11_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg2 c4_i32
  let c3_i32 : BitVec 32 := 3#32
  let v1 : BitVec 32 := Scalar.select v0 arg2 c3_i32
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg2 c4_i32
  let c4_i32_0 : BitVec 32 := 4#32
  let v1 : BitVec 32 := Scalar.subi arg2 c4_i32_0
  let c0_i32 : BitVec 32 := 0#32
  let v2 : BitVec 32 := Scalar.select v0 v1 c0_i32
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg2 c4_i32
  let c3_i32 : BitVec 32 := 3#32
  let v1 : BitVec 32 := Scalar.select v0 arg2 c3_i32
  let c0_i32 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg2 c4_i32
  let c4_i32_0 : BitVec 32 := 4#32
  let v1 : BitVec 32 := Scalar.subi arg2 c4_i32_0
  let c0_i32 : BitVec 32 := 0#32
  let v2 : BitVec 32 := Scalar.select v0 v1 c0_i32
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg2 c4_i32
  let c3_i32 : BitVec 32 := 3#32
  let v1 : BitVec 32 := Scalar.select v0 arg2 c3_i32
  let c0_i32 : BitVec 32 := 0#32
  ![arg0.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg2 c4_i32
  let c4_i32_0 : BitVec 32 := 4#32
  let v1 : BitVec 32 := Scalar.subi arg2 c4_i32_0
  let c0_i32 : BitVec 32 := 0#32
  let v2 : BitVec 32 := Scalar.select v0 v1 c0_i32
  let c0_i32_1 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg2 c4_i32
  let c3_i32 : BitVec 32 := 3#32
  let v1 : BitVec 32 := Scalar.select v0 arg2 c3_i32
  let c0_i32 : BitVec 32 := 0#32
  ![arg0.toNat, v1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg2 c4_i32
  let c4_i32_0 : BitVec 32 := 4#32
  let v1 : BitVec 32 := Scalar.subi arg2 c4_i32_0
  let c0_i32 : BitVec 32 := 0#32
  let v2 : BitVec 32 := Scalar.select v0 v1 c0_i32
  let c0_i32_1 : BitVec 32 := 0#32
  ![arg0.toNat, v2.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg2 c4_i32
  let c3_i32 : BitVec 32 := 3#32
  let v1 : BitVec 32 := Scalar.select v0 arg2 c3_i32
  let c0_i32 : BitVec 32 := 0#32
  ![arg0.toNat, v1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg2 c4_i32
  let c4_i32_0 : BitVec 32 := 4#32
  let v1 : BitVec 32 := Scalar.subi arg2 c4_i32_0
  let c0_i32 : BitVec 32 := 0#32
  let v2 : BitVec 32 := Scalar.select v0 v1 c0_i32
  let c0_i32_1 : BitVec 32 := 0#32
  ![arg0.toNat, v2.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, true]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, true]

abbrev stage0_14 : Fin 2 → Memref sig .tc .vmem S512x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, false]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x4096.size a
  hwx0_0 : ∀ i : grid0.Coords, EltTy.bits .f32 = 32 ∨ (Rect.block (s := S2048x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x2048.size a
  hwx0_3 : ∀ i : grid0.Coords, EltTy.bits .f32 = 32 ∨ (Rect.block (s := S4096x2048) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x4096.size a
  hwx0_4 : ∀ i : grid0.Coords, EltTy.bits .f32 = 32 ∨ (Rect.block (s := S4096x4096) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x2048.size a
  hwx0_6 : ∀ i : grid0.Coords, EltTy.bits .f32 = 32 ∨ (Rect.block (s := S4096x2048) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S4096x4096.size a
  hwx0_7 : ∀ i : grid0.Coords, EltTy.bits .f32 = 32 ∨ (Rect.block (s := S4096x4096) S512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S4096x1.size a
  hwx0_8 : ∀ i : grid0.Coords, EltTy.bits .f32 = 32 ∨ (Rect.block (s := S4096x1) S512x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S4096x2048.size a
  hwx0_9 : ∀ i : grid0.Coords, EltTy.bits .f32 = 32 ∨ (Rect.block (s := S4096x2048) S512x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S4096x4096.size a
  hwx0_10 : ∀ i : grid0.Coords, EltTy.bits .f32 = 32 ∨ (Rect.block (s := S4096x4096) S512x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1.size a ≤ S4096x1.size a
  hwx0_11 : ∀ i : grid0.Coords, EltTy.bits .f32 = 32 ∨ (Rect.block (s := S4096x1) S512x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S4096x2048.size a
  hwx0_12 : ∀ i : grid0.Coords, EltTy.bits .f32 = 32 ∨ (Rect.block (s := S4096x2048) S512x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S4096x4096.size a
  hwx0_13 : ∀ i : grid0.Coords, EltTy.bits .f32 = 32 ∨ (Rect.block (s := S4096x4096) S512x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x1.size a ≤ S4096x1.size a
  hwx0_14 : ∀ i : grid0.Coords, EltTy.bits .f32 = 32 ∨ (Rect.block (s := S4096x1) S512x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x512.size a ≤ S4096x4096.size a
  hwx0_15 : ∀ i : grid0.Coords, EltTy.bits .f32 = 32 ∨ (Rect.block (s := S4096x4096) S512x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x512.size a ≤ S4096x4096.size a
  hwx0_16 : ∀ i : grid0.Coords, EltTy.bits .f32 = 32 ∨ (Rect.block (s := S4096x4096) S512x512.size (cc0_transform_16 i) (hinb0_16 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512x512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512x1.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S512x512.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S512x512.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S512x1.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v0_0) S512x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v0_1) S512x512.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev idle0 : Fin 17 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond4 i == 1#1) | 16 => fun i => !(k0_cond4 i == 1#1) | ⟨_ + 17, h⟩ => absurd h (Nat.not_lt.2 (Nat.le_add_left _ _))

class Facts : Prop extends Facts₀ where

variable [Facts]
-- ==== ReferenceIdeal.lean ====
abbrev S2048x4096 : Shape := ⟨2, ![2048, 4096]⟩
abbrev S4096x4096 : Shape := ⟨2, ![4096, 4096]⟩
abbrev S4096x2048 : Shape := ⟨2, ![4096, 2048]⟩
abbrev S4096x1 : Shape := ⟨2, ![4096, 1]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096x4096, .f32⟩
  | .hbm, ⟨3, _⟩ => ⟨S4096x2048, .f32⟩
  | .hbm, ⟨4, _⟩ => ⟨S4096x4096, .f32⟩
  | .hbm, ⟨5, _⟩ => ⟨S4096x1, .f32⟩
  | .hbm, ⟨6, _⟩ => ⟨S4096x2048, .f32⟩
  | .hbm, ⟨7, _⟩ => ⟨S4096x4096, .f32⟩
  | .hbm, ⟨8, _⟩ => ⟨S4096x1, .f32⟩
  | .hbm, ⟨9, _⟩ => ⟨S4096x2048, .f32⟩
  | .hbm, ⟨10, _⟩ => ⟨S4096x4096, .f32⟩
  | .hbm, ⟨11, _⟩ => ⟨S4096x1, .f32⟩
  | .hbm, ⟨12, _⟩ => ⟨S4096x2048, .f32⟩
  | .hbm, ⟨13, _⟩ => ⟨S4096x4096, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S4096x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  dot_S4096x2048_S2048x4096_S4096x4096_1_0_0_1_n_n_wf : DotDims.WF S4096x2048 S2048x4096 S4096x4096 [1] [0] [0] [1] [] []
  dot_S4096x4096_S4096x4096_S4096x4096_1_0_0_1_n_n_wf : DotDims.WF S4096x4096 S4096x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Kernel.Cases.lean ====
/-
  The LSTM cell's kernel walks a grid of 8 x 8 x 12 points; the last coordinate k is the step along the
  contracted axis: steps 0..3 take a 512-wide slab of the input x against the four input weights, steps 4..11 a slab of
  the previous output against the four hidden weights. Four accumulators (one per gate) live in scratch and are
  carried from step to step: zeroed when k = 0, added to at every step, and read at k = 11, where the gates'
  nonlinearities are applied and the two output blocks are stored.
  This module names the four branch conditions of the body as propositions of the grid coordinates, decides each over
  the 768 points in closed form (k is the point's number mod 12), says where the two output windows are idle, and names
  the staging and scratch memrefs the body is called with.
-/
import proofs.«172886_j24756191494330_1_alg».proof.Proof.Gen.Kernel.Frame
import proofs.«172886_j24756191494330_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four branch conditions -/

/-- k = 0: the accumulators are zeroed. -/
abbrev atFirst (i : grid0.Coords) : Prop :=
  (Scalar.cmpi .ne (Scalar.extui (Scalar.cmpi .eq (BitVec.ofNat 32 (i 2).val) 0#32)) 0#32) = 1#1
/-- k < 4: a slab of x against the input weights. -/
abbrev onInput (i : grid0.Coords) : Prop :=
  (Scalar.cmpi .ne (Scalar.extui (Scalar.cmpi .slt (BitVec.ofNat 32 (i 2).val) 4#32)) 0#32) = 1#1
/-- k ≥ 4: a slab of the previous output against the hidden weights. -/
abbrev onHidden (i : grid0.Coords) : Prop :=
  (Scalar.cmpi .ne (Scalar.extui (Scalar.cmpi .sge (BitVec.ofNat 32 (i 2).val) 4#32)) 0#32) = 1#1
/-- k = 11: the gates are formed and the outputs stored. -/
abbrev atLast (i : grid0.Coords) : Prop := k0_cond4 i = 1#1

theorem atFirst_iff : ∀ t : Fin cfg0.N, atFirst (grid0.coords t) ↔ t.val % 12 = 0 :=
  (by decide +kernel : ∀ t : Fin grid0.N, atFirst (grid0.coords t) ↔ t.val % 12 = 0)
theorem onInput_iff : ∀ t : Fin cfg0.N, onInput (grid0.coords t) ↔ t.val % 12 < 4 :=
  (by decide +kernel : ∀ t : Fin grid0.N, onInput (grid0.coords t) ↔ t.val % 12 < 4)
theorem onHidden_iff : ∀ t : Fin cfg0.N, onHidden (grid0.coords t) ↔ 4 ≤ t.val % 12 :=
  (by decide +kernel : ∀ t : Fin grid0.N, onHidden (grid0.coords t) ↔ 4 ≤ t.val % 12)
theorem atLast_iff : ∀ t : Fin cfg0.N, atLast (grid0.coords t) ↔ t.val % 12 = 11 :=
  (by decide +kernel : ∀ t : Fin grid0.N, atLast (grid0.coords t) ↔ t.val % 12 = 11)

/-! ## Where the output windows are idle -/

/-- Away from k = 11 the body stores nothing into the new-state window, and the pipeline does not write it back. -/
theorem idle15 : ∀ t : Fin cfg0.N, ¬atLast (grid0.coords t) → cfg0.idle 15 (grid0.coords t) = true := by decide +kernel
theorem noFlush15 : ∀ t : Fin cfg0.N, ¬atLast (grid0.coords t) → (cfg0.win 15).flush t = false := by decide +kernel
theorem live15 : ∀ t : Fin cfg0.N, atLast (grid0.coords t) → cfg0.idle 15 (grid0.coords t) = false := by decide +kernel
/-- The same for the output window. -/
theorem idle16 : ∀ t : Fin cfg0.N, ¬atLast (grid0.coords t) → cfg0.idle 16 (grid0.coords t) = true := by decide +kernel
theorem noFlush16 : ∀ t : Fin cfg0.N, ¬atLast (grid0.coords t) → (cfg0.win 16).flush t = false := by decide +kernel
theorem live16 : ∀ t : Fin cfg0.N, atLast (grid0.coords t) → cfg0.idle 16 (grid0.coords t) = false := by decide +kernel

/-! ## The memrefs the body is called with -/

abbrev ms0 (t : Fin cfg0.N) : Memref sig .tc .vmem S512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x1 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x512 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x512 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S512x1 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S512x512 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S512x512 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S512x1 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S512x512 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S512x512 .f32 := win0_16.stage (cfg0.slots t 16)
abbrev hs16 (t : Fin cfg0.N) : (ms16 t).IsWhole := hstage0_16 ((cfg0.slots t 16).cast nbuf0_16)

/-- The four accumulators: whole scoped buffers of the kernel's own. -/
abbrev accF : Memref sig .tc .vmem S512x512 .f32 := Memref.whole cc0_scratch0
abbrev accI : Memref sig .tc .vmem S512x512 .f32 := Memref.whole cc0_scratch1
abbrev accC : Memref sig .tc .vmem S512x512 .f32 := Memref.whole cc0_scratch2
abbrev accO : Memref sig .tc .vmem S512x512 .f32 := Memref.whole cc0_scratch3
/-- An accumulator's contents are stated through its view. -/
abbrev vF : View sig .tc .vmem S512x512 .f32 := accF.view
abbrev vI : View sig .tc .vmem S512x512 .f32 := accI.view
abbrev vC : View sig .tc .vmem S512x512 .f32 := accC.view
abbrev vO : View sig .tc .vmem S512x512 .f32 := accO.view
/-- One staging buffer of each output window, through which its contents are stated (the choice does not matter). -/
abbrev vNew : View sig .tc .vmem S512x512 .f32 := (Memref.whole cc0_stg15_0 : Memref sig .tc .vmem S512x512 .f32).view
abbrev vOut : View sig .tc .vmem S512x512 .f32 := (Memref.whole cc0_stg16_0 : Memref sig .tc .vmem S512x512 .f32).view

/-- A buffer after a run of the body: some contents overwritten by the run's stores, listed as pieces (last first). -/
abbrev wrote (c : Dev nD) (a : Memref sig .tc .vmem S512x512 .f32) (L : List (View.Piece (Elt F) S512x512 .f32)) : sProp 𝕄 :=
  iprop(∃ f, a.view.loc (c : Thread nD τ) ↦[a.view.set]{fullShare} a.view.writes (Elt F) f L)

/-- What the region hands the body besides the windows: the four accumulators, each owned whole at some contents, and the
    generator register at some state. -/
theorem regionInv_eq (c : Dev nD) :
    (Pipeline.ΦA spec0 c : sProp 𝕄)
      = iprop(iprop((∃ d, owns (c : Thread nD τ) accF fullShare d) ∗ (∃ d, owns (c : Thread nD τ) accI fullShare d)
          ∗ (∃ d, owns (c : Thread nD τ) accC fullShare d) ∗ (∃ d, owns (c : Thread nD τ) accO fullShare d)) ∗ (∃ r, prngReg c r)) := by
  unfold Pipeline.ΦA; rw [scopedRest0_eq]; simp only [accF, accI, accC, accO, owns_whole]; try rfl

end Cert.Kernel.Body

end
-- ==== Proof.Kernel.RunFirst.lean ====
/-
  The body at a point with k = 0. The four accumulators, found at anything, are zeroed; then the slab of x the point
  was handed is multiplied by the point's block of each of the four input weights and added in. Nothing else is
  touched: the run owns only x's block, the four input-weight blocks and the four accumulators, and hands back the
  blocks as they were and each accumulator with two stores recorded (the zero, then the first partial product).
-/
import proofs.«172886_j24756191494330_1_alg».proof.Proof.Kernel.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg3 : Memref sig .tc .vmem S512x512 .f32) (harg3 : arg3.IsWhole) (arg4 : Memref sig .tc .vmem S512x512 .f32) (harg4 : arg4.IsWhole)
  (arg5 : Memref sig .tc .vmem S512x512 .f32) (harg5 : arg5.IsWhole) (arg6 : Memref sig .tc .vmem S512x512 .f32) (harg6 : arg6.IsWhole)
  (arg7 : Memref sig .tc .vmem S512x512 .f32) (harg7 : arg7.IsWhole) (arg8 : Memref sig .tc .vmem S512x1 .f32) (harg8 : arg8.IsWhole)
  (arg9 : Memref sig .tc .vmem S512x512 .f32) (harg9 : arg9.IsWhole) (arg10 : Memref sig .tc .vmem S512x512 .f32) (harg10 : arg10.IsWhole)
  (arg11 : Memref sig .tc .vmem S512x1 .f32) (harg11 : arg11.IsWhole) (arg12 : Memref sig .tc .vmem S512x512 .f32) (harg12 : arg12.IsWhole)
  (arg13 : Memref sig .tc .vmem S512x512 .f32) (harg13 : arg13.IsWhole) (arg14 : Memref sig .tc .vmem S512x1 .f32) (harg14 : arg14.IsWhole)
  (arg15 : Memref sig .tc .vmem S512x512 .f32) (harg15 : arg15.IsWhole) (arg16 : Memref sig .tc .vmem S512x512 .f32) (harg16 : arg16.IsWhole)
  (arg17 : Memref sig .tc .vmem S512x1 .f32) (harg17 : arg17.IsWhole) (arg18 : Memref sig .tc .vmem S512x512 .f32) (harg18 : arg18.IsWhole)
  (arg19 : Memref sig .tc .vmem S512x512 .f32) (harg19 : arg19.IsWhole) (arg20 : Memref sig .tc .vmem S512x512 .f32) (harg20 : arg20.IsWhole)
  (arg21 : Memref sig .tc .vmem S512x512 .f32) (harg21 : arg21.IsWhole) (arg22 : Memref sig .tc .vmem S512x512 .f32) (harg22 : arg22.IsWhole)
  (arg23 : Memref sig .tc .vmem S512x512 .f32) (harg23 : arg23.IsWhole)

set_option maxHeartbeats 4000000 in
/-- k = 0: on whole memrefs, x's block and the four input-weight blocks at their contents and the accumulators at
    anything, the body runs to a continuation that gets the blocks back unchanged and each accumulator written with
    the pieces the run found. -/
noncomputable def runFirst (hc0 : atFirst i) (hc1 : onInput i) (hc2 : ¬onHidden i) (hc3 : ¬atLast i)
    (x wf wi wc wo : Vec F S512x512 .f32) :
    Σ' (LF : List (View.Piece (Elt F) S512x512 .f32)) (LI : List (View.Piece (Elt F) S512x512 .f32))
       (LC : List (View.Piece (Elt F) S512x512 .f32)),
      { LO : List (View.Piece (Elt F) S512x512 .f32) //
        ∀ (E : Set ℕ) (K : PUnit → sProp 𝕄),
          iprop(owns (c : Thread nD τ) arg3 fullShare x ∗ owns (c : Thread nD τ) arg6 fullShare wf
              ∗ owns (c : Thread nD τ) arg9 fullShare wi ∗ owns (c : Thread nD τ) arg12 fullShare wc
              ∗ owns (c : Thread nD τ) arg15 fullShare wo
              ∗ (∃ d, owns (c : Thread nD τ) arg20 fullShare d) ∗ (∃ d, owns (c : Thread nD τ) arg21 fullShare d)
              ∗ (∃ d, owns (c : Thread nD τ) arg22 fullShare d) ∗ (∃ d, owns (c : Thread nD τ) arg23 fullShare d)
              ∗ (iprop(owns (c : Thread nD τ) arg3 fullShare x ∗ owns (c : Thread nD τ) arg6 fullShare wf
                  ∗ owns (c : Thread nD τ) arg9 fullShare wi ∗ owns (c : Thread nD τ) arg12 fullShare wc
                  ∗ owns (c : Thread nD τ) arg15 fullShare wo
                  ∗ wrote c arg20 LF ∗ wrote c arg21 LI ∗ wrote c arg22 LC ∗ wrote c arg23 LO) -∗ K ⟨⟩))
            ⊢ wp frame (wpE (defs₀ (F := F)) Variants.none c none) E
                (cc0__lstm_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, fun E K => ?run⟩
  case run =>
    simp only [cc0__lstm_kernel_eq_skeleton]; unfold cc0__lstm_kernel_skel
    simp only [k0_part1_eq_skeleton, k0_part2_eq_skeleton]
    unfold owns wrote
    iintro ⟨⟨%f0, %hf0, H0⟩, ⟨%f3, %hf3, H3⟩, ⟨%f6, %hf6, H6⟩, ⟨%f9, %hf9, H9⟩, ⟨%f12, %hf12, H12⟩,
      ⟨%dF, %fF, -, HF⟩, ⟨%dI, %fI, -, HI⟩, ⟨%dC, %fC, -, HC⟩, ⟨%dO, %fO, -, HO⟩, Hk⟩
    obtain rfl := harg3.eq_unread hf0; obtain rfl := harg6.eq_unread hf3; obtain rfl := harg9.eq_unread hf6
    obtain rfl := harg12.eq_unread hf9; obtain rfl := harg15.eq_unread hf12
    sl_exec (disch := first | exact hc0 | exact hc1 | exact hc2 | exact hc3)
    sl_step
    iapply Hk
    isplitl [H0]
    · iexists _; isplitr; · ipureintro; exact harg3.read_unread _
      iexact H0
    isplitl [H3]
    · iexists _; isplitr; · ipureintro; exact harg6.read_unread _
      iexact H3
    isplitl [H6]
    · iexists _; isplitr; · ipureintro; exact harg9.read_unread _
      iexact H6
    isplitl [H9]
    · iexists _; isplitr; · ipureintro; exact harg12.read_unread _
      iexact H9
    isplitl [H12]
    · iexists _; isplitr; · ipureintro; exact harg15.read_unread _
      iexact H12
    isplitl [HF]; · iexists _; iexact HF
    isplitl [HI]; · iexists _; iexact HI
    isplitl [HC]; · iexists _; iexact HC
    iexists _; iexact HO

end Cert.Kernel.Body

end
-- ==== Proof.Kernel.RunInput.lean ====
/-
  The body at a point with k = 1, 2 or 3. Each accumulator is found at what the step before left in it; the slab of x
  the point was handed is multiplied by the point's block of each input weight and added in. The run owns x's block,
  the four input-weight blocks and the four accumulators, and hands each accumulator back with one store recorded.
-/
import proofs.«172886_j24756191494330_1_alg».proof.Proof.Kernel.RunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg3 : Memref sig .tc .vmem S512x512 .f32) (harg3 : arg3.IsWhole) (arg4 : Memref sig .tc .vmem S512x512 .f32) (harg4 : arg4.IsWhole)
  (arg5 : Memref sig .tc .vmem S512x512 .f32) (harg5 : arg5.IsWhole) (arg6 : Memref sig .tc .vmem S512x512 .f32) (harg6 : arg6.IsWhole)
  (arg7 : Memref sig .tc .vmem S512x512 .f32) (harg7 : arg7.IsWhole) (arg8 : Memref sig .tc .vmem S512x1 .f32) (harg8 : arg8.IsWhole)
  (arg9 : Memref sig .tc .vmem S512x512 .f32) (harg9 : arg9.IsWhole) (arg10 : Memref sig .tc .vmem S512x512 .f32) (harg10 : arg10.IsWhole)
  (arg11 : Memref sig .tc .vmem S512x1 .f32) (harg11 : arg11.IsWhole) (arg12 : Memref sig .tc .vmem S512x512 .f32) (harg12 : arg12.IsWhole)
  (arg13 : Memref sig .tc .vmem S512x512 .f32) (harg13 : arg13.IsWhole) (arg14 : Memref sig .tc .vmem S512x1 .f32) (harg14 : arg14.IsWhole)
  (arg15 : Memref sig .tc .vmem S512x512 .f32) (harg15 : arg15.IsWhole) (arg16 : Memref sig .tc .vmem S512x512 .f32) (harg16 : arg16.IsWhole)
  (arg17 : Memref sig .tc .vmem S512x1 .f32) (harg17 : arg17.IsWhole) (arg18 : Memref sig .tc .vmem S512x512 .f32) (harg18 : arg18.IsWhole)
  (arg19 : Memref sig .tc .vmem S512x512 .f32) (harg19 : arg19.IsWhole) (arg20 : Memref sig .tc .vmem S512x512 .f32) (harg20 : arg20.IsWhole)
  (arg21 : Memref sig .tc .vmem S512x512 .f32) (harg21 : arg21.IsWhole) (arg22 : Memref sig .tc .vmem S512x512 .f32) (harg22 : arg22.IsWhole)
  (arg23 : Memref sig .tc .vmem S512x512 .f32) (harg23 : arg23.IsWhole)

set_option maxHeartbeats 4000000 in
/-- 0 < k < 4: on whole memrefs, x's block and the four input-weight blocks at their contents and the accumulators at
    the contents `aF aI aC aO` carried in, the body runs to a continuation that gets the blocks back unchanged and each
    accumulator written with the piece the run found. -/
noncomputable def runInput (hc0 : ¬atFirst i) (hc1 : onInput i) (hc2 : ¬onHidden i) (hc3 : ¬atLast i)
    (x wf wi wc wo aF aI aC aO : Vec F S512x512 .f32) :
    Σ' (LF : List (View.Piece (Elt F) S512x512 .f32)) (LI : List (View.Piece (Elt F) S512x512 .f32))
       (LC : List (View.Piece (Elt F) S512x512 .f32)),
      { LO : List (View.Piece (Elt F) S512x512 .f32) //
        ∀ (E : Set ℕ) (K : PUnit → sProp 𝕄),
          iprop(owns (c : Thread nD τ) arg3 fullShare x ∗ owns (c : Thread nD τ) arg6 fullShare wf
              ∗ owns (c : Thread nD τ) arg9 fullShare wi ∗ owns (c : Thread nD τ) arg12 fullShare wc
              ∗ owns (c : Thread nD τ) arg15 fullShare wo
              ∗ owns (c : Thread nD τ) arg20 fullShare aF ∗ owns (c : Thread nD τ) arg21 fullShare aI
              ∗ owns (c : Thread nD τ) arg22 fullShare aC ∗ owns (c : Thread nD τ) arg23 fullShare aO
              ∗ (iprop(owns (c : Thread nD τ) arg3 fullShare x ∗ owns (c : Thread nD τ) arg6 fullShare wf
                  ∗ owns (c : Thread nD τ) arg9 fullShare wi ∗ owns (c : Thread nD τ) arg12 fullShare wc
                  ∗ owns (c : Thread nD τ) arg15 fullShare wo
                  ∗ wrote c arg20 LF ∗ wrote c arg21 LI ∗ wrote c arg22 LC ∗ wrote c arg23 LO) -∗ K ⟨⟩))
            ⊢ wp frame (wpE (defs₀ (F := F)) Variants.none c none) E
                (cc0__lstm_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, fun E K => ?run⟩
  case run =>
    simp only [cc0__lstm_kernel_eq_skeleton]; unfold cc0__lstm_kernel_skel
    simp only [k0_part1_eq_skeleton, k0_part2_eq_skeleton]
    unfold owns wrote
    iintro ⟨⟨%f0, %hf0, H0⟩, ⟨%f3, %hf3, H3⟩, ⟨%f6, %hf6, H6⟩, ⟨%f9, %hf9, H9⟩, ⟨%f12, %hf12, H12⟩,
      ⟨%fF, %hfF, HF⟩, ⟨%fI, %hfI, HI⟩, ⟨%fC, %hfC, HC⟩, ⟨%fO, %hfO, HO⟩, Hk⟩
    obtain rfl := harg3.eq_unread hf0; obtain rfl := harg6.eq_unread hf3; obtain rfl := harg9.eq_unread hf6
    obtain rfl := harg12.eq_unread hf9; obtain rfl := harg15.eq_unread hf12
    obtain rfl := harg20.eq_unread hfF; obtain rfl := harg21.eq_unread hfI
    obtain rfl := harg22.eq_unread hfC; obtain rfl := harg23.eq_unread hfO
    sl_exec (disch := first | exact hc0 | exact hc1 | exact hc2 | exact hc3)
    sl_step
    iapply Hk
    isplitl [H0]
    · iexists _; isplitr; · ipureintro; exact harg3.read_unread _
      iexact H0
    isplitl [H3]
    · iexists _; isplitr; · ipureintro; exact harg6.read_unread _
      iexact H3
    isplitl [H6]
    · iexists _; isplitr; · ipureintro; exact harg9.read_unread _
      iexact H6
    isplitl [H9]
    · iexists _; isplitr; · ipureintro; exact harg12.read_unread _
      iexact H9
    isplitl [H12]
    · iexists _; isplitr; · ipureintro; exact harg15.read_unread _
      iexact H12
    isplitl [HF]; · iexists _; iexact HF
    isplitl [HI]; · iexists _; iexact HI
    isplitl [HC]; · iexists _; iexact HC
    iexists _; iexact HO

end Cert.Kernel.Body

end
-- ==== Proof.Kernel.RunHidden.lean ====
/-
  The body at a point with 4 ≤ k ≤ 10. Each accumulator is found at what the step before left in it; the slab of the
  previous output the point was handed is multiplied by the point's block of each hidden weight and added in. The run
  owns that slab, the four hidden-weight blocks and the four accumulators, and hands each accumulator back with one
  store recorded.
-/
import proofs.«172886_j24756191494330_1_alg».proof.Proof.Kernel.RunInput

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg3 : Memref sig .tc .vmem S512x512 .f32) (harg3 : arg3.IsWhole) (arg4 : Memref sig .tc .vmem S512x512 .f32) (harg4 : arg4.IsWhole)
  (arg5 : Memref sig .tc .vmem S512x512 .f32) (harg5 : arg5.IsWhole) (arg6 : Memref sig .tc .vmem S512x512 .f32) (harg6 : arg6.IsWhole)
  (arg7 : Memref sig .tc .vmem S512x512 .f32) (harg7 : arg7.IsWhole) (arg8 : Memref sig .tc .vmem S512x1 .f32) (harg8 : arg8.IsWhole)
  (arg9 : Memref sig .tc .vmem S512x512 .f32) (harg9 : arg9.IsWhole) (arg10 : Memref sig .tc .vmem S512x512 .f32) (harg10 : arg10.IsWhole)
  (arg11 : Memref sig .tc .vmem S512x1 .f32) (harg11 : arg11.IsWhole) (arg12 : Memref sig .tc .vmem S512x512 .f32) (harg12 : arg12.IsWhole)
  (arg13 : Memref sig .tc .vmem S512x512 .f32) (harg13 : arg13.IsWhole) (arg14 : Memref sig .tc .vmem S512x1 .f32) (harg14 : arg14.IsWhole)
  (arg15 : Memref sig .tc .vmem S512x512 .f32) (harg15 : arg15.IsWhole) (arg16 : Memref sig .tc .vmem S512x512 .f32) (harg16 : arg16.IsWhole)
  (arg17 : Memref sig .tc .vmem S512x1 .f32) (harg17 : arg17.IsWhole) (arg18 : Memref sig .tc .vmem S512x512 .f32) (harg18 : arg18.IsWhole)
  (arg19 : Memref sig .tc .vmem S512x512 .f32) (harg19 : arg19.IsWhole) (arg20 : Memref sig .tc .vmem S512x512 .f32) (harg20 : arg20.IsWhole)
  (arg21 : Memref sig .tc .vmem S512x512 .f32) (harg21 : arg21.IsWhole) (arg22 : Memref sig .tc .vmem S512x512 .f32) (harg22 : arg22.IsWhole)
  (arg23 : Memref sig .tc .vmem S512x512 .f32) (harg23 : arg23.IsWhole)

set_option maxHeartbeats 4000000 in
/-- 4 ≤ k < 11: on whole memrefs, the previous output's block and the four hidden-weight blocks at their contents and
    the accumulators at the contents carried in, the body runs to a continuation that gets the blocks back unchanged
    and each accumulator written with the piece the run found. -/
noncomputable def runHidden (hc0 : ¬atFirst i) (hc1 : ¬onInput i) (hc2 : onHidden i) (hc3 : ¬atLast i)
    (h uf ui uc uo aF aI aC aO : Vec F S512x512 .f32) :
    Σ' (LF : List (View.Piece (Elt F) S512x512 .f32)) (LI : List (View.Piece (Elt F) S512x512 .f32))
       (LC : List (View.Piece (Elt F) S512x512 .f32)),
      { LO : List (View.Piece (Elt F) S512x512 .f32) //
        ∀ (E : Set ℕ) (K : PUnit → sProp 𝕄),
          iprop(owns (c : Thread nD τ) arg4 fullShare h ∗ owns (c : Thread nD τ) arg7 fullShare uf
              ∗ owns (c : Thread nD τ) arg10 fullShare ui ∗ owns (c : Thread nD τ) arg13 fullShare uc
              ∗ owns (c : Thread nD τ) arg16 fullShare uo
              ∗ owns (c : Thread nD τ) arg20 fullShare aF ∗ owns (c : Thread nD τ) arg21 fullShare aI
              ∗ owns (c : Thread nD τ) arg22 fullShare aC ∗ owns (c : Thread nD τ) arg23 fullShare aO
              ∗ (iprop(owns (c : Thread nD τ) arg4 fullShare h ∗ owns (c : Thread nD τ) arg7 fullShare uf
                  ∗ owns (c : Thread nD τ) arg10 fullShare ui ∗ owns (c : Thread nD τ) arg13 fullShare uc
                  ∗ owns (c : Thread nD τ) arg16 fullShare uo
                  ∗ wrote c arg20 LF ∗ wrote c arg21 LI ∗ wrote c arg22 LC ∗ wrote c arg23 LO) -∗ K ⟨⟩))
            ⊢ wp frame (wpE (defs₀ (F := F)) Variants.none c none) E
                (cc0__lstm_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, fun E K => ?run⟩
  case run =>
    simp only [cc0__lstm_kernel_eq_skeleton]; unfold cc0__lstm_kernel_skel
    simp only [k0_part1_eq_skeleton, k0_part2_eq_skeleton]
    unfold owns wrote
    iintro ⟨⟨%f1, %hf1, H1⟩, ⟨%f4, %hf4, H4⟩, ⟨%f7, %hf7, H7⟩, ⟨%f10, %hf10, H10⟩, ⟨%f13, %hf13, H13⟩,
      ⟨%fF, %hfF, HF⟩, ⟨%fI, %hfI, HI⟩, ⟨%fC, %hfC, HC⟩, ⟨%fO, %hfO, HO⟩, Hk⟩
    obtain rfl := harg4.eq_unread hf1; obtain rfl := harg7.eq_unread hf4; obtain rfl := harg10.eq_unread hf7
    obtain rfl := harg13.eq_unread hf10; obtain rfl := harg16.eq_unread hf13
    obtain rfl := harg20.eq_unread hfF; obtain rfl := harg21.eq_unread hfI
    obtain rfl := harg22.eq_unread hfC; obtain rfl := harg23.eq_unread hfO
    sl_exec (disch := first | exact hc0 | exact hc1 | exact hc2 | exact hc3)
    sl_step
    iapply Hk
    isplitl [H1]
    · iexists _; isplitr; · ipureintro; exact harg4.read_unread _
      iexact H1
    isplitl [H4]
    · iexists _; isplitr; · ipureintro; exact harg7.read_unread _
      iexact H4
    isplitl [H7]
    · iexists _; isplitr; · ipureintro; exact harg10.read_unread _
      iexact H7
    isplitl [H10]
    · iexists _; isplitr; · ipureintro; exact harg13.read_unread _
      iexact H10
    isplitl [H13]
    · iexists _; isplitr; · ipureintro; exact harg16.read_unread _
      iexact H13
    isplitl [HF]; · iexists _; iexact HF
    isplitl [HI]; · iexists _; iexact HI
    isplitl [HC]; · iexists _; iexact HC
    iexists _; iexact HO

end Cert.Kernel.Body

end
-- ==== Proof.Kernel.RunLast.lean ====
/-
  The body at a point with k = 11, the last step of a block. The last slab of the previous output is multiplied by the
  hidden weights and added into the accumulators as at the steps before; then the accumulators are read back, each
  gate's bias column is added along the rows, the forget, input and output gates go through the logistic function and
  the candidate through tanh, and the two output blocks are stored: the new state s · f + i · g and tanh of it times o.
  The run owns the previous output's slab, the hidden-weight blocks, the four bias columns, the old state's block, the
  two output buffers (found at anything) and the four accumulators.
-/
import proofs.«172886_j24756191494330_1_alg».proof.Proof.Kernel.RunHidden

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg3 : Memref sig .tc .vmem S512x512 .f32) (harg3 : arg3.IsWhole) (arg4 : Memref sig .tc .vmem S512x512 .f32) (harg4 : arg4.IsWhole)
  (arg5 : Memref sig .tc .vmem S512x512 .f32) (harg5 : arg5.IsWhole) (arg6 : Memref sig .tc .vmem S512x512 .f32) (harg6 : arg6.IsWhole)
  (arg7 : Memref sig .tc .vmem S512x512 .f32) (harg7 : arg7.IsWhole) (arg8 : Memref sig .tc .vmem S512x1 .f32) (harg8 : arg8.IsWhole)
  (arg9 : Memref sig .tc .vmem S512x512 .f32) (harg9 : arg9.IsWhole) (arg10 : Memref sig .tc .vmem S512x512 .f32) (harg10 : arg10.IsWhole)
  (arg11 : Memref sig .tc .vmem S512x1 .f32) (harg11 : arg11.IsWhole) (arg12 : Memref sig .tc .vmem S512x512 .f32) (harg12 : arg12.IsWhole)
  (arg13 : Memref sig .tc .vmem S512x512 .f32) (harg13 : arg13.IsWhole) (arg14 : Memref sig .tc .vmem S512x1 .f32) (harg14 : arg14.IsWhole)
  (arg15 : Memref sig .tc .vmem S512x512 .f32) (harg15 : arg15.IsWhole) (arg16 : Memref sig .tc .vmem S512x512 .f32) (harg16 : arg16.IsWhole)
  (arg17 : Memref sig .tc .vmem S512x1 .f32) (harg17 : arg17.IsWhole) (arg18 : Memref sig .tc .vmem S512x512 .f32) (harg18 : arg18.IsWhole)
  (arg19 : Memref sig .tc .vmem S512x512 .f32) (harg19 : arg19.IsWhole) (arg20 : Memref sig .tc .vmem S512x512 .f32) (harg20 : arg20.IsWhole)
  (arg21 : Memref sig .tc .vmem S512x512 .f32) (harg21 : arg21.IsWhole) (arg22 : Memref sig .tc .vmem S512x512 .f32) (harg22 : arg22.IsWhole)
  (arg23 : Memref sig .tc .vmem S512x512 .f32) (harg23 : arg23.IsWhole)

set_option maxHeartbeats 8000000 in
/-- k = 11: on whole memrefs, the blocks the step reads at their contents, the accumulators at the contents carried in
    and the two output buffers at anything, the body runs to a continuation that gets the blocks back unchanged, each
    accumulator written with the piece the run found and each output buffer written with its block. -/
noncomputable def runLast (hc0 : ¬atFirst i) (hc1 : ¬onInput i) (hc2 : onHidden i) (hc3 : atLast i)
    (h uf ui uc uo s aF aI aC aO : Vec F S512x512 .f32) (bf bi bc bo : Vec F S512x1 .f32) :
    Σ' (LN : List (View.Piece (Elt F) S512x512 .f32)) (LH : List (View.Piece (Elt F) S512x512 .f32))
       (LF : List (View.Piece (Elt F) S512x512 .f32)) (LI : List (View.Piece (Elt F) S512x512 .f32))
       (LC : List (View.Piece (Elt F) S512x512 .f32)),
      { LO : List (View.Piece (Elt F) S512x512 .f32) //
        ∀ (E : Set ℕ) (K : PUnit → sProp 𝕄),
          iprop(owns (c : Thread nD τ) arg4 fullShare h ∗ owns (c : Thread nD τ) arg7 fullShare uf
              ∗ owns (c : Thread nD τ) arg10 fullShare ui ∗ owns (c : Thread nD τ) arg13 fullShare uc
              ∗ owns (c : Thread nD τ) arg16 fullShare uo
              ∗ owns (c : Thread nD τ) arg8 fullShare bf ∗ owns (c : Thread nD τ) arg11 fullShare bi
              ∗ owns (c : Thread nD τ) arg14 fullShare bc ∗ owns (c : Thread nD τ) arg17 fullShare bo
              ∗ owns (c : Thread nD τ) arg5 fullShare s
              ∗ (∃ d, owns (c : Thread nD τ) arg18 fullShare d) ∗ (∃ d, owns (c : Thread nD τ) arg19 fullShare d)
              ∗ owns (c : Thread nD τ) arg20 fullShare aF ∗ owns (c : Thread nD τ) arg21 fullShare aI
              ∗ owns (c : Thread nD τ) arg22 fullShare aC ∗ owns (c : Thread nD τ) arg23 fullShare aO
              ∗ (iprop(owns (c : Thread nD τ) arg4 fullShare h ∗ owns (c : Thread nD τ) arg7 fullShare uf
                  ∗ owns (c : Thread nD τ) arg10 fullShare ui ∗ owns (c : Thread nD τ) arg13 fullShare uc
                  ∗ owns (c : Thread nD τ) arg16 fullShare uo
                  ∗ owns (c : Thread nD τ) arg8 fullShare bf ∗ owns (c : Thread nD τ) arg11 fullShare bi
                  ∗ owns (c : Thread nD τ) arg14 fullShare bc ∗ owns (c : Thread nD τ) arg17 fullShare bo
                  ∗ owns (c : Thread nD τ) arg5 fullShare s
                  ∗ wrote c arg18 LN ∗ wrote c arg19 LH
                  ∗ wrote c arg20 LF ∗ wrote c arg21 LI ∗ wrote c arg22 LC ∗ wrote c arg23 LO) -∗ K ⟨⟩))
            ⊢ wp frame (wpE (defs₀ (F := F)) Variants.none c none) E
                (cc0__lstm_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, fun E K => ?run⟩
  case run =>
    simp only [cc0__lstm_kernel_eq_skeleton]; unfold cc0__lstm_kernel_skel
    simp only [k0_part1_eq_skeleton, k0_part2_eq_skeleton]
    unfold owns wrote
    iintro ⟨⟨%f1, %hf1, H1⟩, ⟨%f4, %hf4, H4⟩, ⟨%f7, %hf7, H7⟩, ⟨%f10, %hf10, H10⟩, ⟨%f13, %hf13, H13⟩,
      ⟨%f5, %hf5, H5⟩, ⟨%f8, %hf8, H8⟩, ⟨%f11, %hf11, H11⟩, ⟨%f14, %hf14, H14⟩, ⟨%f2, %hf2, H2⟩,
      ⟨%dN, %fN, -, HN⟩, ⟨%dH, %fH, -, HH⟩,
      ⟨%fF, %hfF, HF⟩, ⟨%fI, %hfI, HI⟩, ⟨%fC, %hfC, HC⟩, ⟨%fO, %hfO, HO⟩, Hk⟩
    obtain rfl := harg4.eq_unread hf1; obtain rfl := harg7.eq_unread hf4; obtain rfl := harg10.eq_unread hf7
    obtain rfl := harg13.eq_unread hf10; obtain rfl := harg16.eq_unread hf13
    obtain rfl := harg8.eq_unread hf5; obtain rfl := harg11.eq_unread hf8; obtain rfl := harg14.eq_unread hf11
    obtain rfl := harg17.eq_unread hf14; obtain rfl := harg5.eq_unread hf2
    obtain rfl := harg20.eq_unread hfF; obtain rfl := harg21.eq_unread hfI
    obtain rfl := harg22.eq_unread hfC; obtain rfl := harg23.eq_unread hfO
    sl_exec (disch := first | exact hc0 | exact hc1 | exact hc2 | exact hc3)
    sl_step
    iapply Hk
    isplitl [H1]
    · iexists _; isplitr; · ipureintro; exact harg4.read_unread _
      iexact H1
    isplitl [H4]
    · iexists _; isplitr; · ipureintro; exact harg7.read_unread _
      iexact H4
    isplitl [H7]
    · iexists _; isplitr; · ipureintro; exact harg10.read_unread _
      iexact H7
    isplitl [H10]
    · iexists _; isplitr; · ipureintro; exact harg13.read_unread _
      iexact H10
    isplitl [H13]
    · iexists _; isplitr; · ipureintro; exact harg16.read_unread _
      iexact H13
    isplitl [H5]
    · iexists _; isplitr; · ipureintro; exact harg8.read_unread _
      iexact H5
    isplitl [H8]
    · iexists _; isplitr; · ipureintro; exact harg11.read_unread _
      iexact H8
    isplitl [H11]
    · iexists _; isplitr; · ipureintro; exact harg14.read_unread _
      iexact H11
    isplitl [H14]
    · iexists _; isplitr; · ipureintro; exact harg17.read_unread _
      iexact H14
    isplitl [H2]
    · iexists _; isplitr; · ipureintro; exact harg5.read_unread _
      iexact H2
    isplitl [HN]; · iexists _; iexact HN
    isplitl [HH]; · iexists _; iexact HH
    isplitl [HF]; · iexists _; iexact HF
    isplitl [HI]; · iexists _; iexact HI
    isplitl [HC]; · iexists _; iexact HC
    iexists _; iexact HO

end Cert.Kernel.Body

end
-- ==== Proof.Kernel.Outs.lean ====
/-
  What the body leaves behind, point by point.

  Each of the four runs records, per buffer it stores into, the pieces it wrote. Read back through a fixed view those
  pieces are the buffer's contents after the run, as soon as they cover the buffer — and they do: every store of this
  kernel writes a whole 512 x 512 buffer. `Accs` is the four accumulators' contents; `Left` adds the two output
  buffers'. `leftAt n` is what the body leaves after the point numbered `n`, by recursion on `n`: the step k = n mod 12
  selects the run, which is handed the blocks of point `n` and, unless k = 0, the accumulators as point `n - 1` left
  them (nothing else touches the scratch between two points). Away from k = 11 the output buffers are idle and their
  entry in `Left` is a placeholder nothing consults.
-/
import proofs.«172886_j24756191494330_1_alg».proof.Proof.Kernel.RunLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four accumulators' contents: forget, input, candidate, output. -/
structure Accs (F : FTy → Type) [FloatOps F] where
  f : Vec F S512x512 .f32
  i : Vec F S512x512 .f32
  g : Vec F S512x512 .f32
  o : Vec F S512x512 .f32

/-- The accumulators' and the two output buffers' contents. -/
structure Left (F : FTy → Type) [FloatOps F] where
  acc : Accs F
  new : Vec F S512x512 .f32
  out : Vec F S512x512 .f32

section OnAnyMemrefs

variable (c : Dev nD) (i : grid0.Coords)
  (arg3 : Memref sig .tc .vmem S512x512 .f32) (harg3 : arg3.IsWhole) (arg4 : Memref sig .tc .vmem S512x512 .f32) (harg4 : arg4.IsWhole)
  (arg5 : Memref sig .tc .vmem S512x512 .f32) (harg5 : arg5.IsWhole) (arg6 : Memref sig .tc .vmem S512x512 .f32) (harg6 : arg6.IsWhole)
  (arg7 : Memref sig .tc .vmem S512x512 .f32) (harg7 : arg7.IsWhole) (arg8 : Memref sig .tc .vmem S512x1 .f32) (harg8 : arg8.IsWhole)
  (arg9 : Memref sig .tc .vmem S512x512 .f32) (harg9 : arg9.IsWhole) (arg10 : Memref sig .tc .vmem S512x512 .f32) (harg10 : arg10.IsWhole)
  (arg11 : Memref sig .tc .vmem S512x1 .f32) (harg11 : arg11.IsWhole) (arg12 : Memref sig .tc .vmem S512x512 .f32) (harg12 : arg12.IsWhole)
  (arg13 : Memref sig .tc .vmem S512x512 .f32) (harg13 : arg13.IsWhole) (arg14 : Memref sig .tc .vmem S512x1 .f32) (harg14 : arg14.IsWhole)
  (arg15 : Memref sig .tc .vmem S512x512 .f32) (harg15 : arg15.IsWhole) (arg16 : Memref sig .tc .vmem S512x512 .f32) (harg16 : arg16.IsWhole)
  (arg17 : Memref sig .tc .vmem S512x1 .f32) (harg17 : arg17.IsWhole) (arg18 : Memref sig .tc .vmem S512x512 .f32) (harg18 : arg18.IsWhole)
  (arg19 : Memref sig .tc .vmem S512x512 .f32) (harg19 : arg19.IsWhole) (arg20 : Memref sig .tc .vmem S512x512 .f32) (harg20 : arg20.IsWhole)
  (arg21 : Memref sig .tc .vmem S512x512 .f32) (harg21 : arg21.IsWhole) (arg22 : Memref sig .tc .vmem S512x512 .f32) (harg22 : arg22.IsWhole)
  (arg23 : Memref sig .tc .vmem S512x512 .f32) (harg23 : arg23.IsWhole)

local notation "RFirst" => runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
local notation "RInput" => runInput c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
local notation "RHidden" => runHidden c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
local notation "RLast" => runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23

/-! ### k = 0 -/

section First
variable (hc0 : atFirst i) (hc1 : onInput i) (hc2 : ¬onHidden i) (hc3 : ¬atLast i) (x wf wi wc wo : Vec F S512x512 .f32)

theorem coverFirstF (y : S512x512.Idx) : ∃ pc ∈ (RFirst hc0 hc1 hc2 hc3 x wf wi wc wo).1, y ∈ pc.1.set :=
  View.cover_of_tiledL (RFirst hc0 hc1 hc2 hc3 x wf wi wc wo).1 S512x512.size (by sl_kernel_rfl) y
theorem coverFirstI (y : S512x512.Idx) : ∃ pc ∈ (RFirst hc0 hc1 hc2 hc3 x wf wi wc wo).2.1, y ∈ pc.1.set :=
  View.cover_of_tiledL (RFirst hc0 hc1 hc2 hc3 x wf wi wc wo).2.1 S512x512.size (by sl_kernel_rfl) y
theorem coverFirstC (y : S512x512.Idx) : ∃ pc ∈ (RFirst hc0 hc1 hc2 hc3 x wf wi wc wo).2.2.1, y ∈ pc.1.set :=
  View.cover_of_tiledL (RFirst hc0 hc1 hc2 hc3 x wf wi wc wo).2.2.1 S512x512.size (by sl_kernel_rfl) y
theorem coverFirstO (y : S512x512.Idx) : ∃ pc ∈ (RFirst hc0 hc1 hc2 hc3 x wf wi wc wo).2.2.2.1, y ∈ pc.1.set :=
  View.cover_of_tiledL (RFirst hc0 hc1 hc2 hc3 x wf wi wc wo).2.2.2.1 S512x512.size (by sl_kernel_rfl) y

/-- The accumulators after a step with k = 0. -/
def accsFirst : Accs F where
  f := vF.read (Elt F) (vF.writes (Elt F) vF.junk (RFirst hc0 hc1 hc2 hc3 x wf wi wc wo).1)
  i := vI.read (Elt F) (vI.writes (Elt F) vI.junk (RFirst hc0 hc1 hc2 hc3 x wf wi wc wo).2.1)
  g := vC.read (Elt F) (vC.writes (Elt F) vC.junk (RFirst hc0 hc1 hc2 hc3 x wf wi wc wo).2.2.1)
  o := vO.read (Elt F) (vO.writes (Elt F) vO.junk (RFirst hc0 hc1 hc2 hc3 x wf wi wc wo).2.2.2.1)
end First

/-! ### 0 < k < 4 -/

section Input
variable (hc0 : ¬atFirst i) (hc1 : onInput i) (hc2 : ¬onHidden i) (hc3 : ¬atLast i) (x wf wi wc wo : Vec F S512x512 .f32) (a : Accs F)

theorem coverInputF (y : S512x512.Idx) : ∃ pc ∈ (RInput hc0 hc1 hc2 hc3 x wf wi wc wo a.f a.i a.g a.o).1, y ∈ pc.1.set :=
  View.cover_of_tiledL (RInput hc0 hc1 hc2 hc3 x wf wi wc wo a.f a.i a.g a.o).1 S512x512.size (by sl_kernel_rfl) y
theorem coverInputI (y : S512x512.Idx) : ∃ pc ∈ (RInput hc0 hc1 hc2 hc3 x wf wi wc wo a.f a.i a.g a.o).2.1, y ∈ pc.1.set :=
  View.cover_of_tiledL (RInput hc0 hc1 hc2 hc3 x wf wi wc wo a.f a.i a.g a.o).2.1 S512x512.size (by sl_kernel_rfl) y
theorem coverInputC (y : S512x512.Idx) : ∃ pc ∈ (RInput hc0 hc1 hc2 hc3 x wf wi wc wo a.f a.i a.g a.o).2.2.1, y ∈ pc.1.set :=
  View.cover_of_tiledL (RInput hc0 hc1 hc2 hc3 x wf wi wc wo a.f a.i a.g a.o).2.2.1 S512x512.size (by sl_kernel_rfl) y
theorem coverInputO (y : S512x512.Idx) : ∃ pc ∈ (RInput hc0 hc1 hc2 hc3 x wf wi wc wo a.f a.i a.g a.o).2.2.2.1, y ∈ pc.1.set :=
  View.cover_of_tiledL (RInput hc0 hc1 hc2 hc3 x wf wi wc wo a.f a.i a.g a.o).2.2.2.1 S512x512.size (by sl_kernel_rfl) y

/-- The accumulators after a step with 0 < k < 4, from the accumulators `a` carried in. -/
def accsInput : Accs F where
  f := vF.read (Elt F) (vF.writes (Elt F) vF.junk (RInput hc0 hc1 hc2 hc3 x wf wi wc wo a.f a.i a.g a.o).1)
  i := vI.read (Elt F) (vI.writes (Elt F) vI.junk (RInput hc0 hc1 hc2 hc3 x wf wi wc wo a.f a.i a.g a.o).2.1)
  g := vC.read (Elt F) (vC.writes (Elt F) vC.junk (RInput hc0 hc1 hc2 hc3 x wf wi wc wo a.f a.i a.g a.o).2.2.1)
  o := vO.read (Elt F) (vO.writes (Elt F) vO.junk (RInput hc0 hc1 hc2 hc3 x wf wi wc wo a.f a.i a.g a.o).2.2.2.1)
end Input

/-! ### 4 ≤ k < 11 -/

section Hidden
variable (hc0 : ¬atFirst i) (hc1 : ¬onInput i) (hc2 : onHidden i) (hc3 : ¬atLast i) (h uf ui uc uo : Vec F S512x512 .f32) (a : Accs F)

theorem coverHiddenF (y : S512x512.Idx) : ∃ pc ∈ (RHidden hc0 hc1 hc2 hc3 h uf ui uc uo a.f a.i a.g a.o).1, y ∈ pc.1.set :=
  View.cover_of_tiledL (RHidden hc0 hc1 hc2 hc3 h uf ui uc uo a.f a.i a.g a.o).1 S512x512.size (by sl_kernel_rfl) y
theorem coverHiddenI (y : S512x512.Idx) : ∃ pc ∈ (RHidden hc0 hc1 hc2 hc3 h uf ui uc uo a.f a.i a.g a.o).2.1, y ∈ pc.1.set :=
  View.cover_of_tiledL (RHidden hc0 hc1 hc2 hc3 h uf ui uc uo a.f a.i a.g a.o).2.1 S512x512.size (by sl_kernel_rfl) y
theorem coverHiddenC (y : S512x512.Idx) : ∃ pc ∈ (RHidden hc0 hc1 hc2 hc3 h uf ui uc uo a.f a.i a.g a.o).2.2.1, y ∈ pc.1.set :=
  View.cover_of_tiledL (RHidden hc0 hc1 hc2 hc3 h uf ui uc uo a.f a.i a.g a.o).2.2.1 S512x512.size (by sl_kernel_rfl) y
theorem coverHiddenO (y : S512x512.Idx) : ∃ pc ∈ (RHidden hc0 hc1 hc2 hc3 h uf ui uc uo a.f a.i a.g a.o).2.2.2.1, y ∈ pc.1.set :=
  View.cover_of_tiledL (RHidden hc0 hc1 hc2 hc3 h uf ui uc uo a.f a.i a.g a.o).2.2.2.1 S512x512.size (by sl_kernel_rfl) y

/-- The accumulators after a step with 4 ≤ k < 11, from the accumulators `a` carried in. -/
def accsHidden : Accs F where
  f := vF.read (Elt F) (vF.writes (Elt F) vF.junk (RHidden hc0 hc1 hc2 hc3 h uf ui uc uo a.f a.i a.g a.o).1)
  i := vI.read (Elt F) (vI.writes (Elt F) vI.junk (RHidden hc0 hc1 hc2 hc3 h uf ui uc uo a.f a.i a.g a.o).2.1)
  g := vC.read (Elt F) (vC.writes (Elt F) vC.junk (RHidden hc0 hc1 hc2 hc3 h uf ui uc uo a.f a.i a.g a.o).2.2.1)
  o := vO.read (Elt F) (vO.writes (Elt F) vO.junk (RHidden hc0 hc1 hc2 hc3 h uf ui uc uo a.f a.i a.g a.o).2.2.2.1)
end Hidden

/-! ### k = 11 -/

section Last
variable (hc0 : ¬atFirst i) (hc1 : ¬onInput i) (hc2 : onHidden i) (hc3 : atLast i) (h uf ui uc uo s : Vec F S512x512 .f32) (a : Accs F)
  (bf bi bc bo : Vec F S512x1 .f32)

theorem coverLastN (y : S512x512.Idx) : ∃ pc ∈ (RLast hc0 hc1 hc2 hc3 h uf ui uc uo s a.f a.i a.g a.o bf bi bc bo).1, y ∈ pc.1.set :=
  View.cover_of_tiledL (RLast hc0 hc1 hc2 hc3 h uf ui uc uo s a.f a.i a.g a.o bf bi bc bo).1 S512x512.size (by sl_kernel_rfl) y
theorem coverLastH (y : S512x512.Idx) : ∃ pc ∈ (RLast hc0 hc1 hc2 hc3 h uf ui uc uo s a.f a.i a.g a.o bf bi bc bo).2.1, y ∈ pc.1.set :=
  View.cover_of_tiledL (RLast hc0 hc1 hc2 hc3 h uf ui uc uo s a.f a.i a.g a.o bf bi bc bo).2.1 S512x512.size (by sl_kernel_rfl) y
theorem coverLastF (y : S512x512.Idx) : ∃ pc ∈ (RLast hc0 hc1 hc2 hc3 h uf ui uc uo s a.f a.i a.g a.o bf bi bc bo).2.2.1, y ∈ pc.1.set :=
  View.cover_of_tiledL (RLast hc0 hc1 hc2 hc3 h uf ui uc uo s a.f a.i a.g a.o bf bi bc bo).2.2.1 S512x512.size (by sl_kernel_rfl) y
theorem coverLastI (y : S512x512.Idx) : ∃ pc ∈ (RLast hc0 hc1 hc2 hc3 h uf ui uc uo s a.f a.i a.g a.o bf bi bc bo).2.2.2.1, y ∈ pc.1.set :=
  View.cover_of_tiledL (RLast hc0 hc1 hc2 hc3 h uf ui uc uo s a.f a.i a.g a.o bf bi bc bo).2.2.2.1 S512x512.size (by sl_kernel_rfl) y
theorem coverLastC (y : S512x512.Idx) : ∃ pc ∈ (RLast hc0 hc1 hc2 hc3 h uf ui uc uo s a.f a.i a.g a.o bf bi bc bo).2.2.2.2.1, y ∈ pc.1.set :=
  View.cover_of_tiledL (RLast hc0 hc1 hc2 hc3 h uf ui uc uo s a.f a.i a.g a.o bf bi bc bo).2.2.2.2.1 S512x512.size (by sl_kernel_rfl) y
theorem coverLastO (y : S512x512.Idx) : ∃ pc ∈ (RLast hc0 hc1 hc2 hc3 h uf ui uc uo s a.f a.i a.g a.o bf bi bc bo).2.2.2.2.2.1, y ∈ pc.1.set :=
  View.cover_of_tiledL (RLast hc0 hc1 hc2 hc3 h uf ui uc uo s a.f a.i a.g a.o bf bi bc bo).2.2.2.2.2.1 S512x512.size (by sl_kernel_rfl) y

/-- Everything a step with k = 11 leaves: the accumulators and the two stored output blocks. -/
def leftLast : Left F where
  acc :=
    { f := vF.read (Elt F) (vF.writes (Elt F) vF.junk (RLast hc0 hc1 hc2 hc3 h uf ui uc uo s a.f a.i a.g a.o bf bi bc bo).2.2.1)
      i := vI.read (Elt F) (vI.writes (Elt F) vI.junk (RLast hc0 hc1 hc2 hc3 h uf ui uc uo s a.f a.i a.g a.o bf bi bc bo).2.2.2.1)
      g := vC.read (Elt F) (vC.writes (Elt F) vC.junk (RLast hc0 hc1 hc2 hc3 h uf ui uc uo s a.f a.i a.g a.o bf bi bc bo).2.2.2.2.1)
      o := vO.read (Elt F) (vO.writes (Elt F) vO.junk (RLast hc0 hc1 hc2 hc3 h uf ui uc uo s a.f a.i a.g a.o bf bi bc bo).2.2.2.2.2.1) }
  new := vNew.read (Elt F) (vNew.writes (Elt F) vNew.junk (RLast hc0 hc1 hc2 hc3 h uf ui uc uo s a.f a.i a.g a.o bf bi bc bo).1)
  out := vOut.read (Elt F) (vOut.writes (Elt F) vOut.junk (RLast hc0 hc1 hc2 hc3 h uf ui uc uo s a.f a.i a.g a.o bf bi bc bo).2.1)
end Last

end OnAnyMemrefs

/-! ## After the point numbered `n` -/

variable (m : (ℓ : Loc nD τ sig) → Buf (Elt F) ℓ)

/-- An idle output buffer's entry: nothing consults it. -/
def idleNew : Vec F S512x512 .f32 := vNew.read (Elt F) vNew.junk
def idleOut : Vec F S512x512 .f32 := vOut.read (Elt F) vOut.junk

/-- The four cases at a point `t`, on the point's own memrefs and blocks. -/
def firstAt (c : Dev nD) (t : Fin cfg0.N) (h0 : t.val % 12 = 0) : Left F :=
  ⟨accsFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
      ((atFirst_iff t).mpr h0) ((onInput_iff t).mpr (by omega)) (fun h => absurd ((onHidden_iff t).mp h) (by omega))
      (fun h => absurd ((atLast_iff t).mp h) (by omega))
      (iblk m c 0 t) (iblk m c 3 t) (iblk m c 6 t) (iblk m c 9 t) (iblk m c 12 t), idleNew, idleOut⟩

def inputAt (c : Dev nD) (t : Fin cfg0.N) (h0 : ¬t.val % 12 = 0) (h1 : t.val % 12 < 4) (a : Accs F) : Left F :=
  ⟨accsInput c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
      (fun h => h0 ((atFirst_iff t).mp h)) ((onInput_iff t).mpr h1) (fun h => absurd ((onHidden_iff t).mp h) (by omega))
      (fun h => absurd ((atLast_iff t).mp h) (by omega))
      (iblk m c 0 t) (iblk m c 3 t) (iblk m c 6 t) (iblk m c 9 t) (iblk m c 12 t) a, idleNew, idleOut⟩

def hiddenAt (c : Dev nD) (t : Fin cfg0.N) (h1 : ¬t.val % 12 < 4) (h3 : ¬t.val % 12 = 11) (a : Accs F) : Left F :=
  ⟨accsHidden c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
      (fun h => absurd ((atFirst_iff t).mp h) (by omega)) (fun h => h1 ((onInput_iff t).mp h)) ((onHidden_iff t).mpr (by omega))
      (fun h => h3 ((atLast_iff t).mp h))
      (iblk m c 1 t) (iblk m c 4 t) (iblk m c 7 t) (iblk m c 10 t) (iblk m c 13 t) a, idleNew, idleOut⟩

def lastAt (c : Dev nD) (t : Fin cfg0.N) (h3 : t.val % 12 = 11) (a : Accs F) : Left F :=
  leftLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
      (fun h => absurd ((atFirst_iff t).mp h) (by omega)) (fun h => absurd ((onInput_iff t).mp h) (by omega)) ((onHidden_iff t).mpr (by omega))
      ((atLast_iff t).mpr h3)
      (iblk m c 1 t) (iblk m c 4 t) (iblk m c 7 t) (iblk m c 10 t) (iblk m c 13 t) (iblk m c 2 t) a
      (iblk m c 5 t) (iblk m c 8 t) (iblk m c 11 t) (iblk m c 14 t)

/-- What the body leaves after the point numbered `n`. -/
def leftAt (c : Dev nD) : (n : ℕ) → n < cfg0.N → Left F
  | 0, hn => firstAt m c ⟨0, hn⟩ (Nat.zero_mod _)
  | n + 1, hn =>
    if h0 : (n + 1) % 12 = 0 then firstAt m c ⟨n + 1, hn⟩ h0
    else if h1 : (n + 1) % 12 < 4 then inputAt m c ⟨n + 1, hn⟩ h0 h1 (leftAt c n (Nat.lt_of_succ_lt hn)).acc
    else if h3 : (n + 1) % 12 = 11 then lastAt m c ⟨n + 1, hn⟩ h3 (leftAt c n (Nat.lt_of_succ_lt hn)).acc
    else hiddenAt m c ⟨n + 1, hn⟩ h1 h3 (leftAt c n (Nat.lt_of_succ_lt hn)).acc

/-- The accumulators a point that is not a block's first finds: as the point before left them. -/
abbrev carriedIn (c : Dev nD) (t : Fin cfg0.N) : Accs F :=
  (leftAt m c (t.val - 1) (Nat.lt_of_le_of_lt (Nat.sub_le _ _) t.isLt)).acc

theorem leftAt_first (c : Dev nD) (t : Fin cfg0.N) (h0 : t.val % 12 = 0) : leftAt m c t.val t.isLt = firstAt m c t h0 := by
  obtain ⟨n, hn⟩ := t
  cases n with
  | zero => rfl
  | succ n => exact dif_pos h0

theorem leftAt_input (c : Dev nD) (t : Fin cfg0.N) (h0 : ¬t.val % 12 = 0) (h1 : t.val % 12 < 4) :
    leftAt m c t.val t.isLt = inputAt m c t h0 h1 (carriedIn m c t) := by
  obtain ⟨n, hn⟩ := t
  cases n with
  | zero => exact absurd (Nat.zero_mod _) h0
  | succ n => exact (dif_neg h0).trans (dif_pos h1)

theorem leftAt_hidden (c : Dev nD) (t : Fin cfg0.N) (h1 : ¬t.val % 12 < 4) (h3 : ¬t.val % 12 = 11) :
    leftAt m c t.val t.isLt = hiddenAt m c t h1 h3 (carriedIn m c t) := by
  obtain ⟨n, hn⟩ := t
  cases n with
  | zero => exact absurd (by decide : (0 : ℕ) % 12 < 4) h1
  | succ n => exact (dif_neg (by intro h; exact h1 (by dsimp only at h ⊢; omega))).trans ((dif_neg h1).trans (dif_neg h3))

theorem leftAt_last (c : Dev nD) (t : Fin cfg0.N) (h3 : t.val % 12 = 11) :
    leftAt m c t.val t.isLt = lastAt m c t h3 (carriedIn m c t) := by
  obtain ⟨n, hn⟩ := t
  cases n with
  | zero => exact absurd h3 (by show ¬ (0 : ℕ) % 12 = 11; decide)
  | succ n => exact (dif_neg (by dsimp only at h3 ⊢; omega)).trans ((dif_neg (by dsimp only at h3 ⊢; omega)).trans (dif_pos h3))

/-! ## The invariant carried between points -/

/-- Before the point numbered `n`: before the first point what the region hands over (the accumulators at anything);
    afterwards the four accumulators at what the point before left in them, and the generator register at some state. -/
def carried (c : Dev nD) : (n : ℕ) → n ≤ cfg0.N → sProp 𝕄
  | 0, _ => Pipeline.ΦA spec0 c
  | n + 1, hn => iprop(iprop(owns (c : Thread nD τ) accF fullShare (leftAt m c n hn).acc.f
      ∗ owns (c : Thread nD τ) accI fullShare (leftAt m c n hn).acc.i
      ∗ owns (c : Thread nD τ) accC fullShare (leftAt m c n hn).acc.g
      ∗ owns (c : Thread nD τ) accO fullShare (leftAt m c n hn).acc.o) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(iprop(owns (c : Thread nD τ) accF fullShare (leftAt m c n hn).acc.f
      ∗ owns (c : Thread nD τ) accI fullShare (leftAt m c n hn).acc.i
      ∗ owns (c : Thread nD τ) accC fullShare (leftAt m c n hn).acc.g
      ∗ owns (c : Thread nD τ) accO fullShare (leftAt m c n hn).acc.o) ∗ (∃ r, prngReg c r)) := rfl

theorem carried_pos (c : Dev nD) (n : ℕ) (h : n ≤ cfg0.N) (hz : n ≠ 0) :
    carried m c n h = iprop(iprop(owns (c : Thread nD τ) accF fullShare (leftAt m c (n - 1) (by omega)).acc.f
      ∗ owns (c : Thread nD τ) accI fullShare (leftAt m c (n - 1) (by omega)).acc.i
      ∗ owns (c : Thread nD τ) accC fullShare (leftAt m c (n - 1) (by omega)).acc.g
      ∗ owns (c : Thread nD τ) accO fullShare (leftAt m c (n - 1) (by omega)).acc.o) ∗ (∃ r, prngReg c r)) := by
  cases n with
  | zero => exact absurd rfl hz
  | succ n => rfl

end Cert.Kernel.Body

end
-- ==== Proof.Kernel.Data.lean ====
/-
  The pipeline's proof data for the cell's one region, and the body's obligation at a point stated window by window.

  The arrays are as the region finds them. After the body at a point each input window's staging buffer still holds
  the window's block there (the body only reads them); the two output windows' buffers hold what `leftAt` says, and the
  invariant carried from point to point is `carried`: the four accumulators at what the point before left in them.
  An input window is never idle, so its buffer must come back at its block; an output window is idle away from k = 11,
  where its buffer comes back as found, and at k = 11 it comes back with the block the step stored.
-/
import proofs.«172886_j24756191494330_1_alg».proof.Proof.Kernel.Outs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (leftAt m c t.val t.isLt).new
    | ⟨16, _⟩ => (leftAt m c t.val t.isLt).out
    | ⟨_ + 17, h⟩ => absurd h (Nat.not_lt.2 (Nat.le_add_left _ _))
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = carried m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = (leftAt m c t.val t.isLt).new := by dsimp only [dats]
theorem after16 (c : Dev nD) (t : Fin cfg0.N) : (dats m 0 c).after 16 t = (leftAt m c t.val t.isLt).out := by dsimp only [dats]

/-- Each input's current staging buffer holds its block at every point, fetched there or not. -/
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d
theorem before9 (c : Dev nD) (t : Fin cfg0.N) (d) : (dats m 0 c).before 9 t d = iblk m c 9 t := before0_9_of m (dats m 0 c) (A_eq m c 9) (after9 m c) t d
theorem before10 (c : Dev nD) (t : Fin cfg0.N) (d) : (dats m 0 c).before 10 t d = iblk m c 10 t := before0_10_of m (dats m 0 c) (A_eq m c 10) (after10 m c) t d
theorem before11 (c : Dev nD) (t : Fin cfg0.N) (d) : (dats m 0 c).before 11 t d = iblk m c 11 t := before0_11_of m (dats m 0 c) (A_eq m c 11) (after11 m c) t d
theorem before12 (c : Dev nD) (t : Fin cfg0.N) (d) : (dats m 0 c).before 12 t d = iblk m c 12 t := before0_12_of m (dats m 0 c) (A_eq m c 12) (after12 m c) t d
theorem before13 (c : Dev nD) (t : Fin cfg0.N) (d) : (dats m 0 c).before 13 t d = iblk m c 13 t := before0_13_of m (dats m 0 c) (A_eq m c 13) (after13 m c) t d
theorem before14 (c : Dev nD) (t : Fin cfg0.N) (d) : (dats m 0 c).before 14 t d = iblk m c 14 t := before0_14_of m (dats m 0 c) (A_eq m c 14) (after14 m c) t d

/-! ## What the body must hand back, window by window -/

/-- An input window is never idle: its buffer is handed back at its block. -/
theorem leaves0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl, after3]
theorem leaves4 (c : Dev nD) (t : Fin cfg0.N) : (dats m 0 c).leavesExact 4 t = owns (c : Thread nD τ) (ms4 t) fullShare (iblk m c 4 t) := by
  unfold Dat.leavesExact; rw [show cfg0.idle 4 (grid0.coords t) = false from rfl, after4]
theorem leaves5 (c : Dev nD) (t : Fin cfg0.N) : (dats m 0 c).leavesExact 5 t = owns (c : Thread nD τ) (ms5 t) fullShare (iblk m c 5 t) := by
  unfold Dat.leavesExact; rw [show cfg0.idle 5 (grid0.coords t) = false from rfl, after5]
theorem leaves6 (c : Dev nD) (t : Fin cfg0.N) : (dats m 0 c).leavesExact 6 t = owns (c : Thread nD τ) (ms6 t) fullShare (iblk m c 6 t) := by
  unfold Dat.leavesExact; rw [show cfg0.idle 6 (grid0.coords t) = false from rfl, after6]
theorem leaves7 (c : Dev nD) (t : Fin cfg0.N) : (dats m 0 c).leavesExact 7 t = owns (c : Thread nD τ) (ms7 t) fullShare (iblk m c 7 t) := by
  unfold Dat.leavesExact; rw [show cfg0.idle 7 (grid0.coords t) = false from rfl, after7]
theorem leaves8 (c : Dev nD) (t : Fin cfg0.N) : (dats m 0 c).leavesExact 8 t = owns (c : Thread nD τ) (ms8 t) fullShare (iblk m c 8 t) := by
  unfold Dat.leavesExact; rw [show cfg0.idle 8 (grid0.coords t) = false from rfl, after8]
theorem leaves9 (c : Dev nD) (t : Fin cfg0.N) : (dats m 0 c).leavesExact 9 t = owns (c : Thread nD τ) (ms9 t) fullShare (iblk m c 9 t) := by
  unfold Dat.leavesExact; rw [show cfg0.idle 9 (grid0.coords t) = false from rfl, after9]
theorem leaves10 (c : Dev nD) (t : Fin cfg0.N) : (dats m 0 c).leavesExact 10 t = owns (c : Thread nD τ) (ms10 t) fullShare (iblk m c 10 t) := by
  unfold Dat.leavesExact; rw [show cfg0.idle 10 (grid0.coords t) = false from rfl, after10]
theorem leaves11 (c : Dev nD) (t : Fin cfg0.N) : (dats m 0 c).leavesExact 11 t = owns (c : Thread nD τ) (ms11 t) fullShare (iblk m c 11 t) := by
  unfold Dat.leavesExact; rw [show cfg0.idle 11 (grid0.coords t) = false from rfl, after11]
theorem leaves12 (c : Dev nD) (t : Fin cfg0.N) : (dats m 0 c).leavesExact 12 t = owns (c : Thread nD τ) (ms12 t) fullShare (iblk m c 12 t) := by
  unfold Dat.leavesExact; rw [show cfg0.idle 12 (grid0.coords t) = false from rfl, after12]
theorem leaves13 (c : Dev nD) (t : Fin cfg0.N) : (dats m 0 c).leavesExact 13 t = owns (c : Thread nD τ) (ms13 t) fullShare (iblk m c 13 t) := by
  unfold Dat.leavesExact; rw [show cfg0.idle 13 (grid0.coords t) = false from rfl, after13]
theorem leaves14 (c : Dev nD) (t : Fin cfg0.N) : (dats m 0 c).leavesExact 14 t = owns (c : Thread nD τ) (ms14 t) fullShare (iblk m c 14 t) := by
  unfold Dat.leavesExact; rw [show cfg0.idle 14 (grid0.coords t) = false from rfl, after14]

/-- Away from k = 11 an output window's buffer is handed back as found. -/
theorem leaves15_idle (c : Dev nD) (t : Fin cfg0.N) (h : ¬t.val % 12 = 11) :
    (dats m 0 c).leavesExact 15 t = iprop(∃ d, owns (c : Thread nD τ) (ms15 t) fullShare ((dats m 0 c).before 15 t d)) :=
  Dat.leavesExact_idle (dats m 0 c) 15 t (idle15 t fun hl => h ((atLast_iff t).mp hl)) (noFlush15 t fun hl => h ((atLast_iff t).mp hl))
theorem leaves16_idle (c : Dev nD) (t : Fin cfg0.N) (h : ¬t.val % 12 = 11) :
    (dats m 0 c).leavesExact 16 t = iprop(∃ d, owns (c : Thread nD τ) (ms16 t) fullShare ((dats m 0 c).before 16 t d)) :=
  Dat.leavesExact_idle (dats m 0 c) 16 t (idle16 t fun hl => h ((atLast_iff t).mp hl)) (noFlush16 t fun hl => h ((atLast_iff t).mp hl))
/-- At k = 11 it is handed back with the block the step stored. -/
theorem leaves15_last (c : Dev nD) (t : Fin cfg0.N) (h : t.val % 12 = 11) :
    (dats m 0 c).leavesExact 15 t = owns (c : Thread nD τ) (ms15 t) fullShare (leftAt m c t.val t.isLt).new := by
  unfold Dat.leavesExact; rw [live15 t ((atLast_iff t).mpr h), after15]
theorem leaves16_last (c : Dev nD) (t : Fin cfg0.N) (h : t.val % 12 = 11) :
    (dats m 0 c).leavesExact 16 t = owns (c : Thread nD τ) (ms16 t) fullShare (leftAt m c t.val t.isLt).out := by
  unfold Dat.leavesExact; rw [live16 t ((atLast_iff t).mpr h), after16]

/-! ## The obligation at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t
    ∗ (dats m 0 c).leavesExact 9 t ∗ (dats m 0 c).leavesExact 10 t ∗ (dats m 0 c).leavesExact 11 t
    ∗ (dats m 0 c).leavesExact 12 t ∗ (dats m 0 c).leavesExact 13 t ∗ (dats m 0 c).leavesExact 14 t
    ∗ (dats m 0 c).leavesExact 15 t ∗ (dats m 0 c).leavesExact 16 t)

end Cert.Kernel.Body

end
-- ==== Proof.Kernel.SoundFirst.lean ====
/-
  The body's obligation at a point with k = 0. The run zeroes the four accumulators and adds the first slab's products;
  it is handed x's block, the four input-weight blocks and the accumulators (at anything at the very first point, at
  what the point before left otherwise: the step overwrites them either way), and every other window's buffer goes
  from the precondition to the postcondition untouched.
-/
import proofs.«172886_j24756191494330_1_alg».proof.Proof.Kernel.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (c : Dev nD) (t : Fin cfg0.N)

local notation "PFirst" => runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CFirstF" => coverFirstF c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CFirstI" => coverFirstI c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CFirstC" => coverFirstC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CFirstO" => coverFirstO c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)

set_option maxHeartbeats 4000000 in
/-- A point with k = 0. The accumulators come at anything if this is the very first point, else at what the point
    before left (which the step overwrites all the same). -/
theorem sound_first (h0 : t.val % 12 = 0) :
    bodyPre m c t ⊢ wp frame (wpE (defs₀ (F := F)) Variants.none c none) Set.univ (bodyAt0 t) (fun _ => bodyPost m c t) := by
  have hF : atFirst (grid0.coords t) := (atFirst_iff t).mpr h0
  have hI : onInput (grid0.coords t) := (onInput_iff t).mpr (by omega)
  have hH : ¬onHidden (grid0.coords t) := fun h => absurd ((onHidden_iff t).mp h) (by omega)
  have hL : ¬atLast (grid0.coords t) := fun h => absurd ((atLast_iff t).mp h) (by omega)
  have h11 : ¬t.val % 12 = 11 := by omega
  unfold bodyPre bodyPost bodyAt0
  simp only [before0, before1, before2, before3, before4, before5, before6, before7, before8, before9, before10, before11,
    before12, before13, before14, leaves0, leaves1, leaves2, leaves3, leaves4, leaves5, leaves6, leaves7, leaves8, leaves9,
    leaves10, leaves11, leaves12, leaves13, leaves14]
  rw [leaves15_idle m c t h11, leaves16_idle m c t h11]
  rw [show (dats m 0 c).owesAt () t.succ = (dats m 0 c).owesAt () t.castSucc from rfl]
  rw [show (dats m 0 c).Φ t.succ = carried m c (t.val + 1) t.isLt from rfl, carried_succ]
  rw [leftAt_first m c t h0]
  unfold firstAt accsFirst; dsimp only
  by_cases hz : t.val = 0
  · rw [inv_castSucc m c t, carried_zero m c _ _ hz, regionInv_eq]
    iintro ⟨⟨⟨HF, HI, HC, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩,
      ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((PFirst hF hI hH hL (iblk m c 0 t) (iblk m c 3 t) (iblk m c 6 t) (iblk m c 9 t) (iblk m c 12 t)).2.2.2.2 Set.univ _)
    isplitl [H0]; · iexact H0
    isplitl [H3]; · iexact H3
    isplitl [H6]; · iexact H6
    isplitl [H9]; · iexact H9
    isplitl [H12]; · iexact H12
    isplitl [HF]; · iexact HF
    isplitl [HI]; · iexact HI
    isplitl [HC]; · iexact HC
    isplitl [HO]; · iexact HO
    iintro ⟨H0, H3, H6, H9, H12, ⟨%eF, HF⟩, ⟨%eI, HI⟩, ⟨%eC, HC⟩, ⟨%eO, HO⟩⟩
    isplitl [HF HI HC HO Hg]
    · isplitl [HF HI HC HO]
      · isplitl [HF]
        · unfold owns; iexists _; isplitr
          swap; · iexact HF
          ipureintro; exact View.read_writes_of_cover _ _ _ _ _ (CFirstF hF hI hH hL _ _ _ _ _)
        isplitl [HI]
        · unfold owns; iexists _; isplitr
          swap; · iexact HI
          ipureintro; exact View.read_writes_of_cover _ _ _ _ _ (CFirstI hF hI hH hL _ _ _ _ _)
        isplitl [HC]
        · unfold owns; iexists _; isplitr
          swap; · iexact HC
          ipureintro; exact View.read_writes_of_cover _ _ _ _ _ (CFirstC hF hI hH hL _ _ _ _ _)
        unfold owns; iexists _; isplitr
        swap; · iexact HO
        ipureintro; exact View.read_writes_of_cover _ _ _ _ _ (CFirstO hF hI hH hL _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    iexists _; iexact H16
  · rw [inv_castSucc m c t, carried_pos m c _ _ hz]
    iintro ⟨⟨⟨HF, HI, HC, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩,
      ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((PFirst hF hI hH hL (iblk m c 0 t) (iblk m c 3 t) (iblk m c 6 t) (iblk m c 9 t) (iblk m c 12 t)).2.2.2.2 Set.univ _)
    isplitl [H0]; · iexact H0
    isplitl [H3]; · iexact H3
    isplitl [H6]; · iexact H6
    isplitl [H9]; · iexact H9
    isplitl [H12]; · iexact H12
    isplitl [HF]; · iexists _; iexact HF
    isplitl [HI]; · iexists _; iexact HI
    isplitl [HC]; · iexists _; iexact HC
    isplitl [HO]; · iexists _; iexact HO
    iintro ⟨H0, H3, H6, H9, H12, ⟨%eF, HF⟩, ⟨%eI, HI⟩, ⟨%eC, HC⟩, ⟨%eO, HO⟩⟩
    isplitl [HF HI HC HO Hg]
    · isplitl [HF HI HC HO]
      · isplitl [HF]
        · unfold owns; iexists _; isplitr
          swap; · iexact HF
          ipureintro; exact View.read_writes_of_cover _ _ _ _ _ (CFirstF hF hI hH hL _ _ _ _ _)
        isplitl [HI]
        · unfold owns; iexists _; isplitr
          swap; · iexact HI
          ipureintro; exact View.read_writes_of_cover _ _ _ _ _ (CFirstI hF hI hH hL _ _ _ _ _)
        isplitl [HC]
        · unfold owns; iexists _; isplitr
          swap; · iexact HC
          ipureintro; exact View.read_writes_of_cover _ _ _ _ _ (CFirstC hF hI hH hL _ _ _ _ _)
        unfold owns; iexists _; isplitr
        swap; · iexact HO
        ipureintro; exact View.read_writes_of_cover _ _ _ _ _ (CFirstO hF hI hH hL _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    iexists _; iexact H16

end Cert.Kernel.Body

end
-- ==== Proof.Kernel.SoundInput.lean ====
/-
  The body's obligation at a point with k = 1, 2 or 3. The run is handed x's block, the four input-weight blocks and
  the accumulators at what the point before left in them, and returns each accumulator updated; every other window's
  buffer goes from the precondition to the postcondition untouched.
-/
import proofs.«172886_j24756191494330_1_alg».proof.Proof.Kernel.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (c : Dev nD) (t : Fin cfg0.N)

local notation "PInput" => runInput c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CInputF" => coverInputF c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CInputI" => coverInputI c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CInputC" => coverInputC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CInputO" => coverInputO c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)

set_option maxHeartbeats 4000000 in
/-- A point with 0 < k < 4. -/
theorem sound_input (h0 : ¬t.val % 12 = 0) (h1 : t.val % 12 < 4) :
    bodyPre m c t ⊢ wp frame (wpE (defs₀ (F := F)) Variants.none c none) Set.univ (bodyAt0 t) (fun _ => bodyPost m c t) := by
  have hF : ¬atFirst (grid0.coords t) := fun h => h0 ((atFirst_iff t).mp h)
  have hI : onInput (grid0.coords t) := (onInput_iff t).mpr h1
  have hH : ¬onHidden (grid0.coords t) := fun h => absurd ((onHidden_iff t).mp h) (by omega)
  have hL : ¬atLast (grid0.coords t) := fun h => absurd ((atLast_iff t).mp h) (by omega)
  have h11 : ¬t.val % 12 = 11 := by omega
  have hz : t.val ≠ 0 := fun h => h0 (by rw [h])
  unfold bodyPre bodyPost bodyAt0
  simp only [before0, before1, before2, before3, before4, before5, before6, before7, before8, before9, before10, before11,
    before12, before13, before14, leaves0, leaves1, leaves2, leaves3, leaves4, leaves5, leaves6, leaves7, leaves8, leaves9,
    leaves10, leaves11, leaves12, leaves13, leaves14]
  rw [leaves15_idle m c t h11, leaves16_idle m c t h11]
  rw [show (dats m 0 c).owesAt () t.succ = (dats m 0 c).owesAt () t.castSucc from rfl]
  rw [show (dats m 0 c).Φ t.succ = carried m c (t.val + 1) t.isLt from rfl, carried_succ]
  rw [leftAt_input m c t h0 h1]
  unfold inputAt accsInput; dsimp only
  rw [inv_castSucc m c t, carried_pos m c _ _ hz]
  iintro ⟨⟨⟨HF, HI, HC, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩,
      ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((PInput hF hI hH hL (iblk m c 0 t) (iblk m c 3 t) (iblk m c 6 t) (iblk m c 9 t) (iblk m c 12 t)
    (carriedIn m c t).f (carriedIn m c t).i (carriedIn m c t).g (carriedIn m c t).o).2.2.2.2 Set.univ _)
  isplitl [H0]; · iexact H0
  isplitl [H3]; · iexact H3
  isplitl [H6]; · iexact H6
  isplitl [H9]; · iexact H9
  isplitl [H12]; · iexact H12
  isplitl [HF]; · iexact HF
  isplitl [HI]; · iexact HI
  isplitl [HC]; · iexact HC
  isplitl [HO]; · iexact HO
  iintro ⟨H0, H3, H6, H9, H12, ⟨%eF, HF⟩, ⟨%eI, HI⟩, ⟨%eC, HC⟩, ⟨%eO, HO⟩⟩
  isplitl [HF HI HC HO Hg]
  · isplitl [HF HI HC HO]
    · isplitl [HF]
      · unfold owns; iexists _; isplitr
        swap; · iexact HF
        ipureintro; exact View.read_writes_of_cover _ _ _ _ _ (CInputF hF hI hH hL _ _ _ _ _ _)
      isplitl [HI]
      · unfold owns; iexists _; isplitr
        swap; · iexact HI
        ipureintro; exact View.read_writes_of_cover _ _ _ _ _ (CInputI hF hI hH hL _ _ _ _ _ _)
      isplitl [HC]
      · unfold owns; iexists _; isplitr
        swap; · iexact HC
        ipureintro; exact View.read_writes_of_cover _ _ _ _ _ (CInputC hF hI hH hL _ _ _ _ _ _)
      unfold owns; iexists _; isplitr
      swap; · iexact HO
      ipureintro; exact View.read_writes_of_cover _ _ _ _ _ (CInputO hF hI hH hL _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iexists _; iexact H16

end Cert.Kernel.Body

end
-- ==== Proof.Kernel.SoundHidden.lean ====
/-
  The body's obligation at a point with 4 ≤ k ≤ 10. The run is handed the previous output's block, the four
  hidden-weight blocks and the accumulators at what the point before left in them, and returns each accumulator
  updated; every other window's buffer goes from the precondition to the postcondition untouched.
-/
import proofs.«172886_j24756191494330_1_alg».proof.Proof.Kernel.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (c : Dev nD) (t : Fin cfg0.N)

local notation "PHidden" => runHidden c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CHiddenF" => coverHiddenF c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CHiddenI" => coverHiddenI c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CHiddenC" => coverHiddenC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CHiddenO" => coverHiddenO c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)

set_option maxHeartbeats 4000000 in
/-- A point with 4 ≤ k < 11. -/
theorem sound_hidden (h1 : ¬t.val % 12 < 4) (h3 : ¬t.val % 12 = 11) :
    bodyPre m c t ⊢ wp frame (wpE (defs₀ (F := F)) Variants.none c none) Set.univ (bodyAt0 t) (fun _ => bodyPost m c t) := by
  have hF : ¬atFirst (grid0.coords t) := fun h => absurd ((atFirst_iff t).mp h) (by omega)
  have hI : ¬onInput (grid0.coords t) := fun h => h1 ((onInput_iff t).mp h)
  have hH : onHidden (grid0.coords t) := (onHidden_iff t).mpr (by omega)
  have hL : ¬atLast (grid0.coords t) := fun h => h3 ((atLast_iff t).mp h)
  have hz : t.val ≠ 0 := fun h => h1 (by rw [h]; decide)
  unfold bodyPre bodyPost bodyAt0
  simp only [before0, before1, before2, before3, before4, before5, before6, before7, before8, before9, before10, before11,
    before12, before13, before14, leaves0, leaves1, leaves2, leaves3, leaves4, leaves5, leaves6, leaves7, leaves8, leaves9,
    leaves10, leaves11, leaves12, leaves13, leaves14]
  rw [leaves15_idle m c t h3, leaves16_idle m c t h3]
  rw [show (dats m 0 c).owesAt () t.succ = (dats m 0 c).owesAt () t.castSucc from rfl]
  rw [show (dats m 0 c).Φ t.succ = carried m c (t.val + 1) t.isLt from rfl, carried_succ]
  rw [leftAt_hidden m c t h1 h3]
  unfold hiddenAt accsHidden; dsimp only
  rw [inv_castSucc m c t, carried_pos m c _ _ hz]
  iintro ⟨⟨⟨HF, HI, HC, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩,
      ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((PHidden hF hI hH hL (iblk m c 1 t) (iblk m c 4 t) (iblk m c 7 t) (iblk m c 10 t) (iblk m c 13 t)
    (carriedIn m c t).f (carriedIn m c t).i (carriedIn m c t).g (carriedIn m c t).o).2.2.2.2 Set.univ _)
  isplitl [H1]; · iexact H1
  isplitl [H4]; · iexact H4
  isplitl [H7]; · iexact H7
  isplitl [H10]; · iexact H10
  isplitl [H13]; · iexact H13
  isplitl [HF]; · iexact HF
  isplitl [HI]; · iexact HI
  isplitl [HC]; · iexact HC
  isplitl [HO]; · iexact HO
  iintro ⟨H1, H4, H7, H10, H13, ⟨%eF, HF⟩, ⟨%eI, HI⟩, ⟨%eC, HC⟩, ⟨%eO, HO⟩⟩
  isplitl [HF HI HC HO Hg]
  · isplitl [HF HI HC HO]
    · isplitl [HF]
      · unfold owns; iexists _; isplitr
        swap; · iexact HF
        ipureintro; exact View.read_writes_of_cover _ _ _ _ _ (CHiddenF hF hI hH hL _ _ _ _ _ _)
      isplitl [HI]
      · unfold owns; iexists _; isplitr
        swap; · iexact HI
        ipureintro; exact View.read_writes_of_cover _ _ _ _ _ (CHiddenI hF hI hH hL _ _ _ _ _ _)
      isplitl [HC]
      · unfold owns; iexists _; isplitr
        swap; · iexact HC
        ipureintro; exact View.read_writes_of_cover _ _ _ _ _ (CHiddenC hF hI hH hL _ _ _ _ _ _)
      unfold owns; iexists _; isplitr
      swap; · iexact HO
      ipureintro; exact View.read_writes_of_cover _ _ _ _ _ (CHiddenO hF hI hH hL _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iexists _; iexact H16

end Cert.Kernel.Body

end
-- ==== Proof.Kernel.SoundLast.lean ====
/-
  The body's obligation at a point with k = 11. The run is handed the previous output's block, the four hidden-weight
  blocks, the four bias columns, the old state's block, the two output buffers (at whatever they held) and the
  accumulators at what the point before left in them; it returns the accumulators updated and the two output buffers
  covered by the blocks it stored. The input-weight blocks and x's block go from the precondition to the postcondition
  untouched.
-/
import proofs.«172886_j24756191494330_1_alg».proof.Proof.Kernel.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (c : Dev nD) (t : Fin cfg0.N)

local notation "PLast" => runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CLastN" => coverLastN c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CLastH" => coverLastH c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CLastF" => coverLastF c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CLastI" => coverLastI c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CLastC" => coverLastC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CLastO" => coverLastO c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)

set_option maxHeartbeats 4000000 in
/-- A point with k = 11. -/
theorem sound_last (h3 : t.val % 12 = 11) :
    bodyPre m c t ⊢ wp frame (wpE (defs₀ (F := F)) Variants.none c none) Set.univ (bodyAt0 t) (fun _ => bodyPost m c t) := by
  have hF : ¬atFirst (grid0.coords t) := fun h => absurd ((atFirst_iff t).mp h) (by omega)
  have hI : ¬onInput (grid0.coords t) := fun h => absurd ((onInput_iff t).mp h) (by omega)
  have hH : onHidden (grid0.coords t) := (onHidden_iff t).mpr (by omega)
  have hL : atLast (grid0.coords t) := (atLast_iff t).mpr h3
  have hz : t.val ≠ 0 := fun h => absurd h3 (by rw [h]; decide)
  unfold bodyPre bodyPost bodyAt0
  simp only [before0, before1, before2, before3, before4, before5, before6, before7, before8, before9, before10, before11,
    before12, before13, before14, leaves0, leaves1, leaves2, leaves3, leaves4, leaves5, leaves6, leaves7, leaves8, leaves9,
    leaves10, leaves11, leaves12, leaves13, leaves14]
  rw [leaves15_last m c t h3, leaves16_last m c t h3]
  rw [show (dats m 0 c).owesAt () t.succ = (dats m 0 c).owesAt () t.castSucc from rfl]
  rw [show (dats m 0 c).Φ t.succ = carried m c (t.val + 1) t.isLt from rfl, carried_succ]
  rw [leftAt_last m c t h3]
  unfold lastAt leftLast; dsimp only
  rw [inv_castSucc m c t, carried_pos m c _ _ hz]
  iintro ⟨⟨⟨HF, HI, HC, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩,
      ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((PLast hF hI hH hL (iblk m c 1 t) (iblk m c 4 t) (iblk m c 7 t) (iblk m c 10 t) (iblk m c 13 t) (iblk m c 2 t)
    (carriedIn m c t).f (carriedIn m c t).i (carriedIn m c t).g (carriedIn m c t).o
    (iblk m c 5 t) (iblk m c 8 t) (iblk m c 11 t) (iblk m c 14 t)).2.2.2.2.2.2 Set.univ _)
  isplitl [H1]; · iexact H1
  isplitl [H4]; · iexact H4
  isplitl [H7]; · iexact H7
  isplitl [H10]; · iexact H10
  isplitl [H13]; · iexact H13
  isplitl [H5]; · iexact H5
  isplitl [H8]; · iexact H8
  isplitl [H11]; · iexact H11
  isplitl [H14]; · iexact H14
  isplitl [H2]; · iexact H2
  isplitl [H15]; · iexists _; iexact H15
  isplitl [H16]; · iexists _; iexact H16
  isplitl [HF]; · iexact HF
  isplitl [HI]; · iexact HI
  isplitl [HC]; · iexact HC
  isplitl [HO]; · iexact HO
  iintro ⟨H1, H4, H7, H10, H13, H5, H8, H11, H14, H2, ⟨%eN, H15⟩, ⟨%eH, H16⟩, ⟨%eF, HF⟩, ⟨%eI, HI⟩, ⟨%eC, HC⟩, ⟨%eO, HO⟩⟩
  isplitl [HF HI HC HO Hg]
  · isplitl [HF HI HC HO]
    · isplitl [HF]
      · unfold owns; iexists _; isplitr
        swap; · iexact HF
        ipureintro; exact View.read_writes_of_cover _ _ _ _ _ (CLastF hF hI hH hL _ _ _ _ _ _ _ _ _ _ _)
      isplitl [HI]
      · unfold owns; iexists _; isplitr
        swap; · iexact HI
        ipureintro; exact View.read_writes_of_cover _ _ _ _ _ (CLastI hF hI hH hL _ _ _ _ _ _ _ _ _ _ _)
      isplitl [HC]
      · unfold owns; iexists _; isplitr
        swap; · iexact HC
        ipureintro; exact View.read_writes_of_cover _ _ _ _ _ (CLastC hF hI hH hL _ _ _ _ _ _ _ _ _ _ _)
      unfold owns; iexists _; isplitr
      swap; · iexact HO
      ipureintro; exact View.read_writes_of_cover _ _ _ _ _ (CLastO hF hI hH hL _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact View.read_writes_of_cover _ _ _ _ _ (CLastN hF hI hH hL _ _ _ _ _ _ _ _ _ _ _)
  unfold owns; iexists _; isplitr
  swap; · iexact H16
  ipureintro; exact View.read_writes_of_cover _ _ _ _ _ (CLastH hF hI hH hL _ _ _ _ _ _ _ _ _ _ _)

end Cert.Kernel.Body

end
-- ==== Proof.Kernel.Region.lean ====
/-
  The body's obligation at every point, and the run of the region.

  The step k = (point's number) mod 12 decides which of the four cases applies. Before the first point the invariant
  is what the region hands over (the accumulators at anything); after the last point the accumulators' contents are
  forgotten again. With that the frame run applies: every weakly fair execution terminates, and every array of the
  pipeline ends at what the library computes from the proof data.
-/
import proofs.«172886_j24756191494330_1_alg».proof.Proof.Kernel.SoundFirst
import proofs.«172886_j24756191494330_1_alg».proof.Proof.Kernel.SoundInput
import proofs.«172886_j24756191494330_1_alg».proof.Proof.Kernel.SoundHidden
import proofs.«172886_j24756191494330_1_alg».proof.Proof.Kernel.SoundLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: by the step k. -/
theorem sound_body (c : Dev nD) (t : Fin cfg0.N) :
    bodyPre m c t ⊢ wp frame (wpE (defs₀ (F := F)) Variants.none c none) Set.univ (bodyAt0 t) (fun _ => bodyPost m c t) := by
  by_cases h0 : t.val % 12 = 0
  · exact sound_first m c t h0
  · by_cases h1 : t.val % 12 < 4
    · exact sound_input m c t h0 h1
    · by_cases h3 : t.val % 12 = 11
      · exact sound_last m c t h3
      · exact sound_hidden m c t h1 h3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After any point the invariant gives back what the region was handed: the accumulators' contents are forgotten. -/
theorem inv_forget (c : Dev nD) (t : Fin (cfg0.N + 1)) (ht : t.val ≠ 0) : (dats m 0 c).Φ t ⊢ Pipeline.ΦA spec0 c := by
  rw [show (dats m 0 c).Φ t = carried m c t.val (Nat.le_of_lt_succ t.isLt) from rfl, carried_pos m c _ _ ht, regionInv_eq]
  iintro ⟨⟨HF, HI, HC, HO⟩, Hg⟩
  isplitl [HF HI HC HO]
  · isplitl [HF]; · iexists _; iexact HF
    isplitl [HI]; · iexists _; iexact HI
    isplitl [HC]; · iexists _; iexact HC
    iexists _; iexact HO
  iexact Hg

theorem inv_out (c : Dev nD) : (dats m 0 c).Φ (Fin.last cfg0.N) ⊢ Pipeline.ΦA spec0 c :=
  inv_forget m c _ (by rw [Fin.val_last]; have : cfg0.N = 768 := N_0; omega)

-- the launch theorem's implicit arguments are found by unifying its conclusion with this one, which takes unfolding
-- plain definitions in a metavariable's type
set_option backward.isDefEq.respectTransparency.types false in
/-- From any memory with zero counters every weakly fair execution of @main terminates, and every final state has every
    array of the pipeline at what the library computes from the proof data (an input at its contents at the region's
    entry, an output at those overwritten by what the body left at each write-back). -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

end Cert.Kernel.Body

end
-- ==== Proof.KernelIdeal.Cases.lean ====
/-
  The LSTM cell's kernel walks a grid of 8 x 8 x 12 points; the last coordinate k is the step along the
  contracted axis: steps 0..3 take a 512-wide slab of the input x against the four input weights, steps 4..11 a slab of
  the previous output against the four hidden weights. Four accumulators (one per gate) live in scratch and are
  carried from step to step: zeroed when k = 0, added to at every step, and read at k = 11, where the gates'
  nonlinearities are applied and the two output blocks are stored.
  This module names the four branch conditions of the body as propositions of the grid coordinates, decides each over
  the 768 points in closed form (k is the point's number mod 12), says where the two output windows are idle, and names
  the staging and scratch memrefs the body is called with.
-/
import proofs.«172886_j24756191494330_1_alg».proof.Proof.Gen.KernelIdeal.Frame
import proofs.«172886_j24756191494330_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four branch conditions -/

/-- k = 0: the accumulators are zeroed. -/
abbrev atFirst (i : grid0.Coords) : Prop :=
  (Scalar.cmpi .ne (Scalar.extui (Scalar.cmpi .eq (BitVec.ofNat 32 (i 2).val) 0#32)) 0#32) = 1#1
/-- k < 4: a slab of x against the input weights. -/
abbrev onInput (i : grid0.Coords) : Prop :=
  (Scalar.cmpi .ne (Scalar.extui (Scalar.cmpi .slt (BitVec.ofNat 32 (i 2).val) 4#32)) 0#32) = 1#1
/-- k ≥ 4: a slab of the previous output against the hidden weights. -/
abbrev onHidden (i : grid0.Coords) : Prop :=
  (Scalar.cmpi .ne (Scalar.extui (Scalar.cmpi .sge (BitVec.ofNat 32 (i 2).val) 4#32)) 0#32) = 1#1
/-- k = 11: the gates are formed and the outputs stored. -/
abbrev atLast (i : grid0.Coords) : Prop := k0_cond4 i = 1#1

theorem atFirst_iff : ∀ t : Fin cfg0.N, atFirst (grid0.coords t) ↔ t.val % 12 = 0 :=
  (by decide +kernel : ∀ t : Fin grid0.N, atFirst (grid0.coords t) ↔ t.val % 12 = 0)
theorem onInput_iff : ∀ t : Fin cfg0.N, onInput (grid0.coords t) ↔ t.val % 12 < 4 :=
  (by decide +kernel : ∀ t : Fin grid0.N, onInput (grid0.coords t) ↔ t.val % 12 < 4)
theorem onHidden_iff : ∀ t : Fin cfg0.N, onHidden (grid0.coords t) ↔ 4 ≤ t.val % 12 :=
  (by decide +kernel : ∀ t : Fin grid0.N, onHidden (grid0.coords t) ↔ 4 ≤ t.val % 12)
theorem atLast_iff : ∀ t : Fin cfg0.N, atLast (grid0.coords t) ↔ t.val % 12 = 11 :=
  (by decide +kernel : ∀ t : Fin grid0.N, atLast (grid0.coords t) ↔ t.val % 12 = 11)

/-! ## Where the output windows are idle -/

/-- Away from k = 11 the body stores nothing into the new-state window, and the pipeline does not write it back. -/
theorem idle15 : ∀ t : Fin cfg0.N, ¬atLast (grid0.coords t) → cfg0.idle 15 (grid0.coords t) = true := by decide +kernel
theorem noFlush15 : ∀ t : Fin cfg0.N, ¬atLast (grid0.coords t) → (cfg0.win 15).flush t = false := by decide +kernel
theorem live15 : ∀ t : Fin cfg0.N, atLast (grid0.coords t) → cfg0.idle 15 (grid0.coords t) = false := by decide +kernel
/-- The same for the output window. -/
theorem idle16 : ∀ t : Fin cfg0.N, ¬atLast (grid0.coords t) → cfg0.idle 16 (grid0.coords t) = true := by decide +kernel
theorem noFlush16 : ∀ t : Fin cfg0.N, ¬atLast (grid0.coords t) → (cfg0.win 16).flush t = false := by decide +kernel
theorem live16 : ∀ t : Fin cfg0.N, atLast (grid0.coords t) → cfg0.idle 16 (grid0.coords t) = false := by decide +kernel

/-! ## The memrefs the body is called with -/

abbrev ms0 (t : Fin cfg0.N) : Memref sig .tc .vmem S512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x1 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x512 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x512 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S512x1 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S512x512 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S512x512 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S512x1 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S512x512 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S512x512 .f32 := win0_16.stage (cfg0.slots t 16)
abbrev hs16 (t : Fin cfg0.N) : (ms16 t).IsWhole := hstage0_16 ((cfg0.slots t 16).cast nbuf0_16)

/-- The four accumulators: whole scoped buffers of the kernel's own. -/
abbrev accF : Memref sig .tc .vmem S512x512 .f32 := Memref.whole cc0_scratch0
abbrev accI : Memref sig .tc .vmem S512x512 .f32 := Memref.whole cc0_scratch1
abbrev accC : Memref sig .tc .vmem S512x512 .f32 := Memref.whole cc0_scratch2
abbrev accO : Memref sig .tc .vmem S512x512 .f32 := Memref.whole cc0_scratch3
/-- An accumulator's contents are stated through its view. -/
abbrev vF : View sig .tc .vmem S512x512 .f32 := accF.view
abbrev vI : View sig .tc .vmem S512x512 .f32 := accI.view
abbrev vC : View sig .tc .vmem S512x512 .f32 := accC.view
abbrev vO : View sig .tc .vmem S512x512 .f32 := accO.view
/-- One staging buffer of each output window, through which its contents are stated (the choice does not matter). -/
abbrev vNew : View sig .tc .vmem S512x512 .f32 := (Memref.whole cc0_stg15_0 : Memref sig .tc .vmem S512x512 .f32).view
abbrev vOut : View sig .tc .vmem S512x512 .f32 := (Memref.whole cc0_stg16_0 : Memref sig .tc .vmem S512x512 .f32).view

/-- A buffer after a run of the body: some contents overwritten by the run's stores, listed as pieces (last first). -/
abbrev wrote (c : Dev nD) (a : Memref sig .tc .vmem S512x512 .f32) (L : List (View.Piece (Elt F) S512x512 .f32)) : sProp 𝕄 :=
  iprop(∃ f, a.view.loc (c : Thread nD τ) ↦[a.view.set]{fullShare} a.view.writes (Elt F) f L)

/-- What the region hands the body besides the windows: the four accumulators, each owned whole at some contents, and the
    generator register at some state. -/
theorem regionInv_eq (c : Dev nD) :
    (Pipeline.ΦA spec0 c : sProp 𝕄)
      = iprop(iprop((∃ d, owns (c : Thread nD τ) accF fullShare d) ∗ (∃ d, owns (c : Thread nD τ) accI fullShare d)
          ∗ (∃ d, owns (c : Thread nD τ) accC fullShare d) ∗ (∃ d, owns (c : Thread nD τ) accO fullShare d)) ∗ (∃ r, prngReg c r)) := by
  unfold Pipeline.ΦA; rw [scopedRest0_eq]; simp only [accF, accI, accC, accO, owns_whole]; try rfl

end Cert.KernelIdeal.Body

end
-- ==== Proof.KernelIdeal.RunFirst.lean ====
/-
  The body at a point with k = 0. The four accumulators, found at anything, are zeroed; then the slab of x the point
  was handed is multiplied by the point's block of each of the four input weights and added in. Nothing else is
  touched: the run owns only x's block, the four input-weight blocks and the four accumulators, and hands back the
  blocks as they were and each accumulator with two stores recorded (the zero, then the first partial product).
-/
import proofs.«172886_j24756191494330_1_alg».proof.Proof.KernelIdeal.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg3 : Memref sig .tc .vmem S512x512 .f32) (harg3 : arg3.IsWhole) (arg4 : Memref sig .tc .vmem S512x512 .f32) (harg4 : arg4.IsWhole)
  (arg5 : Memref sig .tc .vmem S512x512 .f32) (harg5 : arg5.IsWhole) (arg6 : Memref sig .tc .vmem S512x512 .f32) (harg6 : arg6.IsWhole)
  (arg7 : Memref sig .tc .vmem S512x512 .f32) (harg7 : arg7.IsWhole) (arg8 : Memref sig .tc .vmem S512x1 .f32) (harg8 : arg8.IsWhole)
  (arg9 : Memref sig .tc .vmem S512x512 .f32) (harg9 : arg9.IsWhole) (arg10 : Memref sig .tc .vmem S512x512 .f32) (harg10 : arg10.IsWhole)
  (arg11 : Memref sig .tc .vmem S512x1 .f32) (harg11 : arg11.IsWhole) (arg12 : Memref sig .tc .vmem S512x512 .f32) (harg12 : arg12.IsWhole)
  (arg13 : Memref sig .tc .vmem S512x512 .f32) (harg13 : arg13.IsWhole) (arg14 : Memref sig .tc .vmem S512x1 .f32) (harg14 : arg14.IsWhole)
  (arg15 : Memref sig .tc .vmem S512x512 .f32) (harg15 : arg15.IsWhole) (arg16 : Memref sig .tc .vmem S512x512 .f32) (harg16 : arg16.IsWhole)
  (arg17 : Memref sig .tc .vmem S512x1 .f32) (harg17 : arg17.IsWhole) (arg18 : Memref sig .tc .vmem S512x512 .f32) (harg18 : arg18.IsWhole)
  (arg19 : Memref sig .tc .vmem S512x512 .f32) (harg19 : arg19.IsWhole) (arg20 : Memref sig .tc .vmem S512x512 .f32) (harg20 : arg20.IsWhole)
  (arg21 : Memref sig .tc .vmem S512x512 .f32) (harg21 : arg21.IsWhole) (arg22 : Memref sig .tc .vmem S512x512 .f32) (harg22 : arg22.IsWhole)
  (arg23 : Memref sig .tc .vmem S512x512 .f32) (harg23 : arg23.IsWhole)

set_option maxHeartbeats 4000000 in
/-- k = 0: on whole memrefs, x's block and the four input-weight blocks at their contents and the accumulators at
    anything, the body runs to a continuation that gets the blocks back unchanged and each accumulator written with
    the pieces the run found. -/
noncomputable def runFirst (hc0 : atFirst i) (hc1 : onInput i) (hc2 : ¬onHidden i) (hc3 : ¬atLast i)
    (x wf wi wc wo : Vec F S512x512 .f32) :
    Σ' (LF : List (View.Piece (Elt F) S512x512 .f32)) (LI : List (View.Piece (Elt F) S512x512 .f32))
       (LC : List (View.Piece (Elt F) S512x512 .f32)),
      { LO : List (View.Piece (Elt F) S512x512 .f32) //
        ∀ (E : Set ℕ) (K : PUnit → sProp 𝕄),
          iprop(owns (c : Thread nD τ) arg3 fullShare x ∗ owns (c : Thread nD τ) arg6 fullShare wf
              ∗ owns (c : Thread nD τ) arg9 fullShare wi ∗ owns (c : Thread nD τ) arg12 fullShare wc
              ∗ owns (c : Thread nD τ) arg15 fullShare wo
              ∗ (∃ d, owns (c : Thread nD τ) arg20 fullShare d) ∗ (∃ d, owns (c : Thread nD τ) arg21 fullShare d)
              ∗ (∃ d, owns (c : Thread nD τ) arg22 fullShare d) ∗ (∃ d, owns (c : Thread nD τ) arg23 fullShare d)
              ∗ (iprop(owns (c : Thread nD τ) arg3 fullShare x ∗ owns (c : Thread nD τ) arg6 fullShare wf
                  ∗ owns (c : Thread nD τ) arg9 fullShare wi ∗ owns (c : Thread nD τ) arg12 fullShare wc
                  ∗ owns (c : Thread nD τ) arg15 fullShare wo
                  ∗ wrote c arg20 LF ∗ wrote c arg21 LI ∗ wrote c arg22 LC ∗ wrote c arg23 LO) -∗ K ⟨⟩))
            ⊢ wp frame (wpE (defs₀ (F := F)) Variants.none c none) E
                (cc0__lstm_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, fun E K => ?run⟩
  case run =>
    simp only [cc0__lstm_kernel_eq_skeleton]; unfold cc0__lstm_kernel_skel
    simp only [k0_part1_eq_skeleton, k0_part2_eq_skeleton]
    unfold owns wrote
    iintro ⟨⟨%f0, %hf0, H0⟩, ⟨%f3, %hf3, H3⟩, ⟨%f6, %hf6, H6⟩, ⟨%f9, %hf9, H9⟩, ⟨%f12, %hf12, H12⟩,
      ⟨%dF, %fF, -, HF⟩, ⟨%dI, %fI, -, HI⟩, ⟨%dC, %fC, -, HC⟩, ⟨%dO, %fO, -, HO⟩, Hk⟩
    obtain rfl := harg3.eq_unread hf0; obtain rfl := harg6.eq_unread hf3; obtain rfl := harg9.eq_unread hf6
    obtain rfl := harg12.eq_unread hf9; obtain rfl := harg15.eq_unread hf12
    sl_exec (disch := first | exact hc0 | exact hc1 | exact hc2 | exact hc3)
    sl_step
    iapply Hk
    isplitl [H0]
    · iexists _; isplitr; · ipureintro; exact harg3.read_unread _
      iexact H0
    isplitl [H3]
    · iexists _; isplitr; · ipureintro; exact harg6.read_unread _
      iexact H3
    isplitl [H6]
    · iexists _; isplitr; · ipureintro; exact harg9.read_unread _
      iexact H6
    isplitl [H9]
    · iexists _; isplitr; · ipureintro; exact harg12.read_unread _
      iexact H9
    isplitl [H12]
    · iexists _; isplitr; · ipureintro; exact harg15.read_unread _
      iexact H12
    isplitl [HF]; · iexists _; iexact HF
    isplitl [HI]; · iexists _; iexact HI
    isplitl [HC]; · iexists _; iexact HC
    iexists _; iexact HO

end Cert.KernelIdeal.Body

end
-- ==== Proof.KernelIdeal.RunInput.lean ====
/-
  The body at a point with k = 1, 2 or 3. Each accumulator is found at what the step before left in it; the slab of x
  the point was handed is multiplied by the point's block of each input weight and added in. The run owns x's block,
  the four input-weight blocks and the four accumulators, and hands each accumulator back with one store recorded.
-/
import proofs.«172886_j24756191494330_1_alg».proof.Proof.KernelIdeal.RunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg3 : Memref sig .tc .vmem S512x512 .f32) (harg3 : arg3.IsWhole) (arg4 : Memref sig .tc .vmem S512x512 .f32) (harg4 : arg4.IsWhole)
  (arg5 : Memref sig .tc .vmem S512x512 .f32) (harg5 : arg5.IsWhole) (arg6 : Memref sig .tc .vmem S512x512 .f32) (harg6 : arg6.IsWhole)
  (arg7 : Memref sig .tc .vmem S512x512 .f32) (harg7 : arg7.IsWhole) (arg8 : Memref sig .tc .vmem S512x1 .f32) (harg8 : arg8.IsWhole)
  (arg9 : Memref sig .tc .vmem S512x512 .f32) (harg9 : arg9.IsWhole) (arg10 : Memref sig .tc .vmem S512x512 .f32) (harg10 : arg10.IsWhole)
  (arg11 : Memref sig .tc .vmem S512x1 .f32) (harg11 : arg11.IsWhole) (arg12 : Memref sig .tc .vmem S512x512 .f32) (harg12 : arg12.IsWhole)
  (arg13 : Memref sig .tc .vmem S512x512 .f32) (harg13 : arg13.IsWhole) (arg14 : Memref sig .tc .vmem S512x1 .f32) (harg14 : arg14.IsWhole)
  (arg15 : Memref sig .tc .vmem S512x512 .f32) (harg15 : arg15.IsWhole) (arg16 : Memref sig .tc .vmem S512x512 .f32) (harg16 : arg16.IsWhole)
  (arg17 : Memref sig .tc .vmem S512x1 .f32) (harg17 : arg17.IsWhole) (arg18 : Memref sig .tc .vmem S512x512 .f32) (harg18 : arg18.IsWhole)
  (arg19 : Memref sig .tc .vmem S512x512 .f32) (harg19 : arg19.IsWhole) (arg20 : Memref sig .tc .vmem S512x512 .f32) (harg20 : arg20.IsWhole)
  (arg21 : Memref sig .tc .vmem S512x512 .f32) (harg21 : arg21.IsWhole) (arg22 : Memref sig .tc .vmem S512x512 .f32) (harg22 : arg22.IsWhole)
  (arg23 : Memref sig .tc .vmem S512x512 .f32) (harg23 : arg23.IsWhole)

set_option maxHeartbeats 4000000 in
/-- 0 < k < 4: on whole memrefs, x's block and the four input-weight blocks at their contents and the accumulators at
    the contents `aF aI aC aO` carried in, the body runs to a continuation that gets the blocks back unchanged and each
    accumulator written with the piece the run found. -/
noncomputable def runInput (hc0 : ¬atFirst i) (hc1 : onInput i) (hc2 : ¬onHidden i) (hc3 : ¬atLast i)
    (x wf wi wc wo aF aI aC aO : Vec F S512x512 .f32) :
    Σ' (LF : List (View.Piece (Elt F) S512x512 .f32)) (LI : List (View.Piece (Elt F) S512x512 .f32))
       (LC : List (View.Piece (Elt F) S512x512 .f32)),
      { LO : List (View.Piece (Elt F) S512x512 .f32) //
        ∀ (E : Set ℕ) (K : PUnit → sProp 𝕄),
          iprop(owns (c : Thread nD τ) arg3 fullShare x ∗ owns (c : Thread nD τ) arg6 fullShare wf
              ∗ owns (c : Thread nD τ) arg9 fullShare wi ∗ owns (c : Thread nD τ) arg12 fullShare wc
              ∗ owns (c : Thread nD τ) arg15 fullShare wo
              ∗ owns (c : Thread nD τ) arg20 fullShare aF ∗ owns (c : Thread nD τ) arg21 fullShare aI
              ∗ owns (c : Thread nD τ) arg22 fullShare aC ∗ owns (c : Thread nD τ) arg23 fullShare aO
              ∗ (iprop(owns (c : Thread nD τ) arg3 fullShare x ∗ owns (c : Thread nD τ) arg6 fullShare wf
                  ∗ owns (c : Thread nD τ) arg9 fullShare wi ∗ owns (c : Thread nD τ) arg12 fullShare wc
                  ∗ owns (c : Thread nD τ) arg15 fullShare wo
                  ∗ wrote c arg20 LF ∗ wrote c arg21 LI ∗ wrote c arg22 LC ∗ wrote c arg23 LO) -∗ K ⟨⟩))
            ⊢ wp frame (wpE (defs₀ (F := F)) Variants.none c none) E
                (cc0__lstm_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, fun E K => ?run⟩
  case run =>
    simp only [cc0__lstm_kernel_eq_skeleton]; unfold cc0__lstm_kernel_skel
    simp only [k0_part1_eq_skeleton, k0_part2_eq_skeleton]
    unfold owns wrote
    iintro ⟨⟨%f0, %hf0, H0⟩, ⟨%f3, %hf3, H3⟩, ⟨%f6, %hf6, H6⟩, ⟨%f9, %hf9, H9⟩, ⟨%f12, %hf12, H12⟩,
      ⟨%fF, %hfF, HF⟩, ⟨%fI, %hfI, HI⟩, ⟨%fC, %hfC, HC⟩, ⟨%fO, %hfO, HO⟩, Hk⟩
    obtain rfl := harg3.eq_unread hf0; obtain rfl := harg6.eq_unread hf3; obtain rfl := harg9.eq_unread hf6
    obtain rfl := harg12.eq_unread hf9; obtain rfl := harg15.eq_unread hf12
    obtain rfl := harg20.eq_unread hfF; obtain rfl := harg21.eq_unread hfI
    obtain rfl := harg22.eq_unread hfC; obtain rfl := harg23.eq_unread hfO
    sl_exec (disch := first | exact hc0 | exact hc1 | exact hc2 | exact hc3)
    sl_step
    iapply Hk
    isplitl [H0]
    · iexists _; isplitr; · ipureintro; exact harg3.read_unread _
      iexact H0
    isplitl [H3]
    · iexists _; isplitr; · ipureintro; exact harg6.read_unread _
      iexact H3
    isplitl [H6]
    · iexists _; isplitr; · ipureintro; exact harg9.read_unread _
      iexact H6
    isplitl [H9]
    · iexists _; isplitr; · ipureintro; exact harg12.read_unread _
      iexact H9
    isplitl [H12]
    · iexists _; isplitr; · ipureintro; exact harg15.read_unread _
      iexact H12
    isplitl [HF]; · iexists _; iexact HF
    isplitl [HI]; · iexists _; iexact HI
    isplitl [HC]; · iexists _; iexact HC
    iexists _; iexact HO

end Cert.KernelIdeal.Body

end
-- ==== Proof.KernelIdeal.RunHidden.lean ====
/-
  The body at a point with 4 ≤ k ≤ 10. Each accumulator is found at what the step before left in it; the slab of the
  previous output the point was handed is multiplied by the point's block of each hidden weight and added in. The run
  owns that slab, the four hidden-weight blocks and the four accumulators, and hands each accumulator back with one
  store recorded.
-/
import proofs.«172886_j24756191494330_1_alg».proof.Proof.KernelIdeal.RunInput

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg3 : Memref sig .tc .vmem S512x512 .f32) (harg3 : arg3.IsWhole) (arg4 : Memref sig .tc .vmem S512x512 .f32) (harg4 : arg4.IsWhole)
  (arg5 : Memref sig .tc .vmem S512x512 .f32) (harg5 : arg5.IsWhole) (arg6 : Memref sig .tc .vmem S512x512 .f32) (harg6 : arg6.IsWhole)
  (arg7 : Memref sig .tc .vmem S512x512 .f32) (harg7 : arg7.IsWhole) (arg8 : Memref sig .tc .vmem S512x1 .f32) (harg8 : arg8.IsWhole)
  (arg9 : Memref sig .tc .vmem S512x512 .f32) (harg9 : arg9.IsWhole) (arg10 : Memref sig .tc .vmem S512x512 .f32) (harg10 : arg10.IsWhole)
  (arg11 : Memref sig .tc .vmem S512x1 .f32) (harg11 : arg11.IsWhole) (arg12 : Memref sig .tc .vmem S512x512 .f32) (harg12 : arg12.IsWhole)
  (arg13 : Memref sig .tc .vmem S512x512 .f32) (harg13 : arg13.IsWhole) (arg14 : Memref sig .tc .vmem S512x1 .f32) (harg14 : arg14.IsWhole)
  (arg15 : Memref sig .tc .vmem S512x512 .f32) (harg15 : arg15.IsWhole) (arg16 : Memref sig .tc .vmem S512x512 .f32) (harg16 : arg16.IsWhole)
  (arg17 : Memref sig .tc .vmem S512x1 .f32) (harg17 : arg17.IsWhole) (arg18 : Memref sig .tc .vmem S512x512 .f32) (harg18 : arg18.IsWhole)
  (arg19 : Memref sig .tc .vmem S512x512 .f32) (harg19 : arg19.IsWhole) (arg20 : Memref sig .tc .vmem S512x512 .f32) (harg20 : arg20.IsWhole)
  (arg21 : Memref sig .tc .vmem S512x512 .f32) (harg21 : arg21.IsWhole) (arg22 : Memref sig .tc .vmem S512x512 .f32) (harg22 : arg22.IsWhole)
  (arg23 : Memref sig .tc .vmem S512x512 .f32) (harg23 : arg23.IsWhole)

set_option maxHeartbeats 4000000 in
/-- 4 ≤ k < 11: on whole memrefs, the previous output's block and the four hidden-weight blocks at their contents and
    the accumulators at the contents carried in, the body runs to a continuation that gets the blocks back unchanged
    and each accumulator written with the piece the run found. -/
noncomputable def runHidden (hc0 : ¬atFirst i) (hc1 : ¬onInput i) (hc2 : onHidden i) (hc3 : ¬atLast i)
    (h uf ui uc uo aF aI aC aO : Vec F S512x512 .f32) :
    Σ' (LF : List (View.Piece (Elt F) S512x512 .f32)) (LI : List (View.Piece (Elt F) S512x512 .f32))
       (LC : List (View.Piece (Elt F) S512x512 .f32)),
      { LO : List (View.Piece (Elt F) S512x512 .f32) //
        ∀ (E : Set ℕ) (K : PUnit → sProp 𝕄),
          iprop(owns (c : Thread nD τ) arg4 fullShare h ∗ owns (c : Thread nD τ) arg7 fullShare uf
              ∗ owns (c : Thread nD τ) arg10 fullShare ui ∗ owns (c : Thread nD τ) arg13 fullShare uc
              ∗ owns (c : Thread nD τ) arg16 fullShare uo
              ∗ owns (c : Thread nD τ) arg20 fullShare aF ∗ owns (c : Thread nD τ) arg21 fullShare aI
              ∗ owns (c : Thread nD τ) arg22 fullShare aC ∗ owns (c : Thread nD τ) arg23 fullShare aO
              ∗ (iprop(owns (c : Thread nD τ) arg4 fullShare h ∗ owns (c : Thread nD τ) arg7 fullShare uf
                  ∗ owns (c : Thread nD τ) arg10 fullShare ui ∗ owns (c : Thread nD τ) arg13 fullShare uc
                  ∗ owns (c : Thread nD τ) arg16 fullShare uo
                  ∗ wrote c arg20 LF ∗ wrote c arg21 LI ∗ wrote c arg22 LC ∗ wrote c arg23 LO) -∗ K ⟨⟩))
            ⊢ wp frame (wpE (defs₀ (F := F)) Variants.none c none) E
                (cc0__lstm_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, fun E K => ?run⟩
  case run =>
    simp only [cc0__lstm_kernel_eq_skeleton]; unfold cc0__lstm_kernel_skel
    simp only [k0_part1_eq_skeleton, k0_part2_eq_skeleton]
    unfold owns wrote
    iintro ⟨⟨%f1, %hf1, H1⟩, ⟨%f4, %hf4, H4⟩, ⟨%f7, %hf7, H7⟩, ⟨%f10, %hf10, H10⟩, ⟨%f13, %hf13, H13⟩,
      ⟨%fF, %hfF, HF⟩, ⟨%fI, %hfI, HI⟩, ⟨%fC, %hfC, HC⟩, ⟨%fO, %hfO, HO⟩, Hk⟩
    obtain rfl := harg4.eq_unread hf1; obtain rfl := harg7.eq_unread hf4; obtain rfl := harg10.eq_unread hf7
    obtain rfl := harg13.eq_unread hf10; obtain rfl := harg16.eq_unread hf13
    obtain rfl := harg20.eq_unread hfF; obtain rfl := harg21.eq_unread hfI
    obtain rfl := harg22.eq_unread hfC; obtain rfl := harg23.eq_unread hfO
    sl_exec (disch := first | exact hc0 | exact hc1 | exact hc2 | exact hc3)
    sl_step
    iapply Hk
    isplitl [H1]
    · iexists _; isplitr; · ipureintro; exact harg4.read_unread _
      iexact H1
    isplitl [H4]
    · iexists _; isplitr; · ipureintro; exact harg7.read_unread _
      iexact H4
    isplitl [H7]
    · iexists _; isplitr; · ipureintro; exact harg10.read_unread _
      iexact H7
    isplitl [H10]
    · iexists _; isplitr; · ipureintro; exact harg13.read_unread _
      iexact H10
    isplitl [H13]
    · iexists _; isplitr; · ipureintro; exact harg16.read_unread _
      iexact H13
    isplitl [HF]; · iexists _; iexact HF
    isplitl [HI]; · iexists _; iexact HI
    isplitl [HC]; · iexists _; iexact HC
    iexists _; iexact HO

end Cert.KernelIdeal.Body

end
-- ==== Proof.KernelIdeal.RunLast.lean ====
/-
  The body at a point with k = 11, the last step of a block. The last slab of the previous output is multiplied by the
  hidden weights and added into the accumulators as at the steps before; then the accumulators are read back, each
  gate's bias column is added along the rows, the forget, input and output gates go through the logistic function and
  the candidate through tanh, and the two output blocks are stored: the new state s · f + i · g and tanh of it times o.
  The run owns the previous output's slab, the hidden-weight blocks, the four bias columns, the old state's block, the
  two output buffers (found at anything) and the four accumulators.
-/
import proofs.«172886_j24756191494330_1_alg».proof.Proof.KernelIdeal.RunHidden

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg3 : Memref sig .tc .vmem S512x512 .f32) (harg3 : arg3.IsWhole) (arg4 : Memref sig .tc .vmem S512x512 .f32) (harg4 : arg4.IsWhole)
  (arg5 : Memref sig .tc .vmem S512x512 .f32) (harg5 : arg5.IsWhole) (arg6 : Memref sig .tc .vmem S512x512 .f32) (harg6 : arg6.IsWhole)
  (arg7 : Memref sig .tc .vmem S512x512 .f32) (harg7 : arg7.IsWhole) (arg8 : Memref sig .tc .vmem S512x1 .f32) (harg8 : arg8.IsWhole)
  (arg9 : Memref sig .tc .vmem S512x512 .f32) (harg9 : arg9.IsWhole) (arg10 : Memref sig .tc .vmem S512x512 .f32) (harg10 : arg10.IsWhole)
  (arg11 : Memref sig .tc .vmem S512x1 .f32) (harg11 : arg11.IsWhole) (arg12 : Memref sig .tc .vmem S512x512 .f32) (harg12 : arg12.IsWhole)
  (arg13 : Memref sig .tc .vmem S512x512 .f32) (harg13 : arg13.IsWhole) (arg14 : Memref sig .tc .vmem S512x1 .f32) (harg14 : arg14.IsWhole)
  (arg15 : Memref sig .tc .vmem S512x512 .f32) (harg15 : arg15.IsWhole) (arg16 : Memref sig .tc .vmem S512x512 .f32) (harg16 : arg16.IsWhole)
  (arg17 : Memref sig .tc .vmem S512x1 .f32) (harg17 : arg17.IsWhole) (arg18 : Memref sig .tc .vmem S512x512 .f32) (harg18 : arg18.IsWhole)
  (arg19 : Memref sig .tc .vmem S512x512 .f32) (harg19 : arg19.IsWhole) (arg20 : Memref sig .tc .vmem S512x512 .f32) (harg20 : arg20.IsWhole)
  (arg21 : Memref sig .tc .vmem S512x512 .f32) (harg21 : arg21.IsWhole) (arg22 : Memref sig .tc .vmem S512x512 .f32) (harg22 : arg22.IsWhole)
  (arg23 : Memref sig .tc .vmem S512x512 .f32) (harg23 : arg23.IsWhole)

set_option maxHeartbeats 8000000 in
/-- k = 11: on whole memrefs, the blocks the step reads at their contents, the accumulators at the contents carried in
    and the two output buffers at anything, the body runs to a continuation that gets the blocks back unchanged, each
    accumulator written with the piece the run found and each output buffer written with its block. -/
noncomputable def runLast (hc0 : ¬atFirst i) (hc1 : ¬onInput i) (hc2 : onHidden i) (hc3 : atLast i)
    (h uf ui uc uo s aF aI aC aO : Vec F S512x512 .f32) (bf bi bc bo : Vec F S512x1 .f32) :
    Σ' (LN : List (View.Piece (Elt F) S512x512 .f32)) (LH : List (View.Piece (Elt F) S512x512 .f32))
       (LF : List (View.Piece (Elt F) S512x512 .f32)) (LI : List (View.Piece (Elt F) S512x512 .f32))
       (LC : List (View.Piece (Elt F) S512x512 .f32)),
      { LO : List (View.Piece (Elt F) S512x512 .f32) //
        ∀ (E : Set ℕ) (K : PUnit → sProp 𝕄),
          iprop(owns (c : Thread nD τ) arg4 fullShare h ∗ owns (c : Thread nD τ) arg7 fullShare uf
              ∗ owns (c : Thread nD τ) arg10 fullShare ui ∗ owns (c : Thread nD τ) arg13 fullShare uc
              ∗ owns (c : Thread nD τ) arg16 fullShare uo
              ∗ owns (c : Thread nD τ) arg8 fullShare bf ∗ owns (c : Thread nD τ) arg11 fullShare bi
              ∗ owns (c : Thread nD τ) arg14 fullShare bc ∗ owns (c : Thread nD τ) arg17 fullShare bo
              ∗ owns (c : Thread nD τ) arg5 fullShare s
              ∗ (∃ d, owns (c : Thread nD τ) arg18 fullShare d) ∗ (∃ d, owns (c : Thread nD τ) arg19 fullShare d)
              ∗ owns (c : Thread nD τ) arg20 fullShare aF ∗ owns (c : Thread nD τ) arg21 fullShare aI
              ∗ owns (c : Thread nD τ) arg22 fullShare aC ∗ owns (c : Thread nD τ) arg23 fullShare aO
              ∗ (iprop(owns (c : Thread nD τ) arg4 fullShare h ∗ owns (c : Thread nD τ) arg7 fullShare uf
                  ∗ owns (c : Thread nD τ) arg10 fullShare ui ∗ owns (c : Thread nD τ) arg13 fullShare uc
                  ∗ owns (c : Thread nD τ) arg16 fullShare uo
                  ∗ owns (c : Thread nD τ) arg8 fullShare bf ∗ owns (c : Thread nD τ) arg11 fullShare bi
                  ∗ owns (c : Thread nD τ) arg14 fullShare bc ∗ owns (c : Thread nD τ) arg17 fullShare bo
                  ∗ owns (c : Thread nD τ) arg5 fullShare s
                  ∗ wrote c arg18 LN ∗ wrote c arg19 LH
                  ∗ wrote c arg20 LF ∗ wrote c arg21 LI ∗ wrote c arg22 LC ∗ wrote c arg23 LO) -∗ K ⟨⟩))
            ⊢ wp frame (wpE (defs₀ (F := F)) Variants.none c none) E
                (cc0__lstm_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, fun E K => ?run⟩
  case run =>
    simp only [cc0__lstm_kernel_eq_skeleton]; unfold cc0__lstm_kernel_skel
    simp only [k0_part1_eq_skeleton, k0_part2_eq_skeleton]
    unfold owns wrote
    iintro ⟨⟨%f1, %hf1, H1⟩, ⟨%f4, %hf4, H4⟩, ⟨%f7, %hf7, H7⟩, ⟨%f10, %hf10, H10⟩, ⟨%f13, %hf13, H13⟩,
      ⟨%f5, %hf5, H5⟩, ⟨%f8, %hf8, H8⟩, ⟨%f11, %hf11, H11⟩, ⟨%f14, %hf14, H14⟩, ⟨%f2, %hf2, H2⟩,
      ⟨%dN, %fN, -, HN⟩, ⟨%dH, %fH, -, HH⟩,
      ⟨%fF, %hfF, HF⟩, ⟨%fI, %hfI, HI⟩, ⟨%fC, %hfC, HC⟩, ⟨%fO, %hfO, HO⟩, Hk⟩
    obtain rfl := harg4.eq_unread hf1; obtain rfl := harg7.eq_unread hf4; obtain rfl := harg10.eq_unread hf7
    obtain rfl := harg13.eq_unread hf10; obtain rfl := harg16.eq_unread hf13
    obtain rfl := harg8.eq_unread hf5; obtain rfl := harg11.eq_unread hf8; obtain rfl := harg14.eq_unread hf11
    obtain rfl := harg17.eq_unread hf14; obtain rfl := harg5.eq_unread hf2
    obtain rfl := harg20.eq_unread hfF; obtain rfl := harg21.eq_unread hfI
    obtain rfl := harg22.eq_unread hfC; obtain rfl := harg23.eq_unread hfO
    sl_exec (disch := first | exact hc0 | exact hc1 | exact hc2 | exact hc3)
    sl_step
    iapply Hk
    isplitl [H1]
    · iexists _; isplitr; · ipureintro; exact harg4.read_unread _
      iexact H1
    isplitl [H4]
    · iexists _; isplitr; · ipureintro; exact harg7.read_unread _
      iexact H4
    isplitl [H7]
    · iexists _; isplitr; · ipureintro; exact harg10.read_unread _
      iexact H7
    isplitl [H10]
    · iexists _; isplitr; · ipureintro; exact harg13.read_unread _
      iexact H10
    isplitl [H13]
    · iexists _; isplitr; · ipureintro; exact harg16.read_unread _
      iexact H13
    isplitl [H5]
    · iexists _; isplitr; · ipureintro; exact harg8.read_unread _
      iexact H5
    isplitl [H8]
    · iexists _; isplitr; · ipureintro; exact harg11.read_unread _
      iexact H8
    isplitl [H11]
    · iexists _; isplitr; · ipureintro; exact harg14.read_unread _
      iexact H11
    isplitl [H14]
    · iexists _; isplitr; · ipureintro; exact harg17.read_unread _
      iexact H14
    isplitl [H2]
    · iexists _; isplitr; · ipureintro; exact harg5.read_unread _
      iexact H2
    isplitl [HN]; · iexists _; iexact HN
    isplitl [HH]; · iexists _; iexact HH
    isplitl [HF]; · iexists _; iexact HF
    isplitl [HI]; · iexists _; iexact HI
    isplitl [HC]; · iexists _; iexact HC
    iexists _; iexact HO

end Cert.KernelIdeal.Body

end
-- ==== Proof.KernelIdeal.Outs.lean ====
/-
  What the body leaves behind, point by point.

  Each of the four runs records, per buffer it stores into, the pieces it wrote. Read back through a fixed view those
  pieces are the buffer's contents after the run, as soon as they cover the buffer — and they do: every store of this
  kernel writes a whole 512 x 512 buffer. `Accs` is the four accumulators' contents; `Left` adds the two output
  buffers'. `leftAt n` is what the body leaves after the point numbered `n`, by recursion on `n`: the step k = n mod 12
  selects the run, which is handed the blocks of point `n` and, unless k = 0, the accumulators as point `n - 1` left
  them (nothing else touches the scratch between two points). Away from k = 11 the output buffers are idle and their
  entry in `Left` is a placeholder nothing consults.
-/
import proofs.«172886_j24756191494330_1_alg».proof.Proof.KernelIdeal.RunLast

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four accumulators' contents: forget, input, candidate, output. -/
structure Accs (F : FTy → Type) [FloatOps F] where
  f : Vec F S512x512 .f32
  i : Vec F S512x512 .f32
  g : Vec F S512x512 .f32
  o : Vec F S512x512 .f32

/-- The accumulators' and the two output buffers' contents. -/
structure Left (F : FTy → Type) [FloatOps F] where
  acc : Accs F
  new : Vec F S512x512 .f32
  out : Vec F S512x512 .f32

section OnAnyMemrefs

variable (c : Dev nD) (i : grid0.Coords)
  (arg3 : Memref sig .tc .vmem S512x512 .f32) (harg3 : arg3.IsWhole) (arg4 : Memref sig .tc .vmem S512x512 .f32) (harg4 : arg4.IsWhole)
  (arg5 : Memref sig .tc .vmem S512x512 .f32) (harg5 : arg5.IsWhole) (arg6 : Memref sig .tc .vmem S512x512 .f32) (harg6 : arg6.IsWhole)
  (arg7 : Memref sig .tc .vmem S512x512 .f32) (harg7 : arg7.IsWhole) (arg8 : Memref sig .tc .vmem S512x1 .f32) (harg8 : arg8.IsWhole)
  (arg9 : Memref sig .tc .vmem S512x512 .f32) (harg9 : arg9.IsWhole) (arg10 : Memref sig .tc .vmem S512x512 .f32) (harg10 : arg10.IsWhole)
  (arg11 : Memref sig .tc .vmem S512x1 .f32) (harg11 : arg11.IsWhole) (arg12 : Memref sig .tc .vmem S512x512 .f32) (harg12 : arg12.IsWhole)
  (arg13 : Memref sig .tc .vmem S512x512 .f32) (harg13 : arg13.IsWhole) (arg14 : Memref sig .tc .vmem S512x1 .f32) (harg14 : arg14.IsWhole)
  (arg15 : Memref sig .tc .vmem S512x512 .f32) (harg15 : arg15.IsWhole) (arg16 : Memref sig .tc .vmem S512x512 .f32) (harg16 : arg16.IsWhole)
  (arg17 : Memref sig .tc .vmem S512x1 .f32) (harg17 : arg17.IsWhole) (arg18 : Memref sig .tc .vmem S512x512 .f32) (harg18 : arg18.IsWhole)
  (arg19 : Memref sig .tc .vmem S512x512 .f32) (harg19 : arg19.IsWhole) (arg20 : Memref sig .tc .vmem S512x512 .f32) (harg20 : arg20.IsWhole)
  (arg21 : Memref sig .tc .vmem S512x512 .f32) (harg21 : arg21.IsWhole) (arg22 : Memref sig .tc .vmem S512x512 .f32) (harg22 : arg22.IsWhole)
  (arg23 : Memref sig .tc .vmem S512x512 .f32) (harg23 : arg23.IsWhole)

local notation "RFirst" => runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
local notation "RInput" => runInput c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
local notation "RHidden" => runHidden c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
local notation "RLast" => runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23

/-! ### k = 0 -/

section First
variable (hc0 : atFirst i) (hc1 : onInput i) (hc2 : ¬onHidden i) (hc3 : ¬atLast i) (x wf wi wc wo : Vec F S512x512 .f32)

theorem coverFirstF (y : S512x512.Idx) : ∃ pc ∈ (RFirst hc0 hc1 hc2 hc3 x wf wi wc wo).1, y ∈ pc.1.set :=
  View.cover_of_tiledL (RFirst hc0 hc1 hc2 hc3 x wf wi wc wo).1 S512x512.size (by sl_kernel_rfl) y
theorem coverFirstI (y : S512x512.Idx) : ∃ pc ∈ (RFirst hc0 hc1 hc2 hc3 x wf wi wc wo).2.1, y ∈ pc.1.set :=
  View.cover_of_tiledL (RFirst hc0 hc1 hc2 hc3 x wf wi wc wo).2.1 S512x512.size (by sl_kernel_rfl) y
theorem coverFirstC (y : S512x512.Idx) : ∃ pc ∈ (RFirst hc0 hc1 hc2 hc3 x wf wi wc wo).2.2.1, y ∈ pc.1.set :=
  View.cover_of_tiledL (RFirst hc0 hc1 hc2 hc3 x wf wi wc wo).2.2.1 S512x512.size (by sl_kernel_rfl) y
theorem coverFirstO (y : S512x512.Idx) : ∃ pc ∈ (RFirst hc0 hc1 hc2 hc3 x wf wi wc wo).2.2.2.1, y ∈ pc.1.set :=
  View.cover_of_tiledL (RFirst hc0 hc1 hc2 hc3 x wf wi wc wo).2.2.2.1 S512x512.size (by sl_kernel_rfl) y

/-- The accumulators after a step with k = 0. -/
def accsFirst : Accs F where
  f := vF.read (Elt F) (vF.writes (Elt F) vF.junk (RFirst hc0 hc1 hc2 hc3 x wf wi wc wo).1)
  i := vI.read (Elt F) (vI.writes (Elt F) vI.junk (RFirst hc0 hc1 hc2 hc3 x wf wi wc wo).2.1)
  g := vC.read (Elt F) (vC.writes (Elt F) vC.junk (RFirst hc0 hc1 hc2 hc3 x wf wi wc wo).2.2.1)
  o := vO.read (Elt F) (vO.writes (Elt F) vO.junk (RFirst hc0 hc1 hc2 hc3 x wf wi wc wo).2.2.2.1)
end First

/-! ### 0 < k < 4 -/

section Input
variable (hc0 : ¬atFirst i) (hc1 : onInput i) (hc2 : ¬onHidden i) (hc3 : ¬atLast i) (x wf wi wc wo : Vec F S512x512 .f32) (a : Accs F)

theorem coverInputF (y : S512x512.Idx) : ∃ pc ∈ (RInput hc0 hc1 hc2 hc3 x wf wi wc wo a.f a.i a.g a.o).1, y ∈ pc.1.set :=
  View.cover_of_tiledL (RInput hc0 hc1 hc2 hc3 x wf wi wc wo a.f a.i a.g a.o).1 S512x512.size (by sl_kernel_rfl) y
theorem coverInputI (y : S512x512.Idx) : ∃ pc ∈ (RInput hc0 hc1 hc2 hc3 x wf wi wc wo a.f a.i a.g a.o).2.1, y ∈ pc.1.set :=
  View.cover_of_tiledL (RInput hc0 hc1 hc2 hc3 x wf wi wc wo a.f a.i a.g a.o).2.1 S512x512.size (by sl_kernel_rfl) y
theorem coverInputC (y : S512x512.Idx) : ∃ pc ∈ (RInput hc0 hc1 hc2 hc3 x wf wi wc wo a.f a.i a.g a.o).2.2.1, y ∈ pc.1.set :=
  View.cover_of_tiledL (RInput hc0 hc1 hc2 hc3 x wf wi wc wo a.f a.i a.g a.o).2.2.1 S512x512.size (by sl_kernel_rfl) y
theorem coverInputO (y : S512x512.Idx) : ∃ pc ∈ (RInput hc0 hc1 hc2 hc3 x wf wi wc wo a.f a.i a.g a.o).2.2.2.1, y ∈ pc.1.set :=
  View.cover_of_tiledL (RInput hc0 hc1 hc2 hc3 x wf wi wc wo a.f a.i a.g a.o).2.2.2.1 S512x512.size (by sl_kernel_rfl) y

/-- The accumulators after a step with 0 < k < 4, from the accumulators `a` carried in. -/
def accsInput : Accs F where
  f := vF.read (Elt F) (vF.writes (Elt F) vF.junk (RInput hc0 hc1 hc2 hc3 x wf wi wc wo a.f a.i a.g a.o).1)
  i := vI.read (Elt F) (vI.writes (Elt F) vI.junk (RInput hc0 hc1 hc2 hc3 x wf wi wc wo a.f a.i a.g a.o).2.1)
  g := vC.read (Elt F) (vC.writes (Elt F) vC.junk (RInput hc0 hc1 hc2 hc3 x wf wi wc wo a.f a.i a.g a.o).2.2.1)
  o := vO.read (Elt F) (vO.writes (Elt F) vO.junk (RInput hc0 hc1 hc2 hc3 x wf wi wc wo a.f a.i a.g a.o).2.2.2.1)
end Input

/-! ### 4 ≤ k < 11 -/

section Hidden
variable (hc0 : ¬atFirst i) (hc1 : ¬onInput i) (hc2 : onHidden i) (hc3 : ¬atLast i) (h uf ui uc uo : Vec F S512x512 .f32) (a : Accs F)

theorem coverHiddenF (y : S512x512.Idx) : ∃ pc ∈ (RHidden hc0 hc1 hc2 hc3 h uf ui uc uo a.f a.i a.g a.o).1, y ∈ pc.1.set :=
  View.cover_of_tiledL (RHidden hc0 hc1 hc2 hc3 h uf ui uc uo a.f a.i a.g a.o).1 S512x512.size (by sl_kernel_rfl) y
theorem coverHiddenI (y : S512x512.Idx) : ∃ pc ∈ (RHidden hc0 hc1 hc2 hc3 h uf ui uc uo a.f a.i a.g a.o).2.1, y ∈ pc.1.set :=
  View.cover_of_tiledL (RHidden hc0 hc1 hc2 hc3 h uf ui uc uo a.f a.i a.g a.o).2.1 S512x512.size (by sl_kernel_rfl) y
theorem coverHiddenC (y : S512x512.Idx) : ∃ pc ∈ (RHidden hc0 hc1 hc2 hc3 h uf ui uc uo a.f a.i a.g a.o).2.2.1, y ∈ pc.1.set :=
  View.cover_of_tiledL (RHidden hc0 hc1 hc2 hc3 h uf ui uc uo a.f a.i a.g a.o).2.2.1 S512x512.size (by sl_kernel_rfl) y
theorem coverHiddenO (y : S512x512.Idx) : ∃ pc ∈ (RHidden hc0 hc1 hc2 hc3 h uf ui uc uo a.f a.i a.g a.o).2.2.2.1, y ∈ pc.1.set :=
  View.cover_of_tiledL (RHidden hc0 hc1 hc2 hc3 h uf ui uc uo a.f a.i a.g a.o).2.2.2.1 S512x512.size (by sl_kernel_rfl) y

/-- The accumulators after a step with 4 ≤ k < 11, from the accumulators `a` carried in. -/
def accsHidden : Accs F where
  f := vF.read (Elt F) (vF.writes (Elt F) vF.junk (RHidden hc0 hc1 hc2 hc3 h uf ui uc uo a.f a.i a.g a.o).1)
  i := vI.read (Elt F) (vI.writes (Elt F) vI.junk (RHidden hc0 hc1 hc2 hc3 h uf ui uc uo a.f a.i a.g a.o).2.1)
  g := vC.read (Elt F) (vC.writes (Elt F) vC.junk (RHidden hc0 hc1 hc2 hc3 h uf ui uc uo a.f a.i a.g a.o).2.2.1)
  o := vO.read (Elt F) (vO.writes (Elt F) vO.junk (RHidden hc0 hc1 hc2 hc3 h uf ui uc uo a.f a.i a.g a.o).2.2.2.1)
end Hidden

/-! ### k = 11 -/

section Last
variable (hc0 : ¬atFirst i) (hc1 : ¬onInput i) (hc2 : onHidden i) (hc3 : atLast i) (h uf ui uc uo s : Vec F S512x512 .f32) (a : Accs F)
  (bf bi bc bo : Vec F S512x1 .f32)

theorem coverLastN (y : S512x512.Idx) : ∃ pc ∈ (RLast hc0 hc1 hc2 hc3 h uf ui uc uo s a.f a.i a.g a.o bf bi bc bo).1, y ∈ pc.1.set :=
  View.cover_of_tiledL (RLast hc0 hc1 hc2 hc3 h uf ui uc uo s a.f a.i a.g a.o bf bi bc bo).1 S512x512.size (by sl_kernel_rfl) y
theorem coverLastH (y : S512x512.Idx) : ∃ pc ∈ (RLast hc0 hc1 hc2 hc3 h uf ui uc uo s a.f a.i a.g a.o bf bi bc bo).2.1, y ∈ pc.1.set :=
  View.cover_of_tiledL (RLast hc0 hc1 hc2 hc3 h uf ui uc uo s a.f a.i a.g a.o bf bi bc bo).2.1 S512x512.size (by sl_kernel_rfl) y
theorem coverLastF (y : S512x512.Idx) : ∃ pc ∈ (RLast hc0 hc1 hc2 hc3 h uf ui uc uo s a.f a.i a.g a.o bf bi bc bo).2.2.1, y ∈ pc.1.set :=
  View.cover_of_tiledL (RLast hc0 hc1 hc2 hc3 h uf ui uc uo s a.f a.i a.g a.o bf bi bc bo).2.2.1 S512x512.size (by sl_kernel_rfl) y
theorem coverLastI (y : S512x512.Idx) : ∃ pc ∈ (RLast hc0 hc1 hc2 hc3 h uf ui uc uo s a.f a.i a.g a.o bf bi bc bo).2.2.2.1, y ∈ pc.1.set :=
  View.cover_of_tiledL (RLast hc0 hc1 hc2 hc3 h uf ui uc uo s a.f a.i a.g a.o bf bi bc bo).2.2.2.1 S512x512.size (by sl_kernel_rfl) y
theorem coverLastC (y : S512x512.Idx) : ∃ pc ∈ (RLast hc0 hc1 hc2 hc3 h uf ui uc uo s a.f a.i a.g a.o bf bi bc bo).2.2.2.2.1, y ∈ pc.1.set :=
  View.cover_of_tiledL (RLast hc0 hc1 hc2 hc3 h uf ui uc uo s a.f a.i a.g a.o bf bi bc bo).2.2.2.2.1 S512x512.size (by sl_kernel_rfl) y
theorem coverLastO (y : S512x512.Idx) : ∃ pc ∈ (RLast hc0 hc1 hc2 hc3 h uf ui uc uo s a.f a.i a.g a.o bf bi bc bo).2.2.2.2.2.1, y ∈ pc.1.set :=
  View.cover_of_tiledL (RLast hc0 hc1 hc2 hc3 h uf ui uc uo s a.f a.i a.g a.o bf bi bc bo).2.2.2.2.2.1 S512x512.size (by sl_kernel_rfl) y

/-- Everything a step with k = 11 leaves: the accumulators and the two stored output blocks. -/
def leftLast : Left F where
  acc :=
    { f := vF.read (Elt F) (vF.writes (Elt F) vF.junk (RLast hc0 hc1 hc2 hc3 h uf ui uc uo s a.f a.i a.g a.o bf bi bc bo).2.2.1)
      i := vI.read (Elt F) (vI.writes (Elt F) vI.junk (RLast hc0 hc1 hc2 hc3 h uf ui uc uo s a.f a.i a.g a.o bf bi bc bo).2.2.2.1)
      g := vC.read (Elt F) (vC.writes (Elt F) vC.junk (RLast hc0 hc1 hc2 hc3 h uf ui uc uo s a.f a.i a.g a.o bf bi bc bo).2.2.2.2.1)
      o := vO.read (Elt F) (vO.writes (Elt F) vO.junk (RLast hc0 hc1 hc2 hc3 h uf ui uc uo s a.f a.i a.g a.o bf bi bc bo).2.2.2.2.2.1) }
  new := vNew.read (Elt F) (vNew.writes (Elt F) vNew.junk (RLast hc0 hc1 hc2 hc3 h uf ui uc uo s a.f a.i a.g a.o bf bi bc bo).1)
  out := vOut.read (Elt F) (vOut.writes (Elt F) vOut.junk (RLast hc0 hc1 hc2 hc3 h uf ui uc uo s a.f a.i a.g a.o bf bi bc bo).2.1)
end Last

end OnAnyMemrefs

/-! ## After the point numbered `n` -/

variable (m : (ℓ : Loc nD τ sig) → Buf (Elt F) ℓ)

/-- An idle output buffer's entry: nothing consults it. -/
def idleNew : Vec F S512x512 .f32 := vNew.read (Elt F) vNew.junk
def idleOut : Vec F S512x512 .f32 := vOut.read (Elt F) vOut.junk

/-- The four cases at a point `t`, on the point's own memrefs and blocks. -/
def firstAt (c : Dev nD) (t : Fin cfg0.N) (h0 : t.val % 12 = 0) : Left F :=
  ⟨accsFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
      ((atFirst_iff t).mpr h0) ((onInput_iff t).mpr (by omega)) (fun h => absurd ((onHidden_iff t).mp h) (by omega))
      (fun h => absurd ((atLast_iff t).mp h) (by omega))
      (iblk m c 0 t) (iblk m c 3 t) (iblk m c 6 t) (iblk m c 9 t) (iblk m c 12 t), idleNew, idleOut⟩

def inputAt (c : Dev nD) (t : Fin cfg0.N) (h0 : ¬t.val % 12 = 0) (h1 : t.val % 12 < 4) (a : Accs F) : Left F :=
  ⟨accsInput c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
      (fun h => h0 ((atFirst_iff t).mp h)) ((onInput_iff t).mpr h1) (fun h => absurd ((onHidden_iff t).mp h) (by omega))
      (fun h => absurd ((atLast_iff t).mp h) (by omega))
      (iblk m c 0 t) (iblk m c 3 t) (iblk m c 6 t) (iblk m c 9 t) (iblk m c 12 t) a, idleNew, idleOut⟩

def hiddenAt (c : Dev nD) (t : Fin cfg0.N) (h1 : ¬t.val % 12 < 4) (h3 : ¬t.val % 12 = 11) (a : Accs F) : Left F :=
  ⟨accsHidden c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
      (fun h => absurd ((atFirst_iff t).mp h) (by omega)) (fun h => h1 ((onInput_iff t).mp h)) ((onHidden_iff t).mpr (by omega))
      (fun h => h3 ((atLast_iff t).mp h))
      (iblk m c 1 t) (iblk m c 4 t) (iblk m c 7 t) (iblk m c 10 t) (iblk m c 13 t) a, idleNew, idleOut⟩

def lastAt (c : Dev nD) (t : Fin cfg0.N) (h3 : t.val % 12 = 11) (a : Accs F) : Left F :=
  leftLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
      (fun h => absurd ((atFirst_iff t).mp h) (by omega)) (fun h => absurd ((onInput_iff t).mp h) (by omega)) ((onHidden_iff t).mpr (by omega))
      ((atLast_iff t).mpr h3)
      (iblk m c 1 t) (iblk m c 4 t) (iblk m c 7 t) (iblk m c 10 t) (iblk m c 13 t) (iblk m c 2 t) a
      (iblk m c 5 t) (iblk m c 8 t) (iblk m c 11 t) (iblk m c 14 t)

/-- What the body leaves after the point numbered `n`. -/
def leftAt (c : Dev nD) : (n : ℕ) → n < cfg0.N → Left F
  | 0, hn => firstAt m c ⟨0, hn⟩ (Nat.zero_mod _)
  | n + 1, hn =>
    if h0 : (n + 1) % 12 = 0 then firstAt m c ⟨n + 1, hn⟩ h0
    else if h1 : (n + 1) % 12 < 4 then inputAt m c ⟨n + 1, hn⟩ h0 h1 (leftAt c n (Nat.lt_of_succ_lt hn)).acc
    else if h3 : (n + 1) % 12 = 11 then lastAt m c ⟨n + 1, hn⟩ h3 (leftAt c n (Nat.lt_of_succ_lt hn)).acc
    else hiddenAt m c ⟨n + 1, hn⟩ h1 h3 (leftAt c n (Nat.lt_of_succ_lt hn)).acc

/-- The accumulators a point that is not a block's first finds: as the point before left them. -/
abbrev carriedIn (c : Dev nD) (t : Fin cfg0.N) : Accs F :=
  (leftAt m c (t.val - 1) (Nat.lt_of_le_of_lt (Nat.sub_le _ _) t.isLt)).acc

theorem leftAt_first (c : Dev nD) (t : Fin cfg0.N) (h0 : t.val % 12 = 0) : leftAt m c t.val t.isLt = firstAt m c t h0 := by
  obtain ⟨n, hn⟩ := t
  cases n with
  | zero => rfl
  | succ n => exact dif_pos h0

theorem leftAt_input (c : Dev nD) (t : Fin cfg0.N) (h0 : ¬t.val % 12 = 0) (h1 : t.val % 12 < 4) :
    leftAt m c t.val t.isLt = inputAt m c t h0 h1 (carriedIn m c t) := by
  obtain ⟨n, hn⟩ := t
  cases n with
  | zero => exact absurd (Nat.zero_mod _) h0
  | succ n => exact (dif_neg h0).trans (dif_pos h1)

theorem leftAt_hidden (c : Dev nD) (t : Fin cfg0.N) (h1 : ¬t.val % 12 < 4) (h3 : ¬t.val % 12 = 11) :
    leftAt m c t.val t.isLt = hiddenAt m c t h1 h3 (carriedIn m c t) := by
  obtain ⟨n, hn⟩ := t
  cases n with
  | zero => exact absurd (by decide : (0 : ℕ) % 12 < 4) h1
  | succ n => exact (dif_neg (by intro h; exact h1 (by dsimp only at h ⊢; omega))).trans ((dif_neg h1).trans (dif_neg h3))

theorem leftAt_last (c : Dev nD) (t : Fin cfg0.N) (h3 : t.val % 12 = 11) :
    leftAt m c t.val t.isLt = lastAt m c t h3 (carriedIn m c t) := by
  obtain ⟨n, hn⟩ := t
  cases n with
  | zero => exact absurd h3 (by show ¬ (0 : ℕ) % 12 = 11; decide)
  | succ n => exact (dif_neg (by dsimp only at h3 ⊢; omega)).trans ((dif_neg (by dsimp only at h3 ⊢; omega)).trans (dif_pos h3))

/-! ## The invariant carried between points -/

/-- Before the point numbered `n`: before the first point what the region hands over (the accumulators at anything);
    afterwards the four accumulators at what the point before left in them, and the generator register at some state. -/
def carried (c : Dev nD) : (n : ℕ) → n ≤ cfg0.N → sProp 𝕄
  | 0, _ => Pipeline.ΦA spec0 c
  | n + 1, hn => iprop(iprop(owns (c : Thread nD τ) accF fullShare (leftAt m c n hn).acc.f
      ∗ owns (c : Thread nD τ) accI fullShare (leftAt m c n hn).acc.i
      ∗ owns (c : Thread nD τ) accC fullShare (leftAt m c n hn).acc.g
      ∗ owns (c : Thread nD τ) accO fullShare (leftAt m c n hn).acc.o) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(iprop(owns (c : Thread nD τ) accF fullShare (leftAt m c n hn).acc.f
      ∗ owns (c : Thread nD τ) accI fullShare (leftAt m c n hn).acc.i
      ∗ owns (c : Thread nD τ) accC fullShare (leftAt m c n hn).acc.g
      ∗ owns (c : Thread nD τ) accO fullShare (leftAt m c n hn).acc.o) ∗ (∃ r, prngReg c r)) := rfl

theorem carried_pos (c : Dev nD) (n : ℕ) (h : n ≤ cfg0.N) (hz : n ≠ 0) :
    carried m c n h = iprop(iprop(owns (c : Thread nD τ) accF fullShare (leftAt m c (n - 1) (by omega)).acc.f
      ∗ owns (c : Thread nD τ) accI fullShare (leftAt m c (n - 1) (by omega)).acc.i
      ∗ owns (c : Thread nD τ) accC fullShare (leftAt m c (n - 1) (by omega)).acc.g
      ∗ owns (c : Thread nD τ) accO fullShare (leftAt m c (n - 1) (by omega)).acc.o) ∗ (∃ r, prngReg c r)) := by
  cases n with
  | zero => exact absurd rfl hz
  | succ n => rfl

end Cert.KernelIdeal.Body

end
-- ==== Proof.KernelIdeal.Data.lean ====
/-
  The pipeline's proof data for the cell's one region, and the body's obligation at a point stated window by window.

  The arrays are as the region finds them. After the body at a point each input window's staging buffer still holds
  the window's block there (the body only reads them); the two output windows' buffers hold what `leftAt` says, and the
  invariant carried from point to point is `carried`: the four accumulators at what the point before left in them.
  An input window is never idle, so its buffer must come back at its block; an output window is idle away from k = 11,
  where its buffer comes back as found, and at k = 11 it comes back with the block the step stored.
-/
import proofs.«172886_j24756191494330_1_alg».proof.Proof.KernelIdeal.Outs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (leftAt m c t.val t.isLt).new
    | ⟨16, _⟩ => (leftAt m c t.val t.isLt).out
    | ⟨_ + 17, h⟩ => absurd h (Nat.not_lt.2 (Nat.le_add_left _ _))
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = carried m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = (leftAt m c t.val t.isLt).new := by dsimp only [dats]
theorem after16 (c : Dev nD) (t : Fin cfg0.N) : (dats m 0 c).after 16 t = (leftAt m c t.val t.isLt).out := by dsimp only [dats]

/-- Each input's current staging buffer holds its block at every point, fetched there or not. -/
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d
theorem before9 (c : Dev nD) (t : Fin cfg0.N) (d) : (dats m 0 c).before 9 t d = iblk m c 9 t := before0_9_of m (dats m 0 c) (A_eq m c 9) (after9 m c) t d
theorem before10 (c : Dev nD) (t : Fin cfg0.N) (d) : (dats m 0 c).before 10 t d = iblk m c 10 t := before0_10_of m (dats m 0 c) (A_eq m c 10) (after10 m c) t d
theorem before11 (c : Dev nD) (t : Fin cfg0.N) (d) : (dats m 0 c).before 11 t d = iblk m c 11 t := before0_11_of m (dats m 0 c) (A_eq m c 11) (after11 m c) t d
theorem before12 (c : Dev nD) (t : Fin cfg0.N) (d) : (dats m 0 c).before 12 t d = iblk m c 12 t := before0_12_of m (dats m 0 c) (A_eq m c 12) (after12 m c) t d
theorem before13 (c : Dev nD) (t : Fin cfg0.N) (d) : (dats m 0 c).before 13 t d = iblk m c 13 t := before0_13_of m (dats m 0 c) (A_eq m c 13) (after13 m c) t d
theorem before14 (c : Dev nD) (t : Fin cfg0.N) (d) : (dats m 0 c).before 14 t d = iblk m c 14 t := before0_14_of m (dats m 0 c) (A_eq m c 14) (after14 m c) t d

/-! ## What the body must hand back, window by window -/

/-- An input window is never idle: its buffer is handed back at its block. -/
theorem leaves0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl, after3]
theorem leaves4 (c : Dev nD) (t : Fin cfg0.N) : (dats m 0 c).leavesExact 4 t = owns (c : Thread nD τ) (ms4 t) fullShare (iblk m c 4 t) := by
  unfold Dat.leavesExact; rw [show cfg0.idle 4 (grid0.coords t) = false from rfl, after4]
theorem leaves5 (c : Dev nD) (t : Fin cfg0.N) : (dats m 0 c).leavesExact 5 t = owns (c : Thread nD τ) (ms5 t) fullShare (iblk m c 5 t) := by
  unfold Dat.leavesExact; rw [show cfg0.idle 5 (grid0.coords t) = false from rfl, after5]
theorem leaves6 (c : Dev nD) (t : Fin cfg0.N) : (dats m 0 c).leavesExact 6 t = owns (c : Thread nD τ) (ms6 t) fullShare (iblk m c 6 t) := by
  unfold Dat.leavesExact; rw [show cfg0.idle 6 (grid0.coords t) = false from rfl, after6]
theorem leaves7 (c : Dev nD) (t : Fin cfg0.N) : (dats m 0 c).leavesExact 7 t = owns (c : Thread nD τ) (ms7 t) fullShare (iblk m c 7 t) := by
  unfold Dat.leavesExact; rw [show cfg0.idle 7 (grid0.coords t) = false from rfl, after7]
theorem leaves8 (c : Dev nD) (t : Fin cfg0.N) : (dats m 0 c).leavesExact 8 t = owns (c : Thread nD τ) (ms8 t) fullShare (iblk m c 8 t) := by
  unfold Dat.leavesExact; rw [show cfg0.idle 8 (grid0.coords t) = false from rfl, after8]
theorem leaves9 (c : Dev nD) (t : Fin cfg0.N) : (dats m 0 c).leavesExact 9 t = owns (c : Thread nD τ) (ms9 t) fullShare (iblk m c 9 t) := by
  unfold Dat.leavesExact; rw [show cfg0.idle 9 (grid0.coords t) = false from rfl, after9]
theorem leaves10 (c : Dev nD) (t : Fin cfg0.N) : (dats m 0 c).leavesExact 10 t = owns (c : Thread nD τ) (ms10 t) fullShare (iblk m c 10 t) := by
  unfold Dat.leavesExact; rw [show cfg0.idle 10 (grid0.coords t) = false from rfl, after10]
theorem leaves11 (c : Dev nD) (t : Fin cfg0.N) : (dats m 0 c).leavesExact 11 t = owns (c : Thread nD τ) (ms11 t) fullShare (iblk m c 11 t) := by
  unfold Dat.leavesExact; rw [show cfg0.idle 11 (grid0.coords t) = false from rfl, after11]
theorem leaves12 (c : Dev nD) (t : Fin cfg0.N) : (dats m 0 c).leavesExact 12 t = owns (c : Thread nD τ) (ms12 t) fullShare (iblk m c 12 t) := by
  unfold Dat.leavesExact; rw [show cfg0.idle 12 (grid0.coords t) = false from rfl, after12]
theorem leaves13 (c : Dev nD) (t : Fin cfg0.N) : (dats m 0 c).leavesExact 13 t = owns (c : Thread nD τ) (ms13 t) fullShare (iblk m c 13 t) := by
  unfold Dat.leavesExact; rw [show cfg0.idle 13 (grid0.coords t) = false from rfl, after13]
theorem leaves14 (c : Dev nD) (t : Fin cfg0.N) : (dats m 0 c).leavesExact 14 t = owns (c : Thread nD τ) (ms14 t) fullShare (iblk m c 14 t) := by
  unfold Dat.leavesExact; rw [show cfg0.idle 14 (grid0.coords t) = false from rfl, after14]

/-- Away from k = 11 an output window's buffer is handed back as found. -/
theorem leaves15_idle (c : Dev nD) (t : Fin cfg0.N) (h : ¬t.val % 12 = 11) :
    (dats m 0 c).leavesExact 15 t = iprop(∃ d, owns (c : Thread nD τ) (ms15 t) fullShare ((dats m 0 c).before 15 t d)) :=
  Dat.leavesExact_idle (dats m 0 c) 15 t (idle15 t fun hl => h ((atLast_iff t).mp hl)) (noFlush15 t fun hl => h ((atLast_iff t).mp hl))
theorem leaves16_idle (c : Dev nD) (t : Fin cfg0.N) (h : ¬t.val % 12 = 11) :
    (dats m 0 c).leavesExact 16 t = iprop(∃ d, owns (c : Thread nD τ) (ms16 t) fullShare ((dats m 0 c).before 16 t d)) :=
  Dat.leavesExact_idle (dats m 0 c) 16 t (idle16 t fun hl => h ((atLast_iff t).mp hl)) (noFlush16 t fun hl => h ((atLast_iff t).mp hl))
/-- At k = 11 it is handed back with the block the step stored. -/
theorem leaves15_last (c : Dev nD) (t : Fin cfg0.N) (h : t.val % 12 = 11) :
    (dats m 0 c).leavesExact 15 t = owns (c : Thread nD τ) (ms15 t) fullShare (leftAt m c t.val t.isLt).new := by
  unfold Dat.leavesExact; rw [live15 t ((atLast_iff t).mpr h), after15]
theorem leaves16_last (c : Dev nD) (t : Fin cfg0.N) (h : t.val % 12 = 11) :
    (dats m 0 c).leavesExact 16 t = owns (c : Thread nD τ) (ms16 t) fullShare (leftAt m c t.val t.isLt).out := by
  unfold Dat.leavesExact; rw [live16 t ((atLast_iff t).mpr h), after16]

/-! ## The obligation at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t
    ∗ (dats m 0 c).leavesExact 9 t ∗ (dats m 0 c).leavesExact 10 t ∗ (dats m 0 c).leavesExact 11 t
    ∗ (dats m 0 c).leavesExact 12 t ∗ (dats m 0 c).leavesExact 13 t ∗ (dats m 0 c).leavesExact 14 t
    ∗ (dats m 0 c).leavesExact 15 t ∗ (dats m 0 c).leavesExact 16 t)

end Cert.KernelIdeal.Body

end
-- ==== Proof.KernelIdeal.SoundFirst.lean ====
/-
  The body's obligation at a point with k = 0. The run zeroes the four accumulators and adds the first slab's products;
  it is handed x's block, the four input-weight blocks and the accumulators (at anything at the very first point, at
  what the point before left otherwise: the step overwrites them either way), and every other window's buffer goes
  from the precondition to the postcondition untouched.
-/
import proofs.«172886_j24756191494330_1_alg».proof.Proof.KernelIdeal.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (c : Dev nD) (t : Fin cfg0.N)

local notation "PFirst" => runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CFirstF" => coverFirstF c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CFirstI" => coverFirstI c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CFirstC" => coverFirstC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CFirstO" => coverFirstO c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)

set_option maxHeartbeats 4000000 in
/-- A point with k = 0. The accumulators come at anything if this is the very first point, else at what the point
    before left (which the step overwrites all the same). -/
theorem sound_first (h0 : t.val % 12 = 0) :
    bodyPre m c t ⊢ wp frame (wpE (defs₀ (F := F)) Variants.none c none) Set.univ (bodyAt0 t) (fun _ => bodyPost m c t) := by
  have hF : atFirst (grid0.coords t) := (atFirst_iff t).mpr h0
  have hI : onInput (grid0.coords t) := (onInput_iff t).mpr (by omega)
  have hH : ¬onHidden (grid0.coords t) := fun h => absurd ((onHidden_iff t).mp h) (by omega)
  have hL : ¬atLast (grid0.coords t) := fun h => absurd ((atLast_iff t).mp h) (by omega)
  have h11 : ¬t.val % 12 = 11 := by omega
  unfold bodyPre bodyPost bodyAt0
  simp only [before0, before1, before2, before3, before4, before5, before6, before7, before8, before9, before10, before11,
    before12, before13, before14, leaves0, leaves1, leaves2, leaves3, leaves4, leaves5, leaves6, leaves7, leaves8, leaves9,
    leaves10, leaves11, leaves12, leaves13, leaves14]
  rw [leaves15_idle m c t h11, leaves16_idle m c t h11]
  rw [show (dats m 0 c).owesAt () t.succ = (dats m 0 c).owesAt () t.castSucc from rfl]
  rw [show (dats m 0 c).Φ t.succ = carried m c (t.val + 1) t.isLt from rfl, carried_succ]
  rw [leftAt_first m c t h0]
  unfold firstAt accsFirst; dsimp only
  by_cases hz : t.val = 0
  · rw [inv_castSucc m c t, carried_zero m c _ _ hz, regionInv_eq]
    iintro ⟨⟨⟨HF, HI, HC, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩,
      ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((PFirst hF hI hH hL (iblk m c 0 t) (iblk m c 3 t) (iblk m c 6 t) (iblk m c 9 t) (iblk m c 12 t)).2.2.2.2 Set.univ _)
    isplitl [H0]; · iexact H0
    isplitl [H3]; · iexact H3
    isplitl [H6]; · iexact H6
    isplitl [H9]; · iexact H9
    isplitl [H12]; · iexact H12
    isplitl [HF]; · iexact HF
    isplitl [HI]; · iexact HI
    isplitl [HC]; · iexact HC
    isplitl [HO]; · iexact HO
    iintro ⟨H0, H3, H6, H9, H12, ⟨%eF, HF⟩, ⟨%eI, HI⟩, ⟨%eC, HC⟩, ⟨%eO, HO⟩⟩
    isplitl [HF HI HC HO Hg]
    · isplitl [HF HI HC HO]
      · isplitl [HF]
        · unfold owns; iexists _; isplitr
          swap; · iexact HF
          ipureintro; exact View.read_writes_of_cover _ _ _ _ _ (CFirstF hF hI hH hL _ _ _ _ _)
        isplitl [HI]
        · unfold owns; iexists _; isplitr
          swap; · iexact HI
          ipureintro; exact View.read_writes_of_cover _ _ _ _ _ (CFirstI hF hI hH hL _ _ _ _ _)
        isplitl [HC]
        · unfold owns; iexists _; isplitr
          swap; · iexact HC
          ipureintro; exact View.read_writes_of_cover _ _ _ _ _ (CFirstC hF hI hH hL _ _ _ _ _)
        unfold owns; iexists _; isplitr
        swap; · iexact HO
        ipureintro; exact View.read_writes_of_cover _ _ _ _ _ (CFirstO hF hI hH hL _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    iexists _; iexact H16
  · rw [inv_castSucc m c t, carried_pos m c _ _ hz]
    iintro ⟨⟨⟨HF, HI, HC, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩,
      ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((PFirst hF hI hH hL (iblk m c 0 t) (iblk m c 3 t) (iblk m c 6 t) (iblk m c 9 t) (iblk m c 12 t)).2.2.2.2 Set.univ _)
    isplitl [H0]; · iexact H0
    isplitl [H3]; · iexact H3
    isplitl [H6]; · iexact H6
    isplitl [H9]; · iexact H9
    isplitl [H12]; · iexact H12
    isplitl [HF]; · iexists _; iexact HF
    isplitl [HI]; · iexists _; iexact HI
    isplitl [HC]; · iexists _; iexact HC
    isplitl [HO]; · iexists _; iexact HO
    iintro ⟨H0, H3, H6, H9, H12, ⟨%eF, HF⟩, ⟨%eI, HI⟩, ⟨%eC, HC⟩, ⟨%eO, HO⟩⟩
    isplitl [HF HI HC HO Hg]
    · isplitl [HF HI HC HO]
      · isplitl [HF]
        · unfold owns; iexists _; isplitr
          swap; · iexact HF
          ipureintro; exact View.read_writes_of_cover _ _ _ _ _ (CFirstF hF hI hH hL _ _ _ _ _)
        isplitl [HI]
        · unfold owns; iexists _; isplitr
          swap; · iexact HI
          ipureintro; exact View.read_writes_of_cover _ _ _ _ _ (CFirstI hF hI hH hL _ _ _ _ _)
        isplitl [HC]
        · unfold owns; iexists _; isplitr
          swap; · iexact HC
          ipureintro; exact View.read_writes_of_cover _ _ _ _ _ (CFirstC hF hI hH hL _ _ _ _ _)
        unfold owns; iexists _; isplitr
        swap; · iexact HO
        ipureintro; exact View.read_writes_of_cover _ _ _ _ _ (CFirstO hF hI hH hL _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    iexists _; iexact H16

end Cert.KernelIdeal.Body

end
-- ==== Proof.KernelIdeal.SoundInput.lean ====
/-
  The body's obligation at a point with k = 1, 2 or 3. The run is handed x's block, the four input-weight blocks and
  the accumulators at what the point before left in them, and returns each accumulator updated; every other window's
  buffer goes from the precondition to the postcondition untouched.
-/
import proofs.«172886_j24756191494330_1_alg».proof.Proof.KernelIdeal.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (c : Dev nD) (t : Fin cfg0.N)

local notation "PInput" => runInput c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CInputF" => coverInputF c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CInputI" => coverInputI c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CInputC" => coverInputC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CInputO" => coverInputO c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)

set_option maxHeartbeats 4000000 in
/-- A point with 0 < k < 4. -/
theorem sound_input (h0 : ¬t.val % 12 = 0) (h1 : t.val % 12 < 4) :
    bodyPre m c t ⊢ wp frame (wpE (defs₀ (F := F)) Variants.none c none) Set.univ (bodyAt0 t) (fun _ => bodyPost m c t) := by
  have hF : ¬atFirst (grid0.coords t) := fun h => h0 ((atFirst_iff t).mp h)
  have hI : onInput (grid0.coords t) := (onInput_iff t).mpr h1
  have hH : ¬onHidden (grid0.coords t) := fun h => absurd ((onHidden_iff t).mp h) (by omega)
  have hL : ¬atLast (grid0.coords t) := fun h => absurd ((atLast_iff t).mp h) (by omega)
  have h11 : ¬t.val % 12 = 11 := by omega
  have hz : t.val ≠ 0 := fun h => h0 (by rw [h])
  unfold bodyPre bodyPost bodyAt0
  simp only [before0, before1, before2, before3, before4, before5, before6, before7, before8, before9, before10, before11,
    before12, before13, before14, leaves0, leaves1, leaves2, leaves3, leaves4, leaves5, leaves6, leaves7, leaves8, leaves9,
    leaves10, leaves11, leaves12, leaves13, leaves14]
  rw [leaves15_idle m c t h11, leaves16_idle m c t h11]
  rw [show (dats m 0 c).owesAt () t.succ = (dats m 0 c).owesAt () t.castSucc from rfl]
  rw [show (dats m 0 c).Φ t.succ = carried m c (t.val + 1) t.isLt from rfl, carried_succ]
  rw [leftAt_input m c t h0 h1]
  unfold inputAt accsInput; dsimp only
  rw [inv_castSucc m c t, carried_pos m c _ _ hz]
  iintro ⟨⟨⟨HF, HI, HC, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩,
      ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((PInput hF hI hH hL (iblk m c 0 t) (iblk m c 3 t) (iblk m c 6 t) (iblk m c 9 t) (iblk m c 12 t)
    (carriedIn m c t).f (carriedIn m c t).i (carriedIn m c t).g (carriedIn m c t).o).2.2.2.2 Set.univ _)
  isplitl [H0]; · iexact H0
  isplitl [H3]; · iexact H3
  isplitl [H6]; · iexact H6
  isplitl [H9]; · iexact H9
  isplitl [H12]; · iexact H12
  isplitl [HF]; · iexact HF
  isplitl [HI]; · iexact HI
  isplitl [HC]; · iexact HC
  isplitl [HO]; · iexact HO
  iintro ⟨H0, H3, H6, H9, H12, ⟨%eF, HF⟩, ⟨%eI, HI⟩, ⟨%eC, HC⟩, ⟨%eO, HO⟩⟩
  isplitl [HF HI HC HO Hg]
  · isplitl [HF HI HC HO]
    · isplitl [HF]
      · unfold owns; iexists _; isplitr
        swap; · iexact HF
        ipureintro; exact View.read_writes_of_cover _ _ _ _ _ (CInputF hF hI hH hL _ _ _ _ _ _)
      isplitl [HI]
      · unfold owns; iexists _; isplitr
        swap; · iexact HI
        ipureintro; exact View.read_writes_of_cover _ _ _ _ _ (CInputI hF hI hH hL _ _ _ _ _ _)
      isplitl [HC]
      · unfold owns; iexists _; isplitr
        swap; · iexact HC
        ipureintro; exact View.read_writes_of_cover _ _ _ _ _ (CInputC hF hI hH hL _ _ _ _ _ _)
      unfold owns; iexists _; isplitr
      swap; · iexact HO
      ipureintro; exact View.read_writes_of_cover _ _ _ _ _ (CInputO hF hI hH hL _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iexists _; iexact H16

end Cert.KernelIdeal.Body

end
-- ==== Proof.KernelIdeal.SoundHidden.lean ====
/-
  The body's obligation at a point with 4 ≤ k ≤ 10. The run is handed the previous output's block, the four
  hidden-weight blocks and the accumulators at what the point before left in them, and returns each accumulator
  updated; every other window's buffer goes from the precondition to the postcondition untouched.
-/
import proofs.«172886_j24756191494330_1_alg».proof.Proof.KernelIdeal.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (c : Dev nD) (t : Fin cfg0.N)

local notation "PHidden" => runHidden c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CHiddenF" => coverHiddenF c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CHiddenI" => coverHiddenI c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CHiddenC" => coverHiddenC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CHiddenO" => coverHiddenO c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)

set_option maxHeartbeats 4000000 in
/-- A point with 4 ≤ k < 11. -/
theorem sound_hidden (h1 : ¬t.val % 12 < 4) (h3 : ¬t.val % 12 = 11) :
    bodyPre m c t ⊢ wp frame (wpE (defs₀ (F := F)) Variants.none c none) Set.univ (bodyAt0 t) (fun _ => bodyPost m c t) := by
  have hF : ¬atFirst (grid0.coords t) := fun h => absurd ((atFirst_iff t).mp h) (by omega)
  have hI : ¬onInput (grid0.coords t) := fun h => h1 ((onInput_iff t).mp h)
  have hH : onHidden (grid0.coords t) := (onHidden_iff t).mpr (by omega)
  have hL : ¬atLast (grid0.coords t) := fun h => h3 ((atLast_iff t).mp h)
  have hz : t.val ≠ 0 := fun h => h1 (by rw [h]; decide)
  unfold bodyPre bodyPost bodyAt0
  simp only [before0, before1, before2, before3, before4, before5, before6, before7, before8, before9, before10, before11,
    before12, before13, before14, leaves0, leaves1, leaves2, leaves3, leaves4, leaves5, leaves6, leaves7, leaves8, leaves9,
    leaves10, leaves11, leaves12, leaves13, leaves14]
  rw [leaves15_idle m c t h3, leaves16_idle m c t h3]
  rw [show (dats m 0 c).owesAt () t.succ = (dats m 0 c).owesAt () t.castSucc from rfl]
  rw [show (dats m 0 c).Φ t.succ = carried m c (t.val + 1) t.isLt from rfl, carried_succ]
  rw [leftAt_hidden m c t h1 h3]
  unfold hiddenAt accsHidden; dsimp only
  rw [inv_castSucc m c t, carried_pos m c _ _ hz]
  iintro ⟨⟨⟨HF, HI, HC, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩,
      ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((PHidden hF hI hH hL (iblk m c 1 t) (iblk m c 4 t) (iblk m c 7 t) (iblk m c 10 t) (iblk m c 13 t)
    (carriedIn m c t).f (carriedIn m c t).i (carriedIn m c t).g (carriedIn m c t).o).2.2.2.2 Set.univ _)
  isplitl [H1]; · iexact H1
  isplitl [H4]; · iexact H4
  isplitl [H7]; · iexact H7
  isplitl [H10]; · iexact H10
  isplitl [H13]; · iexact H13
  isplitl [HF]; · iexact HF
  isplitl [HI]; · iexact HI
  isplitl [HC]; · iexact HC
  isplitl [HO]; · iexact HO
  iintro ⟨H1, H4, H7, H10, H13, ⟨%eF, HF⟩, ⟨%eI, HI⟩, ⟨%eC, HC⟩, ⟨%eO, HO⟩⟩
  isplitl [HF HI HC HO Hg]
  · isplitl [HF HI HC HO]
    · isplitl [HF]
      · unfold owns; iexists _; isplitr
        swap; · iexact HF
        ipureintro; exact View.read_writes_of_cover _ _ _ _ _ (CHiddenF hF hI hH hL _ _ _ _ _ _)
      isplitl [HI]
      · unfold owns; iexists _; isplitr
        swap; · iexact HI
        ipureintro; exact View.read_writes_of_cover _ _ _ _ _ (CHiddenI hF hI hH hL _ _ _ _ _ _)
      isplitl [HC]
      · unfold owns; iexists _; isplitr
        swap; · iexact HC
        ipureintro; exact View.read_writes_of_cover _ _ _ _ _ (CHiddenC hF hI hH hL _ _ _ _ _ _)
      unfold owns; iexists _; isplitr
      swap; · iexact HO
      ipureintro; exact View.read_writes_of_cover _ _ _ _ _ (CHiddenO hF hI hH hL _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iexists _; iexact H16

end Cert.KernelIdeal.Body

end
-- ==== Proof.KernelIdeal.SoundLast.lean ====
/-
  The body's obligation at a point with k = 11. The run is handed the previous output's block, the four hidden-weight
  blocks, the four bias columns, the old state's block, the two output buffers (at whatever they held) and the
  accumulators at what the point before left in them; it returns the accumulators updated and the two output buffers
  covered by the blocks it stored. The input-weight blocks and x's block go from the precondition to the postcondition
  untouched.
-/
import proofs.«172886_j24756191494330_1_alg».proof.Proof.KernelIdeal.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (c : Dev nD) (t : Fin cfg0.N)

local notation "PLast" => runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CLastN" => coverLastN c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CLastH" => coverLastH c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CLastF" => coverLastF c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CLastI" => coverLastI c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CLastC" => coverLastC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)
local notation "CLastO" => coverLastO c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) accF (Memref.isWhole_whole _) accI (Memref.isWhole_whole _) accC (Memref.isWhole_whole _) accO (Memref.isWhole_whole _)

set_option maxHeartbeats 4000000 in
/-- A point with k = 11. -/
theorem sound_last (h3 : t.val % 12 = 11) :
    bodyPre m c t ⊢ wp frame (wpE (defs₀ (F := F)) Variants.none c none) Set.univ (bodyAt0 t) (fun _ => bodyPost m c t) := by
  have hF : ¬atFirst (grid0.coords t) := fun h => absurd ((atFirst_iff t).mp h) (by omega)
  have hI : ¬onInput (grid0.coords t) := fun h => absurd ((onInput_iff t).mp h) (by omega)
  have hH : onHidden (grid0.coords t) := (onHidden_iff t).mpr (by omega)
  have hL : atLast (grid0.coords t) := (atLast_iff t).mpr h3
  have hz : t.val ≠ 0 := fun h => absurd h3 (by rw [h]; decide)
  unfold bodyPre bodyPost bodyAt0
  simp only [before0, before1, before2, before3, before4, before5, before6, before7, before8, before9, before10, before11,
    before12, before13, before14, leaves0, leaves1, leaves2, leaves3, leaves4, leaves5, leaves6, leaves7, leaves8, leaves9,
    leaves10, leaves11, leaves12, leaves13, leaves14]
  rw [leaves15_last m c t h3, leaves16_last m c t h3]
  rw [show (dats m 0 c).owesAt () t.succ = (dats m 0 c).owesAt () t.castSucc from rfl]
  rw [show (dats m 0 c).Φ t.succ = carried m c (t.val + 1) t.isLt from rfl, carried_succ]
  rw [leftAt_last m c t h3]
  unfold lastAt leftLast; dsimp only
  rw [inv_castSucc m c t, carried_pos m c _ _ hz]
  iintro ⟨⟨⟨HF, HI, HC, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩,
      ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((PLast hF hI hH hL (iblk m c 1 t) (iblk m c 4 t) (iblk m c 7 t) (iblk m c 10 t) (iblk m c 13 t) (iblk m c 2 t)
    (carriedIn m c t).f (carriedIn m c t).i (carriedIn m c t).g (carriedIn m c t).o
    (iblk m c 5 t) (iblk m c 8 t) (iblk m c 11 t) (iblk m c 14 t)).2.2.2.2.2.2 Set.univ _)
  isplitl [H1]; · iexact H1
  isplitl [H4]; · iexact H4
  isplitl [H7]; · iexact H7
  isplitl [H10]; · iexact H10
  isplitl [H13]; · iexact H13
  isplitl [H5]; · iexact H5
  isplitl [H8]; · iexact H8
  isplitl [H11]; · iexact H11
  isplitl [H14]; · iexact H14
  isplitl [H2]; · iexact H2
  isplitl [H15]; · iexists _; iexact H15
  isplitl [H16]; · iexists _; iexact H16
  isplitl [HF]; · iexact HF
  isplitl [HI]; · iexact HI
  isplitl [HC]; · iexact HC
  isplitl [HO]; · iexact HO
  iintro ⟨H1, H4, H7, H10, H13, H5, H8, H11, H14, H2, ⟨%eN, H15⟩, ⟨%eH, H16⟩, ⟨%eF, HF⟩, ⟨%eI, HI⟩, ⟨%eC, HC⟩, ⟨%eO, HO⟩⟩
  isplitl [HF HI HC HO Hg]
  · isplitl [HF HI HC HO]
    · isplitl [HF]
      · unfold owns; iexists _; isplitr
        swap; · iexact HF
        ipureintro; exact View.read_writes_of_cover _ _ _ _ _ (CLastF hF hI hH hL _ _ _ _ _ _ _ _ _ _ _)
      isplitl [HI]
      · unfold owns; iexists _; isplitr
        swap; · iexact HI
        ipureintro; exact View.read_writes_of_cover _ _ _ _ _ (CLastI hF hI hH hL _ _ _ _ _ _ _ _ _ _ _)
      isplitl [HC]
      · unfold owns; iexists _; isplitr
        swap; · iexact HC
        ipureintro; exact View.read_writes_of_cover _ _ _ _ _ (CLastC hF hI hH hL _ _ _ _ _ _ _ _ _ _ _)
      unfold owns; iexists _; isplitr
      swap; · iexact HO
      ipureintro; exact View.read_writes_of_cover _ _ _ _ _ (CLastO hF hI hH hL _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact View.read_writes_of_cover _ _ _ _ _ (CLastN hF hI hH hL _ _ _ _ _ _ _ _ _ _ _)
  unfold owns; iexists _; isplitr
  swap; · iexact H16
  ipureintro; exact View.read_writes_of_cover _ _ _ _ _ (CLastH hF hI hH hL _ _ _ _ _ _ _ _ _ _ _)

end Cert.KernelIdeal.Body

end
-- ==== Proof.KernelIdeal.Region.lean ====
/-
  The body's obligation at every point, and the run of the region.

  The step k = (point's number) mod 12 decides which of the four cases applies. Before the first point the invariant
  is what the region hands over (the accumulators at anything); after the last point the accumulators' contents are
  forgotten again. With that the frame run applies: every weakly fair execution terminates, and every array of the
  pipeline ends at what the library computes from the proof data.
-/
import proofs.«172886_j24756191494330_1_alg».proof.Proof.KernelIdeal.SoundFirst
import proofs.«172886_j24756191494330_1_alg».proof.Proof.KernelIdeal.SoundInput
import proofs.«172886_j24756191494330_1_alg».proof.Proof.KernelIdeal.SoundHidden
import proofs.«172886_j24756191494330_1_alg».proof.Proof.KernelIdeal.SoundLast

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: by the step k. -/
theorem sound_body (c : Dev nD) (t : Fin cfg0.N) :
    bodyPre m c t ⊢ wp frame (wpE (defs₀ (F := F)) Variants.none c none) Set.univ (bodyAt0 t) (fun _ => bodyPost m c t) := by
  by_cases h0 : t.val % 12 = 0
  · exact sound_first m c t h0
  · by_cases h1 : t.val % 12 < 4
    · exact sound_input m c t h0 h1
    · by_cases h3 : t.val % 12 = 11
      · exact sound_last m c t h3
      · exact sound_hidden m c t h1 h3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After any point the invariant gives back what the region was handed: the accumulators' contents are forgotten. -/
theorem inv_forget (c : Dev nD) (t : Fin (cfg0.N + 1)) (ht : t.val ≠ 0) : (dats m 0 c).Φ t ⊢ Pipeline.ΦA spec0 c := by
  rw [show (dats m 0 c).Φ t = carried m c t.val (Nat.le_of_lt_succ t.isLt) from rfl, carried_pos m c _ _ ht, regionInv_eq]
  iintro ⟨⟨HF, HI, HC, HO⟩, Hg⟩
  isplitl [HF HI HC HO]
  · isplitl [HF]; · iexists _; iexact HF
    isplitl [HI]; · iexists _; iexact HI
    isplitl [HC]; · iexists _; iexact HC
    iexists _; iexact HO
  iexact Hg

theorem inv_out (c : Dev nD) : (dats m 0 c).Φ (Fin.last cfg0.N) ⊢ Pipeline.ΦA spec0 c :=
  inv_forget m c _ (by rw [Fin.val_last]; have : cfg0.N = 768 := N_0; omega)

-- the launch theorem's implicit arguments are found by unifying its conclusion with this one, which takes unfolding
-- plain definitions in a metavariable's type
set_option backward.isDefEq.respectTransparency.types false in
/-- From any memory with zero counters every weakly fair execution of @main terminates, and every final state has every
    array of the pipeline at what the library computes from the proof data (an input at its contents at the region's
    entry, an output at those overwritten by what the body left at each write-back). -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

end Cert.KernelIdeal.Body

end
-- ==== Proof.KernelIdeal.BlockReads.lean ====
/-
  Each window's block at a point is a rectangle of its array.

  The grid's points are numbered row-major over (I, J, k) with k fastest, so point n has I = n / 96, J = (n / 12) mod 8
  and k = n mod 12. The index maps send the point to block (k, J) of x while k < 4, to block (k - 4, J) of the previous
  output while k ≥ 4, to blocks (I, k) and (I, k - 4) of the input and hidden weights, to block (I, 0) of a bias column
  and to block (I, J) of the state and of both results. A block's entry (a, b) is the array's entry
  (512 · block row + a, 512 · block column + b).
-/
import proofs.«172886_j24756191494330_1_alg».proof.Proof.KernelIdeal.Data
import Idealize.ShloMosaic.Lib.ValueIdx
import Idealize.ShloMosaic.Lib.Pipeline.Value

set_option maxRecDepth 16384

noncomputable section

open scoped BigOperators

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ)

theorem lt768 (t : Fin cfg0.N) : t.val < 768 := lt_of_lt_of_eq t.isLt N_0

/-- The array row of entry `p` of a block of the point numbered `n`, and the array column of entry `q`. -/
def absRow (n : ℕ) (hn : n < 768) (p : Fin 512) : Fin 4096 := ⟨512 * (n / 96) + p.val, by have := p.isLt; omega⟩
def absCol (n : ℕ) (hn : n < 768) (q : Fin 512) : Fin 4096 := ⟨512 * (n / 12 % 8) + q.val, by have := q.isLt; omega⟩

/-! ## The index maps in closed form

Each window's block index at point `t`, axis by axis, as a function of `t`'s number, at every one of the 768 points: the
clamped coordinate is k while k < 4 (else 3) for x and the input weights, k - 4 while k ≥ 4 (else 0) for the previous
output and the hidden weights. -/

theorem idx0 : ∀ t : Fin cfg0.N, win0_0.index t (0 : Fin 2) = (if t.val % 12 < 4 then t.val % 12 else 3) ∧ win0_0.index t (1 : Fin 2) = t.val / 12 % 8 :=
  (by decide +kernel : ∀ t : Fin grid0.N, _)
theorem idx1 : ∀ t : Fin cfg0.N, win0_1.index t (0 : Fin 2) = (if 4 ≤ t.val % 12 then t.val % 12 - 4 else 0) ∧ win0_1.index t (1 : Fin 2) = t.val / 12 % 8 :=
  (by decide +kernel : ∀ t : Fin grid0.N, _)
theorem idx2 : ∀ t : Fin cfg0.N, win0_2.index t (0 : Fin 2) = t.val / 96 ∧ win0_2.index t (1 : Fin 2) = t.val / 12 % 8 :=
  (by decide +kernel : ∀ t : Fin grid0.N, _)
theorem idx3 : ∀ t : Fin cfg0.N, win0_3.index t (0 : Fin 2) = t.val / 96 ∧ win0_3.index t (1 : Fin 2) = (if t.val % 12 < 4 then t.val % 12 else 3) :=
  (by decide +kernel : ∀ t : Fin grid0.N, _)
theorem idx6 : ∀ t : Fin cfg0.N, win0_6.index t (0 : Fin 2) = t.val / 96 ∧ win0_6.index t (1 : Fin 2) = (if t.val % 12 < 4 then t.val % 12 else 3) :=
  (by decide +kernel : ∀ t : Fin grid0.N, _)
theorem idx9 : ∀ t : Fin cfg0.N, win0_9.index t (0 : Fin 2) = t.val / 96 ∧ win0_9.index t (1 : Fin 2) = (if t.val % 12 < 4 then t.val % 12 else 3) :=
  (by decide +kernel : ∀ t : Fin grid0.N, _)
theorem idx12 : ∀ t : Fin cfg0.N, win0_12.index t (0 : Fin 2) = t.val / 96 ∧ win0_12.index t (1 : Fin 2) = (if t.val % 12 < 4 then t.val % 12 else 3) :=
  (by decide +kernel : ∀ t : Fin grid0.N, _)
theorem idx4 : ∀ t : Fin cfg0.N, win0_4.index t (0 : Fin 2) = t.val / 96 ∧ win0_4.index t (1 : Fin 2) = (if 4 ≤ t.val % 12 then t.val % 12 - 4 else 0) :=
  (by decide +kernel : ∀ t : Fin grid0.N, _)
theorem idx7 : ∀ t : Fin cfg0.N, win0_7.index t (0 : Fin 2) = t.val / 96 ∧ win0_7.index t (1 : Fin 2) = (if 4 ≤ t.val % 12 then t.val % 12 - 4 else 0) :=
  (by decide +kernel : ∀ t : Fin grid0.N, _)
theorem idx10 : ∀ t : Fin cfg0.N, win0_10.index t (0 : Fin 2) = t.val / 96 ∧ win0_10.index t (1 : Fin 2) = (if 4 ≤ t.val % 12 then t.val % 12 - 4 else 0) :=
  (by decide +kernel : ∀ t : Fin grid0.N, _)
theorem idx13 : ∀ t : Fin cfg0.N, win0_13.index t (0 : Fin 2) = t.val / 96 ∧ win0_13.index t (1 : Fin 2) = (if 4 ≤ t.val % 12 then t.val % 12 - 4 else 0) :=
  (by decide +kernel : ∀ t : Fin grid0.N, _)
theorem idx5 : ∀ t : Fin cfg0.N, win0_5.index t (0 : Fin 2) = t.val / 96 ∧ win0_5.index t (1 : Fin 2) = 0 :=
  (by decide +kernel : ∀ t : Fin grid0.N, _)
theorem idx8 : ∀ t : Fin cfg0.N, win0_8.index t (0 : Fin 2) = t.val / 96 ∧ win0_8.index t (1 : Fin 2) = 0 :=
  (by decide +kernel : ∀ t : Fin grid0.N, _)
theorem idx11 : ∀ t : Fin cfg0.N, win0_11.index t (0 : Fin 2) = t.val / 96 ∧ win0_11.index t (1 : Fin 2) = 0 :=
  (by decide +kernel : ∀ t : Fin grid0.N, _)
theorem idx14 : ∀ t : Fin cfg0.N, win0_14.index t (0 : Fin 2) = t.val / 96 ∧ win0_14.index t (1 : Fin 2) = 0 :=
  (by decide +kernel : ∀ t : Fin grid0.N, _)

/-! ## The blocks

A block's entry is the array's entry at (block index × block size + the entry's coordinate) on each axis; the block
index is the closed form above, with the clamp resolved by the hypothesis on k where there is one. -/

/-- x's block while k < 4. -/
theorem blockX (c : Dev nD) (t : Fin cfg0.N) (hk : t.val % 12 < 4) (r q : Fin 512) :
    (iblk m c 0 t : Vec F S512x512 .f32) (ix2 r q)
      = (V m c main_arg0 : Vec F S2048x4096 .f32) (ix2 (⟨512 * (t.val % 12) + r.val, by have := r.isLt; omega⟩ : Fin 2048) (absCol t.val (lt768 t) q)) := by
  obtain ⟨e0, e1⟩ := idx0 t
  rw [if_pos hk] at e0
  show V m c main_arg0 (((cfg0.win 0).blk t).view.emb (ix2 r q)) = V m c main_arg0 (ix2 (⟨512 * (t.val % 12) + r.val, by have := r.isLt; omega⟩ : Fin 2048) (absCol t.val (lt768 t) q))
  refine congrArg _ ?_
  funext a; apply Fin.ext
  match a with
  | ⟨0, _⟩ => show win0_0.index t (0 : Fin 2) * 512 + 1 * r.val = 512 * (t.val % 12) + r.val; omega
  | ⟨1, _⟩ => show win0_0.index t (1 : Fin 2) * 512 + 1 * q.val = 512 * (t.val / 12 % 8) + q.val; omega

/-- The previous output's block while k ≥ 4. -/
theorem blockH (c : Dev nD) (t : Fin cfg0.N) (hk : 4 ≤ t.val % 12) (r q : Fin 512) :
    (iblk m c 1 t : Vec F S512x512 .f32) (ix2 r q)
      = (V m c main_arg1 : Vec F S4096x4096 .f32) (ix2 (⟨512 * (t.val % 12 - 4) + r.val, by have := r.isLt; have := Nat.mod_lt t.val (by decide : 12 > 0); omega⟩ : Fin 4096) (absCol t.val (lt768 t) q)) := by
  obtain ⟨e0, e1⟩ := idx1 t
  rw [if_pos hk] at e0
  show V m c main_arg1 (((cfg0.win 1).blk t).view.emb (ix2 r q)) = V m c main_arg1 (ix2 (⟨512 * (t.val % 12 - 4) + r.val, by have := r.isLt; have := Nat.mod_lt t.val (by decide : 12 > 0); omega⟩ : Fin 4096) (absCol t.val (lt768 t) q))
  refine congrArg _ ?_
  funext a; apply Fin.ext
  match a with
  | ⟨0, _⟩ => show win0_1.index t (0 : Fin 2) * 512 + 1 * r.val = 512 * (t.val % 12 - 4) + r.val; omega
  | ⟨1, _⟩ => show win0_1.index t (1 : Fin 2) * 512 + 1 * q.val = 512 * (t.val / 12 % 8) + q.val; omega

/-- The old state's block. -/
theorem blockS (c : Dev nD) (t : Fin cfg0.N) (p q : Fin 512) :
    (iblk m c 2 t : Vec F S512x512 .f32) (ix2 p q)
      = (V m c main_arg2 : Vec F S4096x4096 .f32) (ix2 (absRow t.val (lt768 t) p) (absCol t.val (lt768 t) q)) := by
  obtain ⟨e0, e1⟩ := idx2 t
  show V m c main_arg2 (((cfg0.win 2).blk t).view.emb (ix2 p q)) = V m c main_arg2 (ix2 (absRow t.val (lt768 t) p) (absCol t.val (lt768 t) q))
  refine congrArg _ ?_
  funext a; apply Fin.ext
  match a with
  | ⟨0, _⟩ => show win0_2.index t (0 : Fin 2) * 512 + 1 * p.val = 512 * (t.val / 96) + p.val; omega
  | ⟨1, _⟩ => show win0_2.index t (1 : Fin 2) * 512 + 1 * q.val = 512 * (t.val / 12 % 8) + q.val; omega

/-- The four input-weight blocks while k < 4. -/
theorem blockWf (c : Dev nD) (t : Fin cfg0.N) (hk : t.val % 12 < 4) (p r : Fin 512) :
    (iblk m c 3 t : Vec F S512x512 .f32) (ix2 p r)
      = (V m c main_arg3 : Vec F S4096x2048 .f32) (ix2 (absRow t.val (lt768 t) p) (⟨512 * (t.val % 12) + r.val, by have := r.isLt; omega⟩ : Fin 2048)) := by
  obtain ⟨e0, e1⟩ := idx3 t
  rw [if_pos hk] at e1
  show V m c main_arg3 (((cfg0.win 3).blk t).view.emb (ix2 p r)) = V m c main_arg3 (ix2 (absRow t.val (lt768 t) p) (⟨512 * (t.val % 12) + r.val, by have := r.isLt; omega⟩ : Fin 2048))
  refine congrArg _ ?_
  funext a; apply Fin.ext
  match a with
  | ⟨0, _⟩ => show win0_3.index t (0 : Fin 2) * 512 + 1 * p.val = 512 * (t.val / 96) + p.val; omega
  | ⟨1, _⟩ => show win0_3.index t (1 : Fin 2) * 512 + 1 * r.val = 512 * (t.val % 12) + r.val; omega
theorem blockWi (c : Dev nD) (t : Fin cfg0.N) (hk : t.val % 12 < 4) (p r : Fin 512) :
    (iblk m c 6 t : Vec F S512x512 .f32) (ix2 p r)
      = (V m c main_arg6 : Vec F S4096x2048 .f32) (ix2 (absRow t.val (lt768 t) p) (⟨512 * (t.val % 12) + r.val, by have := r.isLt; omega⟩ : Fin 2048)) := by
  obtain ⟨e0, e1⟩ := idx6 t
  rw [if_pos hk] at e1
  show V m c main_arg6 (((cfg0.win 6).blk t).view.emb (ix2 p r)) = V m c main_arg6 (ix2 (absRow t.val (lt768 t) p) (⟨512 * (t.val % 12) + r.val, by have := r.isLt; omega⟩ : Fin 2048))
  refine congrArg _ ?_
  funext a; apply Fin.ext
  match a with
  | ⟨0, _⟩ => show win0_6.index t (0 : Fin 2) * 512 + 1 * p.val = 512 * (t.val / 96) + p.val; omega
  | ⟨1, _⟩ => show win0_6.index t (1 : Fin 2) * 512 + 1 * r.val = 512 * (t.val % 12) + r.val; omega
theorem blockWc (c : Dev nD) (t : Fin cfg0.N) (hk : t.val % 12 < 4) (p r : Fin 512) :
    (iblk m c 9 t : Vec F S512x512 .f32) (ix2 p r)
      = (V m c main_arg9 : Vec F S4096x2048 .f32) (ix2 (absRow t.val (lt768 t) p) (⟨512 * (t.val % 12) + r.val, by have := r.isLt; omega⟩ : Fin 2048)) := by
  obtain ⟨e0, e1⟩ := idx9 t
  rw [if_pos hk] at e1
  show V m c main_arg9 (((cfg0.win 9).blk t).view.emb (ix2 p r)) = V m c main_arg9 (ix2 (absRow t.val (lt768 t) p) (⟨512 * (t.val % 12) + r.val, by have := r.isLt; omega⟩ : Fin 2048))
  refine congrArg _ ?_
  funext a; apply Fin.ext
  match a with
  | ⟨0, _⟩ => show win0_9.index t (0 : Fin 2) * 512 + 1 * p.val = 512 * (t.val / 96) + p.val; omega
  | ⟨1, _⟩ => show win0_9.index t (1 : Fin 2) * 512 + 1 * r.val = 512 * (t.val % 12) + r.val; omega
theorem blockWo (c : Dev nD) (t : Fin cfg0.N) (hk : t.val % 12 < 4) (p r : Fin 512) :
    (iblk m c 12 t : Vec F S512x512 .f32) (ix2 p r)
      = (V m c main_arg12 : Vec F S4096x2048 .f32) (ix2 (absRow t.val (lt768 t) p) (⟨512 * (t.val % 12) + r.val, by have := r.isLt; omega⟩ : Fin 2048)) := by
  obtain ⟨e0, e1⟩ := idx12 t
  rw [if_pos hk] at e1
  show V m c main_arg12 (((cfg0.win 12).blk t).view.emb (ix2 p r)) = V m c main_arg12 (ix2 (absRow t.val (lt768 t) p) (⟨512 * (t.val % 12) + r.val, by have := r.isLt; omega⟩ : Fin 2048))
  refine congrArg _ ?_
  funext a; apply Fin.ext
  match a with
  | ⟨0, _⟩ => show win0_12.index t (0 : Fin 2) * 512 + 1 * p.val = 512 * (t.val / 96) + p.val; omega
  | ⟨1, _⟩ => show win0_12.index t (1 : Fin 2) * 512 + 1 * r.val = 512 * (t.val % 12) + r.val; omega

/-- The four hidden-weight blocks while k ≥ 4. -/
theorem blockUf (c : Dev nD) (t : Fin cfg0.N) (hk : 4 ≤ t.val % 12) (p r : Fin 512) :
    (iblk m c 4 t : Vec F S512x512 .f32) (ix2 p r)
      = (V m c main_arg4 : Vec F S4096x4096 .f32) (ix2 (absRow t.val (lt768 t) p) (⟨512 * (t.val % 12 - 4) + r.val, by have := r.isLt; have := Nat.mod_lt t.val (by decide : 12 > 0); omega⟩ : Fin 4096)) := by
  obtain ⟨e0, e1⟩ := idx4 t
  rw [if_pos hk] at e1
  show V m c main_arg4 (((cfg0.win 4).blk t).view.emb (ix2 p r)) = V m c main_arg4 (ix2 (absRow t.val (lt768 t) p) (⟨512 * (t.val % 12 - 4) + r.val, by have := r.isLt; have := Nat.mod_lt t.val (by decide : 12 > 0); omega⟩ : Fin 4096))
  refine congrArg _ ?_
  funext a; apply Fin.ext
  match a with
  | ⟨0, _⟩ => show win0_4.index t (0 : Fin 2) * 512 + 1 * p.val = 512 * (t.val / 96) + p.val; omega
  | ⟨1, _⟩ => show win0_4.index t (1 : Fin 2) * 512 + 1 * r.val = 512 * (t.val % 12 - 4) + r.val; omega
theorem blockUi (c : Dev nD) (t : Fin cfg0.N) (hk : 4 ≤ t.val % 12) (p r : Fin 512) :
    (iblk m c 7 t : Vec F S512x512 .f32) (ix2 p r)
      = (V m c main_arg7 : Vec F S4096x4096 .f32) (ix2 (absRow t.val (lt768 t) p) (⟨512 * (t.val % 12 - 4) + r.val, by have := r.isLt; have := Nat.mod_lt t.val (by decide : 12 > 0); omega⟩ : Fin 4096)) := by
  obtain ⟨e0, e1⟩ := idx7 t
  rw [if_pos hk] at e1
  show V m c main_arg7 (((cfg0.win 7).blk t).view.emb (ix2 p r)) = V m c main_arg7 (ix2 (absRow t.val (lt768 t) p) (⟨512 * (t.val % 12 - 4) + r.val, by have := r.isLt; have := Nat.mod_lt t.val (by decide : 12 > 0); omega⟩ : Fin 4096))
  refine congrArg _ ?_
  funext a; apply Fin.ext
  match a with
  | ⟨0, _⟩ => show win0_7.index t (0 : Fin 2) * 512 + 1 * p.val = 512 * (t.val / 96) + p.val; omega
  | ⟨1, _⟩ => show win0_7.index t (1 : Fin 2) * 512 + 1 * r.val = 512 * (t.val % 12 - 4) + r.val; omega
theorem blockUc (c : Dev nD) (t : Fin cfg0.N) (hk : 4 ≤ t.val % 12) (p r : Fin 512) :
    (iblk m c 10 t : Vec F S512x512 .f32) (ix2 p r)
      = (V m c main_arg10 : Vec F S4096x4096 .f32) (ix2 (absRow t.val (lt768 t) p) (⟨512 * (t.val % 12 - 4) + r.val, by have := r.isLt; have := Nat.mod_lt t.val (by decide : 12 > 0); omega⟩ : Fin 4096)) := by
  obtain ⟨e0, e1⟩ := idx10 t
  rw [if_pos hk] at e1
  show V m c main_arg10 (((cfg0.win 10).blk t).view.emb (ix2 p r)) = V m c main_arg10 (ix2 (absRow t.val (lt768 t) p) (⟨512 * (t.val % 12 - 4) + r.val, by have := r.isLt; have := Nat.mod_lt t.val (by decide : 12 > 0); omega⟩ : Fin 4096))
  refine congrArg _ ?_
  funext a; apply Fin.ext
  match a with
  | ⟨0, _⟩ => show win0_10.index t (0 : Fin 2) * 512 + 1 * p.val = 512 * (t.val / 96) + p.val; omega
  | ⟨1, _⟩ => show win0_10.index t (1 : Fin 2) * 512 + 1 * r.val = 512 * (t.val % 12 - 4) + r.val; omega
theorem blockUo (c : Dev nD) (t : Fin cfg0.N) (hk : 4 ≤ t.val % 12) (p r : Fin 512) :
    (iblk m c 13 t : Vec F S512x512 .f32) (ix2 p r)
      = (V m c main_arg13 : Vec F S4096x4096 .f32) (ix2 (absRow t.val (lt768 t) p) (⟨512 * (t.val % 12 - 4) + r.val, by have := r.isLt; have := Nat.mod_lt t.val (by decide : 12 > 0); omega⟩ : Fin 4096)) := by
  obtain ⟨e0, e1⟩ := idx13 t
  rw [if_pos hk] at e1
  show V m c main_arg13 (((cfg0.win 13).blk t).view.emb (ix2 p r)) = V m c main_arg13 (ix2 (absRow t.val (lt768 t) p) (⟨512 * (t.val % 12 - 4) + r.val, by have := r.isLt; have := Nat.mod_lt t.val (by decide : 12 > 0); omega⟩ : Fin 4096))
  refine congrArg _ ?_
  funext a; apply Fin.ext
  match a with
  | ⟨0, _⟩ => show win0_13.index t (0 : Fin 2) * 512 + 1 * p.val = 512 * (t.val / 96) + p.val; omega
  | ⟨1, _⟩ => show win0_13.index t (1 : Fin 2) * 512 + 1 * r.val = 512 * (t.val % 12 - 4) + r.val; omega

/-- The four bias columns' blocks. -/
theorem blockBf (c : Dev nD) (t : Fin cfg0.N) (p : Fin 512) :
    (iblk m c 5 t : Vec F S512x1 .f32) (ix2 p (0 : Fin 1)) = (V m c main_arg5 : Vec F S4096x1 .f32) (ix2 (absRow t.val (lt768 t) p) (0 : Fin 1)) := by
  obtain ⟨e0, e1⟩ := idx5 t
  show V m c main_arg5 (((cfg0.win 5).blk t).view.emb (ix2 p (0 : Fin 1))) = V m c main_arg5 (ix2 (absRow t.val (lt768 t) p) (0 : Fin 1))
  refine congrArg _ ?_
  funext a; apply Fin.ext
  match a with
  | ⟨0, _⟩ => show win0_5.index t (0 : Fin 2) * 512 + 1 * p.val = 512 * (t.val / 96) + p.val; omega
  | ⟨1, _⟩ => show win0_5.index t (1 : Fin 2) * 1 + 1 * (0 : Fin 1).val = (0 : Fin 1).val; omega
theorem blockBi (c : Dev nD) (t : Fin cfg0.N) (p : Fin 512) :
    (iblk m c 8 t : Vec F S512x1 .f32) (ix2 p (0 : Fin 1)) = (V m c main_arg8 : Vec F S4096x1 .f32) (ix2 (absRow t.val (lt768 t) p) (0 : Fin 1)) := by
  obtain ⟨e0, e1⟩ := idx8 t
  show V m c main_arg8 (((cfg0.win 8).blk t).view.emb (ix2 p (0 : Fin 1))) = V m c main_arg8 (ix2 (absRow t.val (lt768 t) p) (0 : Fin 1))
  refine congrArg _ ?_
  funext a; apply Fin.ext
  match a with
  | ⟨0, _⟩ => show win0_8.index t (0 : Fin 2) * 512 + 1 * p.val = 512 * (t.val / 96) + p.val; omega
  | ⟨1, _⟩ => show win0_8.index t (1 : Fin 2) * 1 + 1 * (0 : Fin 1).val = (0 : Fin 1).val; omega
theorem blockBc (c : Dev nD) (t : Fin cfg0.N) (p : Fin 512) :
    (iblk m c 11 t : Vec F S512x1 .f32) (ix2 p (0 : Fin 1)) = (V m c main_arg11 : Vec F S4096x1 .f32) (ix2 (absRow t.val (lt768 t) p) (0 : Fin 1)) := by
  obtain ⟨e0, e1⟩ := idx11 t
  show V m c main_arg11 (((cfg0.win 11).blk t).view.emb (ix2 p (0 : Fin 1))) = V m c main_arg11 (ix2 (absRow t.val (lt768 t) p) (0 : Fin 1))
  refine congrArg _ ?_
  funext a; apply Fin.ext
  match a with
  | ⟨0, _⟩ => show win0_11.index t (0 : Fin 2) * 512 + 1 * p.val = 512 * (t.val / 96) + p.val; omega
  | ⟨1, _⟩ => show win0_11.index t (1 : Fin 2) * 1 + 1 * (0 : Fin 1).val = (0 : Fin 1).val; omega
theorem blockBo (c : Dev nD) (t : Fin cfg0.N) (p : Fin 512) :
    (iblk m c 14 t : Vec F S512x1 .f32) (ix2 p (0 : Fin 1)) = (V m c main_arg14 : Vec F S4096x1 .f32) (ix2 (absRow t.val (lt768 t) p) (0 : Fin 1)) := by
  obtain ⟨e0, e1⟩ := idx14 t
  show V m c main_arg14 (((cfg0.win 14).blk t).view.emb (ix2 p (0 : Fin 1))) = V m c main_arg14 (ix2 (absRow t.val (lt768 t) p) (0 : Fin 1))
  refine congrArg _ ?_
  funext a; apply Fin.ext
  match a with
  | ⟨0, _⟩ => show win0_14.index t (0 : Fin 2) * 512 + 1 * p.val = 512 * (t.val / 96) + p.val; omega
  | ⟨1, _⟩ => show win0_14.index t (1 : Fin 2) * 1 + 1 * (0 : Fin 1).val = (0 : Fin 1).val; omega

end Cert.KernelIdeal.Body

end
-- ==== Proof.KernelIdeal.Pieces.lean ====
/-
  What each step leaves in the accumulators and in the output buffers, as the body's arithmetic.

  A run records the stores it made as pieces; every store of this kernel writes a whole buffer, so the buffer's
  contents after the run are the value of the last store into it. For the accumulators that is the step's update of
  what was loaded: at k = 0 the update of the zero block just stored; at the later steps the update of the contents
  carried in. At k = 11 the two output buffers hold the gates' combination of the accumulators as just updated.
-/
import proofs.«172886_j24756191494330_1_alg».proof.Proof.KernelIdeal.Outs
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]

variable (c : Dev nD) (i : grid0.Coords)
  (arg3 : Memref sig .tc .vmem S512x512 .f32) (harg3 : arg3.IsWhole) (arg4 : Memref sig .tc .vmem S512x512 .f32) (harg4 : arg4.IsWhole)
  (arg5 : Memref sig .tc .vmem S512x512 .f32) (harg5 : arg5.IsWhole) (arg6 : Memref sig .tc .vmem S512x512 .f32) (harg6 : arg6.IsWhole)
  (arg7 : Memref sig .tc .vmem S512x512 .f32) (harg7 : arg7.IsWhole) (arg8 : Memref sig .tc .vmem S512x1 .f32) (harg8 : arg8.IsWhole)
  (arg9 : Memref sig .tc .vmem S512x512 .f32) (harg9 : arg9.IsWhole) (arg10 : Memref sig .tc .vmem S512x512 .f32) (harg10 : arg10.IsWhole)
  (arg11 : Memref sig .tc .vmem S512x1 .f32) (harg11 : arg11.IsWhole) (arg12 : Memref sig .tc .vmem S512x512 .f32) (harg12 : arg12.IsWhole)
  (arg13 : Memref sig .tc .vmem S512x512 .f32) (harg13 : arg13.IsWhole) (arg14 : Memref sig .tc .vmem S512x1 .f32) (harg14 : arg14.IsWhole)
  (arg15 : Memref sig .tc .vmem S512x512 .f32) (harg15 : arg15.IsWhole) (arg16 : Memref sig .tc .vmem S512x512 .f32) (harg16 : arg16.IsWhole)
  (arg17 : Memref sig .tc .vmem S512x1 .f32) (harg17 : arg17.IsWhole) (arg18 : Memref sig .tc .vmem S512x512 .f32) (harg18 : arg18.IsWhole)
  (arg19 : Memref sig .tc .vmem S512x512 .f32) (harg19 : arg19.IsWhole) (arg20 : Memref sig .tc .vmem S512x512 .f32) (harg20 : arg20.IsWhole)
  (arg21 : Memref sig .tc .vmem S512x512 .f32) (harg21 : arg21.IsWhole) (arg22 : Memref sig .tc .vmem S512x512 .f32) (harg22 : arg22.IsWhole)
  (arg23 : Memref sig .tc .vmem S512x512 .f32) (harg23 : arg23.IsWhole)

/-- The step's update of the four accumulators `a` by a slab `x` against the input-weight blocks. -/
def stepX (x wf wi wc wo : Vec F S512x512 .f32) (a : Accs F) : Accs F :=
  ⟨k0_pay10 x a.f wf, k0_pay11 x a.i wi, k0_pay12 x a.g wc,
    k0_pay5 (k0_pay9 x) a.o (k0_pay13 wo) (constant S512x512 .f32 0x00000000#32)⟩

/-- The step's update by a slab `h` of the previous output against the hidden-weight blocks. -/
def stepH (h uf ui uc uo : Vec F S512x512 .f32) (a : Accs F) : Accs F :=
  ⟨k0_pay15 h a.f uf, k0_pay16 h a.i ui, k0_pay17 h a.g uc,
    k0_pay6 (k0_pay14 h) a.o (k0_pay18 uo) (constant S512x512 .f32 0x00000000#32)⟩

/-- The accumulators just zeroed. -/
def zeroAccs : Accs F := ⟨k0_pay1, k0_pay2, k0_pay3, k0_pay4⟩

/-! ## Two records with equal entries are equal -/

theorem accs_ext {p q : Accs F} (hf : p.f = q.f) (hi : p.i = q.i) (hg : p.g = q.g) (ho : p.o = q.o) : p = q := by
  cases p; cases q; dsimp only at hf hi hg ho; subst hf hi hg ho; rfl

theorem left_ext {p q : Left F} (ha : p.acc = q.acc) (hn : p.new = q.new) (ho : p.out = q.out) : p = q := by
  cases p; cases q; dsimp only at ha hn ho; subst ha hn ho; rfl

/-- Every store and load of the body goes through the whole-buffer rectangle, whose origin is the zero offset. -/
theorem origin_zero : (![0, 0] : Fin 2 → Nat) = fun _ => 0 := funext fun a => by fin_cases a <;> rfl

/-! ## k = 0

Each accumulator receives two whole-buffer stores: the zero block, then the update. The later store decides the
contents; the accumulator it loaded is the zero block just stored, read back; the slab and the weight block are
loaded whole from buffers holding `x` and the weight. -/

theorem firstF (hc0 : atFirst i) (hc1 : onInput i) (hc2 : ¬onHidden i) (hc3 : ¬atLast i) (x wf wi wc wo : Vec F S512x512 .f32) :
    (accsFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo).f = k0_pay10 x k0_pay1 wf := by
  unfold accsFirst
  dsimp only
  rw [View.read_writes_eq_canon _ _ _ (coverFirstF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo)]
  unfold runFirst
  dsimp only
  sl_unfold_words
  rw [View.canon_cons_unit_zero (S := S512x512) origin_zero, View.readCov_unit_zero (S := S512x512) _ origin_zero]
  simp only [View.readAt_eq_ld, harg3.read_unread, harg6.read_unread, View.ld_unit_zero (S := S512x512) origin_zero]

theorem firstI (hc0 : atFirst i) (hc1 : onInput i) (hc2 : ¬onHidden i) (hc3 : ¬atLast i) (x wf wi wc wo : Vec F S512x512 .f32) :
    (accsFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo).i = k0_pay11 x k0_pay2 wi := by
  unfold accsFirst
  dsimp only
  rw [View.read_writes_eq_canon _ _ _ (coverFirstI c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo)]
  unfold runFirst
  dsimp only
  sl_unfold_words
  rw [View.canon_cons_unit_zero (S := S512x512) origin_zero, View.readCov_unit_zero (S := S512x512) _ origin_zero]
  simp only [View.readAt_eq_ld, harg3.read_unread, harg9.read_unread, View.ld_unit_zero (S := S512x512) origin_zero]

theorem firstG (hc0 : atFirst i) (hc1 : onInput i) (hc2 : ¬onHidden i) (hc3 : ¬atLast i) (x wf wi wc wo : Vec F S512x512 .f32) :
    (accsFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo).g = k0_pay12 x k0_pay3 wc := by
  unfold accsFirst
  dsimp only
  rw [View.read_writes_eq_canon _ _ _ (coverFirstC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo)]
  unfold runFirst
  dsimp only
  sl_unfold_words
  rw [View.canon_cons_unit_zero (S := S512x512) origin_zero, View.readCov_unit_zero (S := S512x512) _ origin_zero]
  simp only [View.readAt_eq_ld, harg3.read_unread, harg12.read_unread, View.ld_unit_zero (S := S512x512) origin_zero]

theorem firstO (hc0 : atFirst i) (hc1 : onInput i) (hc2 : ¬onHidden i) (hc3 : ¬atLast i) (x wf wi wc wo : Vec F S512x512 .f32) :
    (accsFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo).o = k0_pay5 (k0_pay9 x) k0_pay4 (k0_pay13 wo) (constant S512x512 .f32 0x00000000#32) := by
  unfold accsFirst
  dsimp only
  rw [View.read_writes_eq_canon _ _ _ (coverFirstO c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo)]
  unfold runFirst
  dsimp only
  sl_unfold_words
  rw [View.canon_cons_unit_zero (S := S512x512) origin_zero, View.readCov_unit_zero (S := S512x512) _ origin_zero]
  simp only [View.readAt_eq_ld, harg3.read_unread, harg15.read_unread, View.ld_unit_zero (S := S512x512) origin_zero]

/-! ## 0 < k < 4

Each accumulator receives one whole-buffer store, the update of the contents carried in, loaded whole. -/

theorem inputF (hc0 : ¬atFirst i) (hc1 : onInput i) (hc2 : ¬onHidden i) (hc3 : ¬atLast i) (x wf wi wc wo : Vec F S512x512 .f32) (a : Accs F) :
    (accsInput c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo a).f = k0_pay10 x a.f wf := by
  unfold accsInput
  dsimp only
  rw [View.read_writes_eq_canon _ _ _ (coverInputF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo a)]
  unfold runInput
  dsimp only
  sl_unfold_words
  rw [View.canon_unit_zero (S := S512x512) origin_zero]
  simp only [View.readAt_eq_ld, harg3.read_unread, harg6.read_unread, harg20.read_unread, View.ld_unit_zero (S := S512x512) origin_zero]

theorem inputI (hc0 : ¬atFirst i) (hc1 : onInput i) (hc2 : ¬onHidden i) (hc3 : ¬atLast i) (x wf wi wc wo : Vec F S512x512 .f32) (a : Accs F) :
    (accsInput c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo a).i = k0_pay11 x a.i wi := by
  unfold accsInput
  dsimp only
  rw [View.read_writes_eq_canon _ _ _ (coverInputI c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo a)]
  unfold runInput
  dsimp only
  sl_unfold_words
  rw [View.canon_unit_zero (S := S512x512) origin_zero]
  simp only [View.readAt_eq_ld, harg3.read_unread, harg9.read_unread, harg21.read_unread, View.ld_unit_zero (S := S512x512) origin_zero]

theorem inputG (hc0 : ¬atFirst i) (hc1 : onInput i) (hc2 : ¬onHidden i) (hc3 : ¬atLast i) (x wf wi wc wo : Vec F S512x512 .f32) (a : Accs F) :
    (accsInput c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo a).g = k0_pay12 x a.g wc := by
  unfold accsInput
  dsimp only
  rw [View.read_writes_eq_canon _ _ _ (coverInputC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo a)]
  unfold runInput
  dsimp only
  sl_unfold_words
  rw [View.canon_unit_zero (S := S512x512) origin_zero]
  simp only [View.readAt_eq_ld, harg3.read_unread, harg12.read_unread, harg22.read_unread, View.ld_unit_zero (S := S512x512) origin_zero]

theorem inputO (hc0 : ¬atFirst i) (hc1 : onInput i) (hc2 : ¬onHidden i) (hc3 : ¬atLast i) (x wf wi wc wo : Vec F S512x512 .f32) (a : Accs F) :
    (accsInput c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo a).o = k0_pay5 (k0_pay9 x) a.o (k0_pay13 wo) (constant S512x512 .f32 0x00000000#32) := by
  unfold accsInput
  dsimp only
  rw [View.read_writes_eq_canon _ _ _ (coverInputO c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo a)]
  unfold runInput
  dsimp only
  sl_unfold_words
  rw [View.canon_unit_zero (S := S512x512) origin_zero]
  simp only [View.readAt_eq_ld, harg3.read_unread, harg15.read_unread, harg23.read_unread, View.ld_unit_zero (S := S512x512) origin_zero]

/-! ## 4 ≤ k < 11

The same against the slab of the previous output and the hidden-weight blocks. -/

theorem hiddenF (hc0 : ¬atFirst i) (hc1 : ¬onInput i) (hc2 : onHidden i) (hc3 : ¬atLast i) (h uf ui uc uo : Vec F S512x512 .f32) (a : Accs F) :
    (accsHidden c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo a).f = k0_pay15 h a.f uf := by
  unfold accsHidden
  dsimp only
  rw [View.read_writes_eq_canon _ _ _ (coverHiddenF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo a)]
  unfold runHidden
  dsimp only
  sl_unfold_words
  rw [View.canon_unit_zero (S := S512x512) origin_zero]
  simp only [View.readAt_eq_ld, harg4.read_unread, harg7.read_unread, harg20.read_unread, View.ld_unit_zero (S := S512x512) origin_zero]

theorem hiddenI (hc0 : ¬atFirst i) (hc1 : ¬onInput i) (hc2 : onHidden i) (hc3 : ¬atLast i) (h uf ui uc uo : Vec F S512x512 .f32) (a : Accs F) :
    (accsHidden c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo a).i = k0_pay16 h a.i ui := by
  unfold accsHidden
  dsimp only
  rw [View.read_writes_eq_canon _ _ _ (coverHiddenI c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo a)]
  unfold runHidden
  dsimp only
  sl_unfold_words
  rw [View.canon_unit_zero (S := S512x512) origin_zero]
  simp only [View.readAt_eq_ld, harg4.read_unread, harg10.read_unread, harg21.read_unread, View.ld_unit_zero (S := S512x512) origin_zero]

theorem hiddenG (hc0 : ¬atFirst i) (hc1 : ¬onInput i) (hc2 : onHidden i) (hc3 : ¬atLast i) (h uf ui uc uo : Vec F S512x512 .f32) (a : Accs F) :
    (accsHidden c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo a).g = k0_pay17 h a.g uc := by
  unfold accsHidden
  dsimp only
  rw [View.read_writes_eq_canon _ _ _ (coverHiddenC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo a)]
  unfold runHidden
  dsimp only
  sl_unfold_words
  rw [View.canon_unit_zero (S := S512x512) origin_zero]
  simp only [View.readAt_eq_ld, harg4.read_unread, harg13.read_unread, harg22.read_unread, View.ld_unit_zero (S := S512x512) origin_zero]

theorem hiddenO (hc0 : ¬atFirst i) (hc1 : ¬onInput i) (hc2 : onHidden i) (hc3 : ¬atLast i) (h uf ui uc uo : Vec F S512x512 .f32) (a : Accs F) :
    (accsHidden c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo a).o = k0_pay6 (k0_pay14 h) a.o (k0_pay18 uo) (constant S512x512 .f32 0x00000000#32) := by
  unfold accsHidden
  dsimp only
  rw [View.read_writes_eq_canon _ _ _ (coverHiddenO c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo a)]
  unfold runHidden
  dsimp only
  sl_unfold_words
  rw [View.canon_unit_zero (S := S512x512) origin_zero]
  simp only [View.readAt_eq_ld, harg4.read_unread, harg16.read_unread, harg23.read_unread, View.ld_unit_zero (S := S512x512) origin_zero]

/-! ## k = 11

The accumulators are updated as at the steps before. Each output buffer then receives one whole-buffer store whose
payload loads every accumulator back — the update just stored — together with the bias columns and the old state's
block, each loaded whole. -/

theorem lastF (hc0 : ¬atFirst i) (hc1 : ¬onInput i) (hc2 : onHidden i) (hc3 : atLast i) (h uf ui uc uo s : Vec F S512x512 .f32) (a : Accs F) (bf bi bc bo : Vec F S512x1 .f32) :
    (leftLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo s a bf bi bc bo).acc.f = k0_pay15 h a.f uf := by
  unfold leftLast
  dsimp only
  rw [View.read_writes_eq_canon _ _ _ (coverLastF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo s a bf bi bc bo)]
  unfold runLast
  dsimp only
  sl_unfold_words
  rw [View.canon_unit_zero (S := S512x512) origin_zero]
  simp only [View.readAt_eq_ld, harg4.read_unread, harg7.read_unread, harg20.read_unread, View.ld_unit_zero (S := S512x512) origin_zero]

theorem lastI (hc0 : ¬atFirst i) (hc1 : ¬onInput i) (hc2 : onHidden i) (hc3 : atLast i) (h uf ui uc uo s : Vec F S512x512 .f32) (a : Accs F) (bf bi bc bo : Vec F S512x1 .f32) :
    (leftLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo s a bf bi bc bo).acc.i = k0_pay16 h a.i ui := by
  unfold leftLast
  dsimp only
  rw [View.read_writes_eq_canon _ _ _ (coverLastI c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo s a bf bi bc bo)]
  unfold runLast
  dsimp only
  sl_unfold_words
  rw [View.canon_unit_zero (S := S512x512) origin_zero]
  simp only [View.readAt_eq_ld, harg4.read_unread, harg10.read_unread, harg21.read_unread, View.ld_unit_zero (S := S512x512) origin_zero]

theorem lastG (hc0 : ¬atFirst i) (hc1 : ¬onInput i) (hc2 : onHidden i) (hc3 : atLast i) (h uf ui uc uo s : Vec F S512x512 .f32) (a : Accs F) (bf bi bc bo : Vec F S512x1 .f32) :
    (leftLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo s a bf bi bc bo).acc.g = k0_pay17 h a.g uc := by
  unfold leftLast
  dsimp only
  rw [View.read_writes_eq_canon _ _ _ (coverLastC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo s a bf bi bc bo)]
  unfold runLast
  dsimp only
  sl_unfold_words
  rw [View.canon_unit_zero (S := S512x512) origin_zero]
  simp only [View.readAt_eq_ld, harg4.read_unread, harg13.read_unread, harg22.read_unread, View.ld_unit_zero (S := S512x512) origin_zero]

theorem lastO (hc0 : ¬atFirst i) (hc1 : ¬onInput i) (hc2 : onHidden i) (hc3 : atLast i) (h uf ui uc uo s : Vec F S512x512 .f32) (a : Accs F) (bf bi bc bo : Vec F S512x1 .f32) :
    (leftLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo s a bf bi bc bo).acc.o = k0_pay6 (k0_pay14 h) a.o (k0_pay18 uo) (constant S512x512 .f32 0x00000000#32) := by
  unfold leftLast
  dsimp only
  rw [View.read_writes_eq_canon _ _ _ (coverLastO c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo s a bf bi bc bo)]
  unfold runLast
  dsimp only
  sl_unfold_words
  rw [View.canon_unit_zero (S := S512x512) origin_zero]
  simp only [View.readAt_eq_ld, harg4.read_unread, harg16.read_unread, harg23.read_unread, View.ld_unit_zero (S := S512x512) origin_zero]

theorem lastNew (hc0 : ¬atFirst i) (hc1 : ¬onInput i) (hc2 : onHidden i) (hc3 : atLast i) (h uf ui uc uo s : Vec F S512x512 .f32) (a : Accs F) (bf bi bc bo : Vec F S512x1 .f32) :
    (leftLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo s a bf bi bc bo).new = k0_pay7 (k0_pay15 h a.f uf) bf (k0_pay16 h a.i ui) bi (k0_pay17 h a.g uc) bc s := by
  unfold leftLast
  dsimp only
  rw [View.read_writes_eq_canon _ _ _ (coverLastN c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo s a bf bi bc bo)]
  unfold runLast
  dsimp only
  sl_unfold_words
  rw [View.canon_unit_zero (S := S512x512) origin_zero]
  simp only [View.readCov_unit_zero (S := S512x512) _ origin_zero, View.readAt_eq_ld, harg4.read_unread, harg7.read_unread, harg10.read_unread, harg13.read_unread, harg20.read_unread, harg21.read_unread, harg22.read_unread, harg8.read_unread, harg11.read_unread, harg14.read_unread, harg5.read_unread, View.ld_unit_zero (S := S512x512) origin_zero, View.ld_unit_zero (S := S512x1) origin_zero]

theorem lastOut (hc0 : ¬atFirst i) (hc1 : ¬onInput i) (hc2 : onHidden i) (hc3 : atLast i) (h uf ui uc uo s : Vec F S512x512 .f32) (a : Accs F) (bf bi bc bo : Vec F S512x1 .f32) :
    (leftLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo s a bf bi bc bo).out = k0_pay8 (k0_pay15 h a.f uf) bf (k0_pay16 h a.i ui) bi (k0_pay17 h a.g uc) bc (k0_pay6 (k0_pay14 h) a.o (k0_pay18 uo) (constant S512x512 .f32 0x00000000#32)) bo s := by
  unfold leftLast
  dsimp only
  rw [View.read_writes_eq_canon _ _ _ (coverLastH c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo s a bf bi bc bo)]
  unfold runLast
  dsimp only
  sl_unfold_words
  rw [View.canon_unit_zero (S := S512x512) origin_zero]
  simp only [View.readCov_unit_zero (S := S512x512) _ origin_zero, View.readAt_eq_ld, harg4.read_unread, harg7.read_unread, harg10.read_unread, harg13.read_unread, harg16.read_unread, harg20.read_unread, harg21.read_unread, harg22.read_unread, harg23.read_unread, harg8.read_unread, harg11.read_unread, harg14.read_unread, harg17.read_unread, harg5.read_unread, View.ld_unit_zero (S := S512x512) origin_zero, View.ld_unit_zero (S := S512x1) origin_zero]

/-! ## The four cases, assembled -/

theorem accsFirst_eq (hc0 : atFirst i) (hc1 : onInput i) (hc2 : ¬onHidden i) (hc3 : ¬atLast i) (x wf wi wc wo : Vec F S512x512 .f32) :
    accsFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo = stepX x wf wi wc wo zeroAccs :=
  accs_ext (firstF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo) (firstI c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo)
    (firstG c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo) (firstO c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo)

theorem accsInput_eq (hc0 : ¬atFirst i) (hc1 : onInput i) (hc2 : ¬onHidden i) (hc3 : ¬atLast i) (x wf wi wc wo : Vec F S512x512 .f32) (a : Accs F) :
    accsInput c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo a = stepX x wf wi wc wo a :=
  accs_ext (inputF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo a) (inputI c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo a)
    (inputG c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo a) (inputO c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x wf wi wc wo a)

theorem accsHidden_eq (hc0 : ¬atFirst i) (hc1 : ¬onInput i) (hc2 : onHidden i) (hc3 : ¬atLast i) (h uf ui uc uo : Vec F S512x512 .f32) (a : Accs F) :
    accsHidden c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo a = stepH h uf ui uc uo a :=
  accs_ext (hiddenF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo a) (hiddenI c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo a)
    (hiddenG c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo a) (hiddenO c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo a)

theorem leftLast_eq (hc0 : ¬atFirst i) (hc1 : ¬onInput i) (hc2 : onHidden i) (hc3 : atLast i) (h uf ui uc uo s : Vec F S512x512 .f32) (a : Accs F)
    (bf bi bc bo : Vec F S512x1 .f32) :
    leftLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo s a bf bi bc bo
      = ⟨stepH h uf ui uc uo a,
          k0_pay7 (stepH h uf ui uc uo a).f bf (stepH h uf ui uc uo a).i bi (stepH h uf ui uc uo a).g bc s,
          k0_pay8 (stepH h uf ui uc uo a).f bf (stepH h uf ui uc uo a).i bi (stepH h uf ui uc uo a).g bc (stepH h uf ui uc uo a).o bo s⟩ :=
  left_ext
    (accs_ext (lastF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo s a bf bi bc bo) (lastI c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo s a bf bi bc bo)
      (lastG c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo s a bf bi bc bo) (lastO c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo s a bf bi bc bo))
    (lastNew c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo s a bf bi bc bo)
    (lastOut c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 h uf ui uc uo s a bf bi bc bo)

end Cert.KernelIdeal.Body

end
-- ==== Proof.LibPlainDot.lean ====
/-
  A plain matrix product read at a row and a column.

  For the dimension numbers "contract the left operand's columns with the right operand's rows, no batch axis"
  (`DotDims.plain M K N`), a `tpu.matmul` into an accumulator of zeros, read on the extended reals at row `p`
  and column `q`, is `Σₜ A[p, t] · B[t, q]` over `t : Fin K`: the accumulator contributes `0`, and the sum over
  the one-axis contraction index is re-indexed by that axis's coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The left operand's index at output `(p, q)` and contraction coordinate `t` is `(p, t)`. -/
theorem lhsIdx_eq (M K N : Nat) (p : Fin M) (q : Fin N) (t : Fin K) :
    (DotDims.plain M K N).lhsIdx (ix2 p q) ((contrEquiv1 (DotDims.plain M K N) K rfl rfl).symm t) = ix2 p t := by
  have hk := contrEquiv1_symm_val (DotDims.plain M K N) K rfl rfl t
  funext a
  apply Fin.ext
  match a with
  | ⟨0, _⟩ => rfl
  | ⟨1, _⟩ => exact ((DotDims.plain M K N).lhsIdx_val_of_single rfl (ix2 p q) _).trans hk

/-- The right operand's is `(t, q)`. -/
theorem rhsIdx_eq (M K N : Nat) (p : Fin M) (q : Fin N) (t : Fin K) :
    (DotDims.plain M K N).rhsIdx (ix2 p q) ((contrEquiv1 (DotDims.plain M K N) K rfl rfl).symm t) = ix2 t q := by
  have hk := contrEquiv1_symm_val (DotDims.plain M K N) K rfl rfl t
  funext a
  apply Fin.ext
  match a with
  | ⟨0, _⟩ => exact ((DotDims.plain M K N).rhsIdx_val_of_single rfl (ix2 p q) _).trans hk
  | ⟨1, _⟩ => rfl

/-- A plain `M × K` by `K × N` product into zeros, at row `p` and column `q`, is `Σₜ A[p, t] · B[t, q]`. -/
theorem matmul_zero_apply {φ₁ φ₂ : FTy} (M K N : Nat) (prec : Option ContractPrecision)
    (A : FVec Ideal ⟨2, ![M, K]⟩ φ₁) (B : FVec Ideal ⟨2, ![K, N]⟩ φ₂) (p : Fin M) (q : Fin N) :
    FloatOps.matmul (DotDims.plain M K N) prec A B (constant ⟨2, ![M, N]⟩ .f32 0x00000000#32) (ix2 p q)
      = ∑ t : Fin K, A (ix2 p t) * B (ix2 t q) := by
  rw [Ideal.matmul_constant_zero_apply, ← Equiv.sum_comp (contrEquiv1 (DotDims.plain M K N) K rfl rfl).symm]
  refine Finset.sum_congr rfl fun t _ => ?_
  rw [lhsIdx_eq, rhsIdx_eq]

end Idealize.ShloMosaic.PlainDot

end
-- ==== Proof.KernelIdeal.Payloads.lean ====
/-
  The kernel's arithmetic, entry by entry, on the extended reals.

  At a step of the contracted axis the body adds to an accumulator block the product of a 512 x 512 weight block with
  a 512 x 512 slab of x (or of the previous output): at row p and column q that is the accumulator's entry plus
  Σ_r w(p, r) · slab(r, q) — the narrowing of the operands to a shorter float format is the identity on the extended
  reals, and the matrix unit's product into zeros is the plain sum. At the first step the accumulator was just zeroed.
  At the last step each gate's bias column is added along the rows, the gates go through the logistic function or tanh,
  and the two stored blocks are  s · f + i · g  and  tanh of that times o.
-/
import proofs.«172886_j24756191494330_1_alg».proof.Proof.Gen.KernelIdeal.Skeleton
import proofs.«172886_j24756191494330_1_alg».proof.Proof.LibPlainDot
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Cell

open Cert.KernelIdeal Cert.KernelIdeal.Gen
open Idealize.ShloMosaic Idealize.ShloMosaic.ValueIdx

/-- A 512 x 512 block of extended reals, and a 512 x 1 column. -/
abbrev Blk : Type := Vec Ideal S512x512 .f32
abbrev Col : Type := Vec Ideal S512x1 .f32

/-! ## The three shapes of term the payloads are made of -/

/-- The kernel's contraction pattern — the left block's columns against the right block's rows, no batch axis — is the
    plain 512 x 512 by 512 x 512 one: the two records list the same axes. -/
theorem dims_eq : dot_S512x512_S512x512_S512x512_1_0_0_1_n_n = DotDims.plain 512 512 512 := rfl

/-- A block of zero words, cast to its own shape, reads 0 everywhere: the cast is the identity and the zero word
    encodes 0. -/
theorem zeroBlk_apply (hc : S512x512.ShapeCasts S512x512) (j : S512x512.Idx) :
    shapeCast S512x512 (broadcast S512x512 (Scalar.ofBits (F := Ideal) .f32 0x00000000#32)) hc j = 0 := by
  rw [shapeCast_self]
  exact Ideal.ofBits_zero_f32

/-- One step of a gate's accumulation at row p and column q: the narrowing of both operands is the identity, the
    product into zeros is Σ_r w(p, r) · x(r, q), the sum is entrywise and the cast to the same shape is the identity. -/
theorem stepBlk_apply (x a w : Blk) (hb : FTy.bits .bf16 < FTy.bits .f32) (hc : S512x512.ShapeCasts S512x512)
    (p q : Fin 512) :
    shapeCast S512x512
        (addf a (matmul (F := Ideal) dot_S512x512_S512x512_S512x512_1_0_0_1_n_n none (truncf .bf16 w hb) (truncf .bf16 x hb)
          (constant S512x512 .f32 0x00000000#32))) hc (ix2 p q)
      = a (ix2 p q) + ∑ r : Fin 512, w (ix2 p r) * x (ix2 r q) := by
  rw [shapeCast_self, dims_eq]
  show a (ix2 p q)
      + FloatOps.matmul (F := Ideal) (DotDims.plain 512 512 512) none (truncf .bf16 w hb) (truncf .bf16 x hb)
          (constant ⟨2, ![512, 512]⟩ .f32 0x00000000#32) (ix2 p q) = _
  rw [PlainDot.matmul_zero_apply]
  exact congrArg (a (ix2 p q) + ·) (Finset.sum_congr rfl fun r _ => rfl)

/-- An a x 1 column repeated along the rows of an a x b block reads, at (p, c), the column at (p, 0): on the column's
    first axis the coordinate is kept (a row of a one-row column is row 0 anyway), on its unit axis it is 0. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A gate's accumulator plus its bias column along the rows, at (p, q): the accumulator's entry plus the bias of
    row p. -/
theorem biased_apply (a : Blk) (b : Col) (hc : S512x1.ShapeCasts S512x1) (hb : S512x1.Broadcasts S512x512)
    (p q : Fin 512) :
    addf (F := Ideal) (φ := .f32) a (broadcastTo S512x512 (shapeCast S512x1 b hc) hb) (ix2 p q)
      = a (ix2 p q) + b (ix2 p (0 : Fin 1)) := by
  rw [shapeCast_self]
  exact congrArg (a (ix2 p q) + ·) (broadcastTo_a1_ab_apply b hb p q)

/-! ## The payloads -/

/-- The zeroed accumulators. -/
theorem zeroF_apply (j : S512x512.Idx) : k0_pay1 (F := Ideal) j = 0 := zeroBlk_apply _ j
theorem zeroI_apply (j : S512x512.Idx) : k0_pay2 (F := Ideal) j = 0 := zeroBlk_apply _ j
theorem zeroC_apply (j : S512x512.Idx) : k0_pay3 (F := Ideal) j = 0 := zeroBlk_apply _ j
theorem zeroO_apply (j : S512x512.Idx) : k0_pay4 (F := Ideal) j = 0 := zeroBlk_apply _ j

/-- A step along x: the accumulator's entry plus the weight block's row against the slab's column. -/
theorem stepXF_apply (x a w : Blk) (p q : Fin 512) :
    k0_pay10 (F := Ideal) x a w (ix2 p q) = a (ix2 p q) + ∑ r : Fin 512, w (ix2 p r) * x (ix2 r q) :=
  stepBlk_apply x a w _ _ p q
theorem stepXI_apply (x a w : Blk) (p q : Fin 512) :
    k0_pay11 (F := Ideal) x a w (ix2 p q) = a (ix2 p q) + ∑ r : Fin 512, w (ix2 p r) * x (ix2 r q) :=
  stepBlk_apply x a w _ _ p q
theorem stepXC_apply (x a w : Blk) (p q : Fin 512) :
    k0_pay12 (F := Ideal) x a w (ix2 p q) = a (ix2 p q) + ∑ r : Fin 512, w (ix2 p r) * x (ix2 r q) :=
  stepBlk_apply x a w _ _ p q
theorem stepXO_apply (x a w : Blk) (p q : Fin 512) :
    k0_pay5 (F := Ideal) (k0_pay9 x) a (k0_pay13 w) (constant S512x512 .f32 0x00000000#32) (ix2 p q)
      = a (ix2 p q) + ∑ r : Fin 512, w (ix2 p r) * x (ix2 r q) :=
  stepBlk_apply x a w _ _ p q

/-- A step along the previous output. -/
theorem stepHF_apply (h a u : Blk) (p q : Fin 512) :
    k0_pay15 (F := Ideal) h a u (ix2 p q) = a (ix2 p q) + ∑ r : Fin 512, u (ix2 p r) * h (ix2 r q) :=
  stepBlk_apply h a u _ _ p q
theorem stepHI_apply (h a u : Blk) (p q : Fin 512) :
    k0_pay16 (F := Ideal) h a u (ix2 p q) = a (ix2 p q) + ∑ r : Fin 512, u (ix2 p r) * h (ix2 r q) :=
  stepBlk_apply h a u _ _ p q
theorem stepHC_apply (h a u : Blk) (p q : Fin 512) :
    k0_pay17 (F := Ideal) h a u (ix2 p q) = a (ix2 p q) + ∑ r : Fin 512, u (ix2 p r) * h (ix2 r q) :=
  stepBlk_apply h a u _ _ p q
theorem stepHO_apply (h a u : Blk) (p q : Fin 512) :
    k0_pay6 (F := Ideal) (k0_pay14 h) a (k0_pay18 u) (constant S512x512 .f32 0x00000000#32) (ix2 p q)
      = a (ix2 p q) + ∑ r : Fin 512, u (ix2 p r) * h (ix2 r q) :=
  stepBlk_apply h a u _ _ p q

/-- The stored new-state block: the products and the sum are entrywise, the logistic function and tanh act entry by
    entry, and each gate's argument is its accumulator's entry plus its bias of row p. -/
theorem newState_apply (aF : Blk) (bf : Col) (aI : Blk) (bi : Col) (aC : Blk) (bc : Col) (s : Blk) (p q : Fin 512) :
    k0_pay7 (F := Ideal) aF bf aI bi aC bc s (ix2 p q)
      = s (ix2 p q) * Ideal.logistic (aF (ix2 p q) + bf (ix2 p (0 : Fin 1)))
        + Ideal.logistic (aI (ix2 p q) + bi (ix2 p (0 : Fin 1))) * Ideal.tanh (aC (ix2 p q) + bc (ix2 p (0 : Fin 1))) := by
  show s (ix2 p q)
        * Ideal.logistic (addf (F := Ideal) (φ := .f32) aF (broadcastTo S512x512 (shapeCast S512x1 bf shapeCasts_S512x1_S512x1) broadcasts_S512x1_S512x512) (ix2 p q))
      + Ideal.logistic (addf (F := Ideal) (φ := .f32) aI (broadcastTo S512x512 (shapeCast S512x1 bi shapeCasts_S512x1_S512x1) broadcasts_S512x1_S512x512) (ix2 p q))
        * Ideal.tanh (addf (F := Ideal) (φ := .f32) aC (broadcastTo S512x512 (shapeCast S512x1 bc shapeCasts_S512x1_S512x1) broadcasts_S512x1_S512x512) (ix2 p q)) = _
  rw [biased_apply, biased_apply, biased_apply]

/-- The stored output block: tanh of the new state's entry, times the logistic function of the output gate's
    accumulator entry plus its bias of row p. -/
theorem out_apply (aF : Blk) (bf : Col) (aI : Blk) (bi : Col) (aC : Blk) (bc : Col) (aO : Blk) (bo : Col) (s : Blk) (p q : Fin 512) :
    k0_pay8 (F := Ideal) aF bf aI bi aC bc aO bo s (ix2 p q)
      = Ideal.tanh (k0_pay7 (F := Ideal) aF bf aI bi aC bc s (ix2 p q))
        * Ideal.logistic (aO (ix2 p q) + bo (ix2 p (0 : Fin 1))) := by
  show Ideal.tanh (k0_pay7 (F := Ideal) aF bf aI bi aC bc s (ix2 p q))
      * Ideal.logistic (addf (F := Ideal) (φ := .f32) aO (broadcastTo S512x512 (shapeCast S512x1 bo shapeCasts_S512x1_S512x1) broadcasts_S512x1_S512x512) (ix2 p q)) = _
  rw [biased_apply]

end Cert.KernelIdeal.Cell

end
-- ==== Proof.LibRunSums.lean ====
/-
  A column of `L·n` terms summed in `n` consecutive runs of `L`.

  An accumulating kernel never sees a whole column: at each step of its reduction axis it adds the sum of the next `L` terms
  to what it already holds. In a commutative monoid that running total is the sum of an initial segment of the column, so
  after the last run it is the whole column's sum. Nothing here needs the terms to be finite: only commutativity and
  associativity of the addition are used, and the extended reals have both.
-/
import Idealize.ShloMosaic.PureOps.Ideal.Laws

open scoped BigOperators

namespace Cert.RunSums

variable {M : Type*} [AddCommMonoid M]

/-- The first `L·b` terms plus the next run of `L` are the first `L·(b+1)` terms. -/
theorem add_next_run (L : ℕ) (g : ℕ → M) (b : ℕ) :
    ∑ k ∈ Finset.range (L * b), g k + ∑ r : Fin L, g (L * b + r.val)
      = ∑ k ∈ Finset.range (L * (b + 1)), g k := by
  rw [Nat.mul_succ, Finset.sum_range_add, Finset.sum_range (fun x => g (L * b + x))]

/-- The first run by itself is the first `L` terms. -/
theorem first_run (L : ℕ) (g : ℕ → M) :
    ∑ r : Fin L, g (L * 0 + r.val) = ∑ k ∈ Finset.range (L * (0 + 1)), g k := by
  rw [Nat.zero_add, Nat.mul_one, Finset.sum_range]
  exact Finset.sum_congr rfl fun r _ => by rw [Nat.mul_zero, Nat.zero_add]

/-- The first `N` terms, listed by position, are the sum over the `N` positions. -/
theorem whole_column (N : ℕ) (g : ℕ → M) : ∑ k ∈ Finset.range N, g k = ∑ k : Fin N, g k.val :=
  Finset.sum_range g

end Cert.RunSums
-- ==== Proof.Spec.lean ====
/-
  The single-step LSTM cell as one function of its fifteen arrays, entry by entry, on the extended reals.

  With x the input (2048 x 4096: features by batch), h the previous output and s the previous state (4096 x 4096), and
  for each gate g in {f, i, c, o} an input weight W_g (4096 x 2048), a hidden weight U_g (4096 x 4096) and a bias column
  b_g (4096 x 1), the gate's pre-activation at row p and column q is
      z_g(p, q) = (Σ_k W_g(p, k) · x(k, q) + Σ_k U_g(p, k) · h(k, q)) + b_g(p),
  the new state is  s(p, q) · σ(z_f) + σ(z_i) · tanh(z_c)  and the output  tanh(new state) · σ(z_o),  σ the logistic
  function.
  A kernel that walks the contracted axes in slabs of 512 — four slabs of x, then eight of h — adds one slab's
  contribution at a time; `slabTerm` is that contribution and `sum_slabs` says the twelve of them add up to the two
  whole sums. Only commutativity and associativity of the addition are used: nothing here asks the entries to be finite.
-/
import Idealize.ShloMosaic.PureOps.Ideal
import Idealize.ShloMosaic.PureOps.Ideal.Laws
import Idealize.ShloMosaic.Lib.ValueIdx
import proofs.«172886_j24756191494330_1_alg».proof.Proof.LibRunSums

noncomputable section

open scoped BigOperators

namespace Cert.Lstm

open Idealize.ShloMosaic Idealize.ShloMosaic.ValueIdx

/-- An `a x b` matrix of extended reals, indexed as the printed programs index an f32 array of that shape. -/
abbrev Mat (a b : ℕ) : Type := FVec Ideal ⟨2, ![a, b]⟩ .f32

/-- The cell's fifteen arrays. -/
structure Inputs where
  x : Mat 2048 4096
  h : Mat 4096 4096
  s : Mat 4096 4096
  Wf : Mat 4096 2048
  Uf : Mat 4096 4096
  bf : Mat 4096 1
  Wi : Mat 4096 2048
  Ui : Mat 4096 4096
  bi : Mat 4096 1
  Wc : Mat 4096 2048
  Uc : Mat 4096 4096
  bc : Mat 4096 1
  Wo : Mat 4096 2048
  Uo : Mat 4096 4096
  bo : Mat 4096 1

/-- The two matrix products of a gate, at row `p` and column `q`. -/
def dots (a : Inputs) (W : Mat 4096 2048) (U : Mat 4096 4096) (p q : Fin 4096) : EReal :=
  (∑ k : Fin 2048, W (ix2 p k) * a.x (ix2 k q)) + ∑ k : Fin 4096, U (ix2 p k) * a.h (ix2 k q)

/-- A gate's pre-activation at row `p` and column `q`. -/
def gatePre (a : Inputs) (W : Mat 4096 2048) (U : Mat 4096 4096) (b : Mat 4096 1) (p q : Fin 4096) : EReal :=
  dots a W U p q + b (ix2 p (0 : Fin 1))

/-- The new state at `(p, q)`. -/
def newStateAt (a : Inputs) (p q : Fin 4096) : EReal :=
  a.s (ix2 p q) * Ideal.logistic (gatePre a a.Wf a.Uf a.bf p q)
    + Ideal.logistic (gatePre a a.Wi a.Ui a.bi p q) * Ideal.tanh (gatePre a a.Wc a.Uc a.bc p q)

/-- The output at `(p, q)`. -/
def outAt (a : Inputs) (p q : Fin 4096) : EReal :=
  Ideal.tanh (newStateAt a p q) * Ideal.logistic (gatePre a a.Wo a.Uo a.bo p q)

/-- The new state as an array. -/
def newState (a : Inputs) : Mat 4096 4096 := fun j => newStateAt a (j 0) (j 1)

/-- The output as an array. -/
def out (a : Inputs) : Mat 4096 4096 := fun j => outAt a (j 0) (j 1)

theorem newState_ix2 (a : Inputs) (p q : Fin 4096) : newState a (ix2 p q) = newStateAt a p q := rfl
theorem out_ix2 (a : Inputs) (p q : Fin 4096) : out a (ix2 p q) = outAt a p q := rfl

/-! ## The contracted axes walked in slabs of 512 -/

/-- What contraction slab `k` (0..3: rows 512k.. of x against columns 512k.. of `W`; 4..11: rows 512(k-4).. of h against
    columns 512(k-4).. of `U`; nothing beyond) adds to the gate's two products at `(p, q)`. -/
def slabTerm (a : Inputs) (W : Mat 4096 2048) (U : Mat 4096 4096) (k : ℕ) (p q : Fin 4096) : EReal :=
  if hk : k < 4 then ∑ r : Fin 512, W (ix2 p (⟨512 * k + r.val, by have := r.isLt; omega⟩ : Fin 2048))
      * a.x (ix2 (⟨512 * k + r.val, by have := r.isLt; omega⟩ : Fin 2048) q)
  else if hk' : k < 12 then ∑ r : Fin 512, U (ix2 p (⟨512 * (k - 4) + r.val, by have := r.isLt; omega⟩ : Fin 4096))
      * a.h (ix2 (⟨512 * (k - 4) + r.val, by have := r.isLt; omega⟩ : Fin 4096) q)
  else 0

theorem slabTerm_input (a : Inputs) (W : Mat 4096 2048) (U : Mat 4096 4096) (k : ℕ) (hk : k < 4) (p q : Fin 4096) :
    slabTerm a W U k p q = ∑ r : Fin 512, W (ix2 p (⟨512 * k + r.val, by have := r.isLt; omega⟩ : Fin 2048))
      * a.x (ix2 (⟨512 * k + r.val, by have := r.isLt; omega⟩ : Fin 2048) q) := by
  unfold slabTerm
  rw [dif_pos hk]

theorem slabTerm_hidden (a : Inputs) (W : Mat 4096 2048) (U : Mat 4096 4096) (k : ℕ) (hk : 4 ≤ k) (hk' : k < 12) (p q : Fin 4096) :
    slabTerm a W U k p q = ∑ r : Fin 512, U (ix2 p (⟨512 * (k - 4) + r.val, by have := r.isLt; omega⟩ : Fin 4096))
      * a.h (ix2 (⟨512 * (k - 4) + r.val, by have := r.isLt; omega⟩ : Fin 4096) q) := by
  unfold slabTerm
  rw [dif_neg (by omega), dif_pos hk']

/-! ### A column as consecutive runs -/

/-- In a commutative monoid, `n` consecutive runs of `L` terms add up to the first `L·n` terms of the column. -/
theorem sum_runs {M : Type*} [AddCommMonoid M] (L : ℕ) (g : ℕ → M) (n : ℕ) :
    ∑ b ∈ Finset.range n, ∑ r : Fin L, g (L * b + r.val) = ∑ k ∈ Finset.range (L * n), g k := by
  induction n with
  | zero => rw [Finset.sum_range_zero, Nat.mul_zero, Finset.sum_range_zero]
  | succ n ih => rw [Finset.sum_range_succ, ih, Cert.RunSums.add_next_run]

/-- The summand of the product with x at position `k` of the contracted axis, as a function of every natural number
    (zero beyond the axis's 2048 positions). -/
def xTerm (a : Inputs) (W : Mat 4096 2048) (p q : Fin 4096) (k : ℕ) : EReal :=
  if h : k < 2048 then W (ix2 p (⟨k, h⟩ : Fin 2048)) * a.x (ix2 (⟨k, h⟩ : Fin 2048) q) else 0

/-- The summand of the product with h at position `k` of the contracted axis, as a function of every natural number
    (zero beyond the axis's 4096 positions). -/
def hTerm (a : Inputs) (U : Mat 4096 4096) (p q : Fin 4096) (k : ℕ) : EReal :=
  if h : k < 4096 then U (ix2 p (⟨k, h⟩ : Fin 4096)) * a.h (ix2 (⟨k, h⟩ : Fin 4096) q) else 0

/-- An input slab is a run of 512 of the x-product's summands. -/
theorem slabTerm_input_run (a : Inputs) (W : Mat 4096 2048) (U : Mat 4096 4096) (k : ℕ) (hk : k < 4) (p q : Fin 4096) :
    slabTerm a W U k p q = ∑ r : Fin 512, xTerm a W p q (512 * k + r.val) := by
  rw [slabTerm_input a W U k hk p q]
  refine Finset.sum_congr rfl fun r _ => ?_
  have hr : 512 * k + r.val < 2048 := by have := r.isLt; omega
  unfold xTerm
  rw [dif_pos hr]

/-- A hidden slab, counted from the first one, is a run of 512 of the h-product's summands. -/
theorem slabTerm_hidden_run (a : Inputs) (W : Mat 4096 2048) (U : Mat 4096 4096) (k : ℕ) (hk : k < 8) (p q : Fin 4096) :
    slabTerm a W U (4 + k) p q = ∑ r : Fin 512, hTerm a U p q (512 * k + r.val) := by
  rw [slabTerm_hidden a W U (4 + k) (by omega) (by omega) p q]
  refine Finset.sum_congr rfl fun r _ => ?_
  have hr : 512 * (4 + k - 4) + r.val < 4096 := by have := r.isLt; omega
  have hk4 : 512 * k + r.val = 512 * (4 + k - 4) + r.val := by rw [Nat.add_sub_cancel_left]
  rw [hk4]
  unfold hTerm
  rw [dif_pos hr]

/-- The whole product with x is the sum of its totalised summands over the first 2048 positions. -/
theorem sum_xTerm (a : Inputs) (W : Mat 4096 2048) (p q : Fin 4096) :
    ∑ k ∈ Finset.range 2048, xTerm a W p q k = ∑ k : Fin 2048, W (ix2 p k) * a.x (ix2 k q) := by
  rw [Finset.sum_range]
  refine Finset.sum_congr rfl fun k _ => ?_
  unfold xTerm
  rw [dif_pos k.isLt]

/-- The whole product with h is the sum of its totalised summands over the first 4096 positions. -/
theorem sum_hTerm (a : Inputs) (U : Mat 4096 4096) (p q : Fin 4096) :
    ∑ k ∈ Finset.range 4096, hTerm a U p q k = ∑ k : Fin 4096, U (ix2 p k) * a.h (ix2 k q) := by
  rw [Finset.sum_range]
  refine Finset.sum_congr rfl fun k _ => ?_
  unfold hTerm
  rw [dif_pos k.isLt]

/-- The twelve slabs' contributions add up to the gate's two whole products. -/
theorem sum_slabs (a : Inputs) (W : Mat 4096 2048) (U : Mat 4096 4096) (p q : Fin 4096) :
    ∑ k ∈ Finset.range 12, slabTerm a W U k p q = dots a W U p q := by
  have hsplit : ∑ k ∈ Finset.range 12, slabTerm a W U k p q
      = ∑ k ∈ Finset.range 4, slabTerm a W U k p q + ∑ k ∈ Finset.range 8, slabTerm a W U (4 + k) p q :=
    Finset.sum_range_add (fun k => slabTerm a W U k p q) 4 8
  have hx : ∑ k ∈ Finset.range 4, slabTerm a W U k p q = ∑ k : Fin 2048, W (ix2 p k) * a.x (ix2 k q) := by
    rw [Finset.sum_congr rfl fun k hk => slabTerm_input_run a W U k (Finset.mem_range.mp hk) p q,
      sum_runs 512 (xTerm a W p q) 4]
    exact sum_xTerm a W p q
  have hh : ∑ k ∈ Finset.range 8, slabTerm a W U (4 + k) p q = ∑ k : Fin 4096, U (ix2 p k) * a.h (ix2 k q) := by
    rw [Finset.sum_congr rfl fun k hk => slabTerm_hidden_run a W U k (Finset.mem_range.mp hk) p q,
      sum_runs 512 (hTerm a U p q) 8]
    exact sum_hTerm a U p q
  rw [hsplit, hx, hh]
  rfl

end Cert.Lstm

end
-- ==== Proof.KernelIdeal.Invariant.lean ====
/-
  The accumulators, step by step, and the two stored blocks.

  After the point numbered n — block (I, J), step k = n mod 12 — each gate's accumulator holds, at entry (p, q), the sum
  of the first k + 1 slabs' contributions to that gate's two matrix products at array row 512 I + p and column
  512 J + q: the step with k = 0 stores zero plus the first contribution, every later step adds its own to what the
  point before left. At k = 11 all twelve are in, so the accumulator is the two whole products; adding the bias column
  gives the gate's pre-activation, and the two blocks the step stores are the cell's new state and output there.
-/
import proofs.«172886_j24756191494330_1_alg».proof.Proof.KernelIdeal.BlockReads
import proofs.«172886_j24756191494330_1_alg».proof.Proof.KernelIdeal.Pieces
import proofs.«172886_j24756191494330_1_alg».proof.Proof.KernelIdeal.Payloads
import proofs.«172886_j24756191494330_1_alg».proof.Proof.Spec

set_option maxRecDepth 16384

noncomputable section

open scoped BigOperators

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The cell's fifteen arrays as the region finds them. -/
def cellIn (c : Dev nD) : Cert.Lstm.Inputs :=
  ⟨V m c main_arg0, V m c main_arg1, V m c main_arg2, V m c main_arg3, V m c main_arg4, V m c main_arg5, V m c main_arg6, V m c main_arg7,
    V m c main_arg8, V m c main_arg9, V m c main_arg10, V m c main_arg11, V m c main_arg12, V m c main_arg13, V m c main_arg14⟩

/-! ## One step at one entry -/

/-- What a record of accumulators must hold at entry (p, q) after `k` slabs: for each gate the sum of the first `k`
    slabs' contributions at array row `P` and column `Q`. -/
def Sums (c : Dev nD) (a : Accs Ideal) (k : ℕ) (p q : Fin 512) (P Q : Fin 4096) : Prop :=
  a.f (ix2 p q) = ∑ j ∈ Finset.range k, Cert.Lstm.slabTerm (cellIn m c) (cellIn m c).Wf (cellIn m c).Uf j P Q
  ∧ a.i (ix2 p q) = ∑ j ∈ Finset.range k, Cert.Lstm.slabTerm (cellIn m c) (cellIn m c).Wi (cellIn m c).Ui j P Q
  ∧ a.g (ix2 p q) = ∑ j ∈ Finset.range k, Cert.Lstm.slabTerm (cellIn m c) (cellIn m c).Wc (cellIn m c).Uc j P Q
  ∧ a.o (ix2 p q) = ∑ j ∈ Finset.range k, Cert.Lstm.slabTerm (cellIn m c) (cellIn m c).Wo (cellIn m c).Uo j P Q

/-- The accumulators just zeroed hold the empty sum. -/
theorem sums_zero (c : Dev nD) (p q : Fin 512) (P Q : Fin 4096) : Sums m c zeroAccs 0 p q P Q :=
  ⟨(Cell.zeroF_apply (ix2 p q)).trans (Finset.sum_range_zero _).symm, (Cell.zeroI_apply (ix2 p q)).trans (Finset.sum_range_zero _).symm,
    (Cell.zeroC_apply (ix2 p q)).trans (Finset.sum_range_zero _).symm, (Cell.zeroO_apply (ix2 p q)).trans (Finset.sum_range_zero _).symm⟩

/-- While k < 4, a weight block's row p against the column q of x's block is the slab's contribution: both blocks are
    rectangles of their arrays, the weight's at rows 512 I.. and columns 512 k.., x's at rows 512 k.. and columns 512 J... -/
theorem slabX_eq (c : Dev nD) (t : Fin cfg0.N) (hk : t.val % 12 < 4) (W : Cert.Lstm.Mat 4096 2048) (U : Cert.Lstm.Mat 4096 4096)
    (w : Vec Ideal S512x512 .f32)
    (hw : ∀ p r : Fin 512, w (ix2 p r)
      = W (ix2 (absRow t.val (lt768 t) p) (⟨512 * (t.val % 12) + r.val, by have := r.isLt; omega⟩ : Fin 2048)))
    (p q : Fin 512) :
    ∑ r : Fin 512, w (ix2 p r) * (iblk m c 0 t : Vec Ideal S512x512 .f32) (ix2 r q)
      = Cert.Lstm.slabTerm (cellIn m c) W U (t.val % 12) (absRow t.val (lt768 t) p) (absCol t.val (lt768 t) q) := by
  rw [Cert.Lstm.slabTerm_input _ _ _ _ hk]
  refine Finset.sum_congr rfl fun r _ => ?_
  rw [hw p r, blockX m c t hk r q]
  rfl

/-- While k ≥ 4, the same against the previous output's block. -/
theorem slabH_eq (c : Dev nD) (t : Fin cfg0.N) (hk : 4 ≤ t.val % 12) (W : Cert.Lstm.Mat 4096 2048) (U : Cert.Lstm.Mat 4096 4096)
    (u : Vec Ideal S512x512 .f32)
    (hu : ∀ p r : Fin 512, u (ix2 p r)
      = U (ix2 (absRow t.val (lt768 t) p) (⟨512 * (t.val % 12 - 4) + r.val, by have := r.isLt; have := Nat.mod_lt t.val (by decide : 12 > 0); omega⟩ : Fin 4096)))
    (p q : Fin 512) :
    ∑ r : Fin 512, u (ix2 p r) * (iblk m c 1 t : Vec Ideal S512x512 .f32) (ix2 r q)
      = Cert.Lstm.slabTerm (cellIn m c) W U (t.val % 12) (absRow t.val (lt768 t) p) (absCol t.val (lt768 t) q) := by
  rw [Cert.Lstm.slabTerm_hidden _ _ _ _ hk (Nat.mod_lt _ (by decide))]
  refine Finset.sum_congr rfl fun r _ => ?_
  rw [hu p r, blockH m c t hk r q]
  rfl

/-- A step along x adds the slab k = n mod 12 to each gate's sum. -/
theorem sums_stepX (c : Dev nD) (t : Fin cfg0.N) (hk : t.val % 12 < 4) (a : Accs Ideal) (p q : Fin 512)
    (ha : Sums m c a (t.val % 12) p q (absRow t.val (lt768 t) p) (absCol t.val (lt768 t) q)) :
    Sums m c (stepX (iblk m c 0 t) (iblk m c 3 t) (iblk m c 6 t) (iblk m c 9 t) (iblk m c 12 t) a) (t.val % 12 + 1) p q
      (absRow t.val (lt768 t) p) (absCol t.val (lt768 t) q) := by
  obtain ⟨hf, hi, hg, ho⟩ := ha
  refine ⟨?_, ?_, ?_, ?_⟩
  · refine (Cell.stepXF_apply _ _ _ p q).trans ?_
    rw [Finset.sum_range_succ, ← hf, slabX_eq m c t hk (cellIn m c).Wf (cellIn m c).Uf _ (blockWf m c t hk) p q]
  · refine (Cell.stepXI_apply _ _ _ p q).trans ?_
    rw [Finset.sum_range_succ, ← hi, slabX_eq m c t hk (cellIn m c).Wi (cellIn m c).Ui _ (blockWi m c t hk) p q]
  · refine (Cell.stepXC_apply _ _ _ p q).trans ?_
    rw [Finset.sum_range_succ, ← hg, slabX_eq m c t hk (cellIn m c).Wc (cellIn m c).Uc _ (blockWc m c t hk) p q]
  · refine (Cell.stepXO_apply _ _ _ p q).trans ?_
    rw [Finset.sum_range_succ, ← ho, slabX_eq m c t hk (cellIn m c).Wo (cellIn m c).Uo _ (blockWo m c t hk) p q]

/-- A step along the previous output does the same. -/
theorem sums_stepH (c : Dev nD) (t : Fin cfg0.N) (hk : 4 ≤ t.val % 12) (a : Accs Ideal) (p q : Fin 512)
    (ha : Sums m c a (t.val % 12) p q (absRow t.val (lt768 t) p) (absCol t.val (lt768 t) q)) :
    Sums m c (stepH (iblk m c 1 t) (iblk m c 4 t) (iblk m c 7 t) (iblk m c 10 t) (iblk m c 13 t) a) (t.val % 12 + 1) p q
      (absRow t.val (lt768 t) p) (absCol t.val (lt768 t) q) := by
  obtain ⟨hf, hi, hg, ho⟩ := ha
  refine ⟨?_, ?_, ?_, ?_⟩
  · refine (Cell.stepHF_apply _ _ _ p q).trans ?_
    rw [Finset.sum_range_succ, ← hf, slabH_eq m c t hk (cellIn m c).Wf (cellIn m c).Uf _ (blockUf m c t hk) p q]
  · refine (Cell.stepHI_apply _ _ _ p q).trans ?_
    rw [Finset.sum_range_succ, ← hi, slabH_eq m c t hk (cellIn m c).Wi (cellIn m c).Ui _ (blockUi m c t hk) p q]
  · refine (Cell.stepHC_apply _ _ _ p q).trans ?_
    rw [Finset.sum_range_succ, ← hg, slabH_eq m c t hk (cellIn m c).Wc (cellIn m c).Uc _ (blockUc m c t hk) p q]
  · refine (Cell.stepHO_apply _ _ _ p q).trans ?_
    rw [Finset.sum_range_succ, ← ho, slabH_eq m c t hk (cellIn m c).Wo (cellIn m c).Uo _ (blockUo m c t hk) p q]

/-! ## The four cases at a point, as the step's arithmetic -/

theorem firstAt_acc (c : Dev nD) (t : Fin cfg0.N) (h0 : t.val % 12 = 0) :
    (firstAt m c t h0).acc
      = stepX (iblk m c 0 t) (iblk m c 3 t) (iblk m c 6 t) (iblk m c 9 t) (iblk m c 12 t) zeroAccs :=
  accsFirst_eq ..

theorem inputAt_acc (c : Dev nD) (t : Fin cfg0.N) (h0 : ¬t.val % 12 = 0) (h1 : t.val % 12 < 4) (a : Accs Ideal) :
    (inputAt m c t h0 h1 a).acc
      = stepX (iblk m c 0 t) (iblk m c 3 t) (iblk m c 6 t) (iblk m c 9 t) (iblk m c 12 t) a :=
  accsInput_eq ..

theorem hiddenAt_acc (c : Dev nD) (t : Fin cfg0.N) (h1 : ¬t.val % 12 < 4) (h3 : ¬t.val % 12 = 11) (a : Accs Ideal) :
    (hiddenAt m c t h1 h3 a).acc
      = stepH (iblk m c 1 t) (iblk m c 4 t) (iblk m c 7 t) (iblk m c 10 t) (iblk m c 13 t) a :=
  accsHidden_eq ..

/-- At k = 11: the accumulators are updated as at the steps before, and the two stored blocks combine the updated
    accumulators with the bias columns' blocks and the old state's block. -/
theorem lastAt_eq (c : Dev nD) (t : Fin cfg0.N) (h3 : t.val % 12 = 11) (a : Accs Ideal) :
    lastAt m c t h3 a
      = ⟨stepH (iblk m c 1 t) (iblk m c 4 t) (iblk m c 7 t) (iblk m c 10 t) (iblk m c 13 t) a,
          k0_pay7 (stepH (iblk m c 1 t) (iblk m c 4 t) (iblk m c 7 t) (iblk m c 10 t) (iblk m c 13 t) a).f (iblk m c 5 t)
            (stepH (iblk m c 1 t) (iblk m c 4 t) (iblk m c 7 t) (iblk m c 10 t) (iblk m c 13 t) a).i (iblk m c 8 t)
            (stepH (iblk m c 1 t) (iblk m c 4 t) (iblk m c 7 t) (iblk m c 10 t) (iblk m c 13 t) a).g (iblk m c 11 t) (iblk m c 2 t),
          k0_pay8 (stepH (iblk m c 1 t) (iblk m c 4 t) (iblk m c 7 t) (iblk m c 10 t) (iblk m c 13 t) a).f (iblk m c 5 t)
            (stepH (iblk m c 1 t) (iblk m c 4 t) (iblk m c 7 t) (iblk m c 10 t) (iblk m c 13 t) a).i (iblk m c 8 t)
            (stepH (iblk m c 1 t) (iblk m c 4 t) (iblk m c 7 t) (iblk m c 10 t) (iblk m c 13 t) a).g (iblk m c 11 t)
            (stepH (iblk m c 1 t) (iblk m c 4 t) (iblk m c 7 t) (iblk m c 10 t) (iblk m c 13 t) a).o (iblk m c 14 t) (iblk m c 2 t)⟩ :=
  leftLast_eq ..

/-! ## From a point to the next -/

/-- Within a block the point before has the same block row and column and one slab fewer: what it left, read against
    its own point, is what this point finds, read against this one. -/
theorem sums_carried (c : Dev nD) (t : Fin cfg0.N) (h0 : ¬t.val % 12 = 0) (a : Accs Ideal) (p q : Fin 512)
    (hlt : t.val - 1 < 768)
    (ih : Sums m c a ((t.val - 1) % 12 + 1) p q (absRow (t.val - 1) hlt p) (absCol (t.val - 1) hlt q)) :
    Sums m c a (t.val % 12) p q (absRow t.val (lt768 t) p) (absCol t.val (lt768 t) q) := by
  have e1 : (t.val - 1) % 12 + 1 = t.val % 12 := by omega
  have e2 : absRow (t.val - 1) hlt p = absRow t.val (lt768 t) p :=
    Fin.ext (by show 512 * ((t.val - 1) / 96) + p.val = 512 * (t.val / 96) + p.val; omega)
  have e3 : absCol (t.val - 1) hlt q = absCol t.val (lt768 t) q :=
    Fin.ext (by show 512 * ((t.val - 1) / 12 % 8) + q.val = 512 * (t.val / 12 % 8) + q.val; omega)
  rw [e1, e2, e3] at ih
  exact ih

/-- The invariant at every point, by induction on the point's number. -/
theorem sums_leftAt (c : Dev nD) (p q : Fin 512) : ∀ (n : ℕ) (t : Fin cfg0.N), t.val = n →
    Sums m c (leftAt m c t.val t.isLt).acc (t.val % 12 + 1) p q (absRow t.val (lt768 t) p) (absCol t.val (lt768 t) q) := by
  intro n
  induction n using Nat.strong_induction_on with
  | _ n ih =>
    intro t htn
    have hprev : ¬t.val % 12 = 0 →
        Sums m c (carriedIn m c t) (t.val % 12) p q (absRow t.val (lt768 t) p) (absCol t.val (lt768 t) q) := fun h0 =>
      sums_carried m c t h0 _ p q (by have := lt768 t; omega)
        (ih (t.val - 1) (by omega) ⟨t.val - 1, Nat.lt_of_le_of_lt (Nat.sub_le _ _) t.isLt⟩ rfl)
    by_cases h0 : t.val % 12 = 0
    · rw [leftAt_first m c t h0, firstAt_acc m c t h0]
      refine sums_stepX m c t (by omega) zeroAccs p q ?_
      rw [h0]
      exact sums_zero m c p q _ _
    · by_cases h1 : t.val % 12 < 4
      · rw [leftAt_input m c t h0 h1, inputAt_acc m c t h0 h1]
        exact sums_stepX m c t h1 _ p q (hprev h0)
      · by_cases h3 : t.val % 12 = 11
        · rw [leftAt_last m c t h3, lastAt_eq m c t h3]
          exact sums_stepH m c t (by omega) _ p q (hprev h0)
        · rw [leftAt_hidden m c t h1 h3, hiddenAt_acc m c t h1 h3]
          exact sums_stepH m c t (by omega) _ p q (hprev h0)

/-- After the point numbered `n` each accumulator holds the first `n mod 12 + 1` slabs' contributions. -/
theorem acc_inv (c : Dev nD) (n : ℕ) (hn : n < cfg0.N) (p q : Fin 512) :
    (leftAt m c n hn).acc.f (ix2 p q) = ∑ j ∈ Finset.range (n % 12 + 1),
        Cert.Lstm.slabTerm (cellIn m c) (cellIn m c).Wf (cellIn m c).Uf j (absRow n (lt_of_lt_of_eq hn N_0) p) (absCol n (lt_of_lt_of_eq hn N_0) q)
    ∧ (leftAt m c n hn).acc.i (ix2 p q) = ∑ j ∈ Finset.range (n % 12 + 1),
        Cert.Lstm.slabTerm (cellIn m c) (cellIn m c).Wi (cellIn m c).Ui j (absRow n (lt_of_lt_of_eq hn N_0) p) (absCol n (lt_of_lt_of_eq hn N_0) q)
    ∧ (leftAt m c n hn).acc.g (ix2 p q) = ∑ j ∈ Finset.range (n % 12 + 1),
        Cert.Lstm.slabTerm (cellIn m c) (cellIn m c).Wc (cellIn m c).Uc j (absRow n (lt_of_lt_of_eq hn N_0) p) (absCol n (lt_of_lt_of_eq hn N_0) q)
    ∧ (leftAt m c n hn).acc.o (ix2 p q) = ∑ j ∈ Finset.range (n % 12 + 1),
        Cert.Lstm.slabTerm (cellIn m c) (cellIn m c).Wo (cellIn m c).Uo j (absRow n (lt_of_lt_of_eq hn N_0) p) (absCol n (lt_of_lt_of_eq hn N_0) q) := by
  exact sums_leftAt m c p q n ⟨n, hn⟩ rfl

/-! ## The two stored blocks -/

/-- At k = 11 the stored blocks combine the accumulators as this step leaves them. -/
theorem leftAt_last_new (c : Dev nD) (t : Fin cfg0.N) (h : t.val % 12 = 11) :
    (leftAt m c t.val t.isLt).new
      = k0_pay7 (leftAt m c t.val t.isLt).acc.f (iblk m c 5 t) (leftAt m c t.val t.isLt).acc.i (iblk m c 8 t)
          (leftAt m c t.val t.isLt).acc.g (iblk m c 11 t) (iblk m c 2 t) := by
  rw [leftAt_last m c t h, lastAt_eq m c t h]

theorem leftAt_last_out (c : Dev nD) (t : Fin cfg0.N) (h : t.val % 12 = 11) :
    (leftAt m c t.val t.isLt).out
      = k0_pay8 (leftAt m c t.val t.isLt).acc.f (iblk m c 5 t) (leftAt m c t.val t.isLt).acc.i (iblk m c 8 t)
          (leftAt m c t.val t.isLt).acc.g (iblk m c 11 t) (leftAt m c t.val t.isLt).acc.o (iblk m c 14 t) (iblk m c 2 t) := by
  rw [leftAt_last m c t h, lastAt_eq m c t h]

/-- With all twelve slabs in, an accumulator's entry is the gate's two whole products; with the bias of the row it is
    the gate's pre-activation. -/
theorem gate_pre (c : Dev nD) (t : Fin cfg0.N) (h : t.val % 12 = 11) (W : Cert.Lstm.Mat 4096 2048) (U : Cert.Lstm.Mat 4096 4096)
    (B : Cert.Lstm.Mat 4096 1) (A : Vec Ideal S512x512 .f32) (b : Vec Ideal S512x1 .f32) (p q : Fin 512)
    (hA : A (ix2 p q) = ∑ j ∈ Finset.range (t.val % 12 + 1),
      Cert.Lstm.slabTerm (cellIn m c) W U j (absRow t.val (lt768 t) p) (absCol t.val (lt768 t) q))
    (hb : b (ix2 p (0 : Fin 1)) = B (ix2 (absRow t.val (lt768 t) p) (0 : Fin 1))) :
    A (ix2 p q) + b (ix2 p (0 : Fin 1))
      = Cert.Lstm.gatePre (cellIn m c) W U B (absRow t.val (lt768 t) p) (absCol t.val (lt768 t) q) := by
  have e : t.val % 12 + 1 = 12 := by omega
  rw [hA, hb, e, Cert.Lstm.sum_slabs]
  rfl

/-- The new-state block stored at k = 11. -/
theorem new_block (c : Dev nD) (t : Fin cfg0.N) (h : t.val % 12 = 11) (p q : Fin 512) :
    (leftAt m c t.val t.isLt).new (ix2 p q) = Cert.Lstm.newStateAt (cellIn m c) (absRow t.val (lt768 t) p) (absCol t.val (lt768 t) q) := by
  obtain ⟨hf, hi, hg, ho⟩ := sums_leftAt m c p q t.val t rfl
  rw [leftAt_last_new m c t h]
  refine (Cell.newState_apply _ _ _ _ _ _ _ p q).trans ?_
  rw [gate_pre m c t h (cellIn m c).Wf (cellIn m c).Uf (cellIn m c).bf _ _ p q hf (blockBf m c t p),
    gate_pre m c t h (cellIn m c).Wi (cellIn m c).Ui (cellIn m c).bi _ _ p q hi (blockBi m c t p),
    gate_pre m c t h (cellIn m c).Wc (cellIn m c).Uc (cellIn m c).bc _ _ p q hg (blockBc m c t p),
    blockS m c t p q]
  rfl

/-- The output block stored at k = 11. -/
theorem out_block (c : Dev nD) (t : Fin cfg0.N) (h : t.val % 12 = 11) (p q : Fin 512) :
    (leftAt m c t.val t.isLt).out (ix2 p q) = Cert.Lstm.outAt (cellIn m c) (absRow t.val (lt768 t) p) (absCol t.val (lt768 t) q) := by
  obtain ⟨hf, hi, hg, ho⟩ := sums_leftAt m c p q t.val t rfl
  rw [leftAt_last_out m c t h]
  refine (Cell.out_apply _ _ _ _ _ _ _ _ _ p q).trans ?_
  rw [← leftAt_last_new m c t h, new_block m c t h p q,
    gate_pre m c t h (cellIn m c).Wo (cellIn m c).Uo (cellIn m c).bo _ _ p q ho (blockBo m c t p)]
  rfl

end Cert.KernelIdeal.Body

end
-- ==== Proof.KernelIdeal.Arrays.lean ====
/-
  From blocks to arrays.

  Each result window is written back exactly at the points with k = 11, one per block (I, J), and those 64 blocks tile
  the 4096 x 4096 array: entry (P, Q) lies in block (P / 512, Q / 512). What is written back there is the block the
  step stored, which is the cell's result restricted to the block. So after the run each result array is the cell's
  result, entry by entry.
-/
import proofs.«172886_j24756191494330_1_alg».proof.Proof.KernelIdeal.Invariant

set_option maxRecDepth 16384

noncomputable section

open scoped BigOperators

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## Where a result block sits -/

/-- The point numbered n writes both results at block row n / 96 and block column (n / 12) mod 8. -/
theorem resultBlock : ∀ t : Fin cfg0.N, win0_15.index t (0 : Fin 2) = t.val / 96 ∧ win0_15.index t (1 : Fin 2) = t.val / 12 % 8
    ∧ win0_16.index t (0 : Fin 2) = t.val / 96 ∧ win0_16.index t (1 : Fin 2) = t.val / 12 % 8 :=
  (by decide +kernel : ∀ t : Fin grid0.N, _)

/-- Entry (p, q) of the first result's block at a point is the array's entry (512 (n / 96) + p, 512 ((n / 12) mod 8) + q). -/
theorem embNew (t : Fin cfg0.N) (p q : Fin 512) :
    ((cfg0.win 15).blk t).view.emb (ix2 p q) = ix2 (absRow t.val (lt768 t) p) (absCol t.val (lt768 t) q) := by
  obtain ⟨e0, e1, -, -⟩ := resultBlock t
  funext a
  apply Fin.ext
  match a with
  | ⟨0, _⟩ => show win0_15.index t (0 : Fin 2) * 512 + 1 * p.val = 512 * (t.val / 96) + p.val; rw [e0]; omega
  | ⟨1, _⟩ => show win0_15.index t (1 : Fin 2) * 512 + 1 * q.val = 512 * (t.val / 12 % 8) + q.val; rw [e1]; omega

/-- The same for the second result. -/
theorem embOut (t : Fin cfg0.N) (p q : Fin 512) :
    ((cfg0.win 16).blk t).view.emb (ix2 p q) = ix2 (absRow t.val (lt768 t) p) (absCol t.val (lt768 t) q) := by
  obtain ⟨-, -, e0, e1⟩ := resultBlock t
  funext a
  apply Fin.ext
  match a with
  | ⟨0, _⟩ => show win0_16.index t (0 : Fin 2) * 512 + 1 * p.val = 512 * (t.val / 96) + p.val; rw [e0]; omega
  | ⟨1, _⟩ => show win0_16.index t (1 : Fin 2) * 512 + 1 * q.val = 512 * (t.val / 12 % 8) + q.val; rw [e1]; omega

/-! ## What a point writes back -/

/-- At k = 11 the first result's write-back is the new state read through the point's block. -/
theorem flushedNew (c : Dev nD) (t : Fin cfg0.N) (hf : (cfg0.win 15).flush t = true) :
    (dats m 0 c).flushed 15 t = ((cfg0.win 15).blk t).view.read (Elt Ideal) (Cert.Lstm.newState (cellIn m c)) := by
  have hk : t.val % 12 = 11 := (flush0_15 t).mp hf
  show (cfg0.win 15).cut (grid0.coords t) ((dats m 0 c).after 15 t) = _
  rw [after15]
  funext y
  obtain ⟨p, q, rfl⟩ : ∃ (p : Fin 512) (q : Fin 512), y = ix2 p q := ⟨y 0, y 1, eq_ix2 y⟩
  rw [View.read_apply]
  show (leftAt m c t.val t.isLt).new (ix2 p q) = Cert.Lstm.newState (cellIn m c) (((cfg0.win 15).blk t).view.emb (ix2 p q))
  rw [embNew, Cert.Lstm.newState_ix2]
  exact new_block m c t hk p q

/-- At k = 11 the second result's write-back is the output read through the point's block. -/
theorem flushedOut (c : Dev nD) (t : Fin cfg0.N) (hf : (cfg0.win 16).flush t = true) :
    (dats m 0 c).flushed 16 t = ((cfg0.win 16).blk t).view.read (Elt Ideal) (Cert.Lstm.out (cellIn m c)) := by
  have hk : t.val % 12 = 11 := (flush0_16 t).mp hf
  show (cfg0.win 16).cut (grid0.coords t) ((dats m 0 c).after 16 t) = _
  rw [after16]
  funext y
  obtain ⟨p, q, rfl⟩ : ∃ (p : Fin 512) (q : Fin 512), y = ix2 p q := ⟨y 0, y 1, eq_ix2 y⟩
  rw [View.read_apply]
  show (leftAt m c t.val t.isLt).out (ix2 p q) = Cert.Lstm.out (cellIn m c) (((cfg0.win 16).blk t).view.emb (ix2 p q))
  rw [embOut, Cert.Lstm.out_ix2]
  exact out_block m c t hk p q

/-! ## The blocks tile the array -/

/-- An entry of the array lies in a point's block iff on each axis it is within 512 of the block's first coordinate. -/
theorem memNew (t : Fin cfg0.N) (i : S4096x4096.Idx) :
    i ∈ ((cfg0.win 15).blk t).view.set ↔ ∀ a : Fin 2, win0_15.index t a * S512x512.size a ≤ (i a).val ∧ (i a).val < win0_15.index t a * S512x512.size a + S512x512.size a := by
  show i ∈ ((View.whole main_v0_0).slice (win0_15.rect t)).set ↔ _
  rw [View.set_slice_whole, Rect.mem_set_unit]
  exact Iff.rfl

theorem memOut (t : Fin cfg0.N) (i : S4096x4096.Idx) :
    i ∈ ((cfg0.win 16).blk t).view.set ↔ ∀ a : Fin 2, win0_16.index t a * S512x512.size a ≤ (i a).val ∧ (i a).val < win0_16.index t a * S512x512.size a + S512x512.size a := by
  show i ∈ ((View.whole main_v0_1).slice (win0_16.rect t)).set ↔ _
  rw [View.set_slice_whole, Rect.mem_set_unit]
  exact Iff.rfl

/-- Entry (P, Q) is written by the point 96 (P / 512) + 12 (Q / 512) + 11: its k is 11 and its block is (P / 512, Q / 512). -/
def coverPoint (i : S4096x4096.Idx) : Fin cfg0.N :=
  ⟨96 * ((i 0).val / 512) + 12 * ((i 1).val / 512) + 11, by
    have h0 : (i 0).val < 4096 := (i 0).isLt
    have h1 : (i 1).val < 4096 := (i 1).isLt
    rw [show cfg0.N = 768 from N_0]; omega⟩

theorem coverNew (i : S4096x4096.Idx) :
    ∃ t : Fin cfg0.N, (cfg0.win 15).flush t = true ∧ i ∈ ((cfg0.win 15).blk t).view.set := by
  have h0 : (i 0).val < 4096 := (i 0).isLt
  have h1 : (i 1).val < 4096 := (i 1).isLt
  have hv : (coverPoint i).val = 96 * ((i 0).val / 512) + 12 * ((i 1).val / 512) + 11 := rfl
  obtain ⟨e0, e1, -, -⟩ := resultBlock (coverPoint i)
  refine ⟨coverPoint i, (flush0_15 _).mpr (by rw [hv]; omega), ?_⟩
  rw [memNew]
  intro a
  match a with
  | ⟨0, _⟩ => show win0_15.index (coverPoint i) (0 : Fin 2) * 512 ≤ (i 0).val ∧ (i 0).val < win0_15.index (coverPoint i) (0 : Fin 2) * 512 + 512; rw [e0, hv]; omega
  | ⟨1, _⟩ => show win0_15.index (coverPoint i) (1 : Fin 2) * 512 ≤ (i 1).val ∧ (i 1).val < win0_15.index (coverPoint i) (1 : Fin 2) * 512 + 512; rw [e1, hv]; omega

theorem coverOut (i : S4096x4096.Idx) :
    ∃ t : Fin cfg0.N, (cfg0.win 16).flush t = true ∧ i ∈ ((cfg0.win 16).blk t).view.set := by
  have h0 : (i 0).val < 4096 := (i 0).isLt
  have h1 : (i 1).val < 4096 := (i 1).isLt
  have hv : (coverPoint i).val = 96 * ((i 0).val / 512) + 12 * ((i 1).val / 512) + 11 := rfl
  obtain ⟨-, -, e0, e1⟩ := resultBlock (coverPoint i)
  refine ⟨coverPoint i, (flush0_16 _).mpr (by rw [hv]; omega), ?_⟩
  rw [memOut]
  intro a
  match a with
  | ⟨0, _⟩ => show win0_16.index (coverPoint i) (0 : Fin 2) * 512 ≤ (i 0).val ∧ (i 0).val < win0_16.index (coverPoint i) (0 : Fin 2) * 512 + 512; rw [e0, hv]; omega
  | ⟨1, _⟩ => show win0_16.index (coverPoint i) (1 : Fin 2) * 512 ≤ (i 1).val ∧ (i 1).val < win0_16.index (coverPoint i) (1 : Fin 2) * 512 + 512; rw [e1, hv]; omega

/-! ## The arrays after the run -/

/-- The first result array after the run is the cell's new state. -/
theorem final_new (c : Dev nD) : (dats m 0 c).arrAt 15 cfg0.N = Cert.Lstm.newState (cellIn m c) :=
  (dats m 0 c).arrAt_eq_of_cover 15 (Cert.Lstm.newState (cellIn m c)) (flushedNew m c) coverNew

/-- The second is the cell's output. -/
theorem final_out (c : Dev nD) : (dats m 0 c).arrAt 16 cfg0.N = Cert.Lstm.out (cellIn m c) :=
  (dats m 0 c).arrAt_eq_of_cover 16 (Cert.Lstm.out (cellIn m c)) (flushedOut m c) coverOut

end Cert.KernelIdeal.Body

end
-- ==== Proof.KernelIdeal.Result.lean ====
/-
  The idealized kernel's run with its two results named.

  The region's run leaves every array of the pipeline at what the library computes from the proof data: an argument
  array as it was, a result array at its launch contents overwritten by the blocks written back. Those are the cell's
  new state and output, entry by entry.
-/
import proofs.«172886_j24756191494330_1_alg».proof.Proof.KernelIdeal.Region
import proofs.«172886_j24756191494330_1_alg».proof.Proof.KernelIdeal.Arrays

set_option maxRecDepth 16384

noncomputable section

open scoped BigOperators

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

set_option maxHeartbeats 2000000 in
/-- Every weakly fair execution of the idealized kernel terminates with its first result the cell's new state, its
    second the cell's output, and its fifteen arguments unchanged. -/
theorem run_values : θ_run defs (onTc (τ := τ) (main (F := Ideal))) ⟨m, fun _ => 0, ρ⟩ (fun r => ∀ c : Dev nD,
      r.2.mem ((c.tc : Thread nD τ).loc main_v0_0) = Cert.Lstm.newState (cellIn m c)
      ∧ r.2.mem ((c.tc : Thread nD τ).loc main_v0_1) = Cert.Lstm.out (cellIn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 15).trans (final_new m c), ((h c).1 16).trans (final_out m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c)))⟩)
    (run_main (F := Ideal) m ρ)

end Cert.KernelIdeal.Body

end
-- ==== Proof.LibHostDot.lean ====
/-
  The host's matrix product `A B` read at a row and a column.

  For an `M × K` matrix `A` and a `K × N` matrix `B`, the host's `dot_general` contracting the left operand's
  columns with the right operand's rows is, on the extended reals, `Σₜ A[p, t] · B[t, q]` at row `p` and column
  `q`: the sum over the one-axis contraction index is re-indexed by that axis's coordinate `t`, which sits in the
  second place of the left operand's index and in the first place of the right operand's.
-/
import Idealize.ShloMosaic.PureOps.Ideal.Laws
import Idealize.ShloMosaic.Lib.ValueIdx

noncomputable section

open scoped BigOperators

namespace Idealize.ShloMosaic.HostDot

open Idealize.ShloMosaic Idealize.ShloMosaic.ValueIdx

/-- `A B` on the host, at row `p` and column `q`, is `Σₜ A[p, t] · B[t, q]`. -/
theorem dotGeneral_nn_apply {φ₁ φ₂ : FTy} {M K N : Nat}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (p : Fin M) (q : Fin N) :
    Host.dotGeneral (⟨[1], [0], [0], [1], [], [], w⟩ : DotDims ⟨2, ![M, K]⟩ ⟨2, ![K, N]⟩ ⟨2, ![M, N]⟩) prec A B (ix2 p q)
      = ∑ t : Fin K, A (ix2 p t) * B (ix2 t q) := by
  show FloatOps.dotGeneral _ prec _ A B (ix2 p q) = _
  rw [Ideal.dotGeneral_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun t _ => ?_
  have c := contrEquiv1_symm_val (⟨[1], [0], [0], [1], [], [], w⟩ : DotDims ⟨2, ![M, K]⟩ ⟨2, ![K, N]⟩ ⟨2, ![M, N]⟩) K rfl rfl t
  have l : (⟨[1], [0], [0], [1], [], [], w⟩ : DotDims ⟨2, ![M, K]⟩ ⟨2, ![K, N]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [0], [0], [1], [], [], w⟩ : DotDims ⟨2, ![M, K]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

end Idealize.ShloMosaic.HostDot

end
-- ==== Proof.LibHostForms.lean ====
/-
  The host's small broadcasts and its row sum, read at coordinates.

  jnp writes `x + b` for a matrix `x` and a vector `b` as two `broadcast_in_dim`s — the vector laid out as one row,
  the row repeated down the matrix — and `keepdims` reductions as a vector laid out as a column, the column then
  repeated along the rows; a scalar constant is broadcast with no axes at all. Read at explicit coordinates each is
  the operand at the evident index. And the host's sum over the second axis of an `a × b` matrix from an initial
  value is, on the extended reals, that value plus `Σₖ x[p, k]`.
-/
import Idealize.ShloMosaic.PureOps.Ideal.Laws
import Idealize.ShloMosaic.Lib.ValueIdx
import Idealize.ShloMosaic.Lib.Pipeline.Value

noncomputable section

open scoped BigOperators

namespace Idealize.ShloMosaic.HostForms

open Idealize.ShloMosaic Idealize.ShloMosaic.ValueIdx

variable {α : Type}

/-- A length-`a` vector laid out as an `a × 1` column reads, at `(p, u)`, the vector at `p`. -/
theorem vecCol_apply {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h x (ix2 p u) = x (ix1 p) :=
  broadcastInDim_apply _ h x (ix2 p u) (ix1 p) fun d => match d with
    | ⟨0, _⟩ => by
      show p.val = if a = 1 then 0 else p.val
      split
      · have := p.isLt; omega
      · rfl

/-- An `a × 1` column repeated along the rows of an `a × c` matrix reads, at `(p, q)`, the column at `(p, 0)`. -/
theorem colMat_apply {a c : ℕ} (v : (⟨2, ![a, 1]⟩ : Shape).Idx → α)
    (h : (⟨2, ![a, 1]⟩ : Shape).BroadcastsInDim ⟨2, ![a, c]⟩ (![0, 1] : Fin 2 → Fin 2)) (p : Fin a) (q : Fin c) :
    broadcastInDim ⟨2, ![a, c]⟩ (![0, 1] : Fin 2 → Fin 2) h v (ix2 p q) = v (ix2 p (0 : Fin 1)) :=
  broadcastInDim_apply _ h v (ix2 p q) (ix2 p (0 : Fin 1)) fun d => match d with
    | ⟨0, _⟩ => by
      show p.val = if a = 1 then 0 else p.val
      split
      · have := p.isLt; omega
      · rfl
    | ⟨1, _⟩ => by
      show (0 : ℕ) = if (1 : ℕ) = 1 then 0 else q.val
      rw [if_pos rfl]

/-- A length-`c` vector laid out as a `1 × c` row reads, at `(u, q)`, the vector at `q`. -/
theorem vecRow_apply {c : ℕ} (x : (⟨1, ![c]⟩ : Shape).Idx → α)
    (h : (⟨1, ![c]⟩ : Shape).BroadcastsInDim ⟨2, ![1, c]⟩ (![1] : Fin 1 → Fin 2)) (u : Fin 1) (q : Fin c) :
    broadcastInDim ⟨2, ![1, c]⟩ (![1] : Fin 1 → Fin 2) h x (ix2 u q) = x (ix1 q) :=
  broadcastInDim_apply _ h x (ix2 u q) (ix1 q) fun d => match d with
    | ⟨0, _⟩ => by
      show q.val = if c = 1 then 0 else q.val
      split
      · have := q.isLt; omega
      · rfl

/-- A `1 × c` row repeated down the rows of an `a × c` matrix reads, at `(p, q)`, the row at `(0, q)`. -/
theorem rowMat_apply {a c : ℕ} (v : (⟨2, ![1, c]⟩ : Shape).Idx → α)
    (h : (⟨2, ![1, c]⟩ : Shape).BroadcastsInDim ⟨2, ![a, c]⟩ (![0, 1] : Fin 2 → Fin 2)) (p : Fin a) (q : Fin c) :
    broadcastInDim ⟨2, ![a, c]⟩ (![0, 1] : Fin 2 → Fin 2) h v (ix2 p q) = v (ix2 (0 : Fin 1) q) :=
  broadcastInDim_apply _ h v (ix2 p q) (ix2 (0 : Fin 1) q) fun d => match d with
    | ⟨0, _⟩ => by
      show (0 : ℕ) = if (1 : ℕ) = 1 then 0 else p.val
      rw [if_pos rfl]
    | ⟨1, _⟩ => by
      show q.val = if c = 1 then 0 else q.val
      split
      · have := q.isLt; omega
      · rfl

/-- A scalar broadcast to any shape reads the scalar everywhere. -/
theorem scalar_apply {t : Shape} (x : (⟨0, ![]⟩ : Shape).Idx → α)
    (h : (⟨0, ![]⟩ : Shape).BroadcastsInDim t (![] : Fin 0 → Fin t.rank)) (i : t.Idx) :
    broadcastInDim t (![] : Fin 0 → Fin t.rank) h x i = x ix0 :=
  broadcastInDim_apply _ h x i ix0 fun d => d.elim0

/-- The host's sum of an `a × b` matrix over its second axis from an initial value reads, at `p`, that value plus
    `Σₖ x[p, k]` over `k : Fin b`. -/
theorem hostRowSum_apply {a b : ℕ} {u : Shape} (x : FVec Ideal ⟨2, ![a, b]⟩ .f32) (init : u.Idx → EReal)
    (h' : (⟨2, ![a, b]⟩ : Shape).ReducesTo [1] ⟨1, ![a]⟩) (hu : 0 < u.numel)
    (h : (⟨2, ![a, b]⟩ : Shape).Reduces [1] ⟨1, ![a]⟩) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  refine congrArg (_ + ·) (Finset.sum_congr rfl fun k _ => congrArg x (funext fun d => Fin.ext ?_))
  match d with
  | ⟨0, _⟩ => rfl
  | ⟨1, _⟩ => rfl

end Idealize.ShloMosaic.HostForms

end
-- ==== Proof.RefSpec.lean ====
/-
  The reference's two results are the cell's new state and output.

  Operation by operation the reference forms, for each gate, the two matrix products, their sum and the bias column
  repeated along the rows; spells the logistic function as 1 / (1 + exp(-z)); and combines the gates. Read at a row p
  and a column q each of those is the specification's expression: a host matrix product is the sum over the contracted
  index, the repeated column reads the bias at (p, 0), and 1 / (1 + exp(-z)) is the logistic function on every extended
  real, by its definition.
-/
import proofs.«172886_j24756191494330_1_alg».proof.Proof.Gen.ReferenceIdeal.Read
import proofs.«172886_j24756191494330_1_alg».proof.Proof.Spec
import proofs.«172886_j24756191494330_1_alg».proof.Proof.LibHostDot
import proofs.«172886_j24756191494330_1_alg».proof.Proof.LibHostForms
import Idealize.ShloMosaic.Lib.IdealHost

noncomputable section

open scoped BigOperators

namespace Cert.ReferenceIdeal.RefSpec

open Cert.ReferenceIdeal Cert.ReferenceIdeal.Read
open Idealize.ShloMosaic Idealize.ShloMosaic.ValueIdx

/-- The fifteen argument arrays, in @main's order, as the cell's inputs. -/
def inputsOf (x0 : (⟨S2048x4096, .f32⟩ : BufTy).Contents (Elt Ideal)) (x1 x2 : (⟨S4096x4096, .f32⟩ : BufTy).Contents (Elt Ideal)) (x3 : (⟨S4096x2048, .f32⟩ : BufTy).Contents (Elt Ideal)) (x4 : (⟨S4096x4096, .f32⟩ : BufTy).Contents (Elt Ideal)) (x5 : (⟨S4096x1, .f32⟩ : BufTy).Contents (Elt Ideal)) (x6 : (⟨S4096x2048, .f32⟩ : BufTy).Contents (Elt Ideal)) (x7 : (⟨S4096x4096, .f32⟩ : BufTy).Contents (Elt Ideal)) (x8 : (⟨S4096x1, .f32⟩ : BufTy).Contents (Elt Ideal)) (x9 : (⟨S4096x2048, .f32⟩ : BufTy).Contents (Elt Ideal)) (x10 : (⟨S4096x4096, .f32⟩ : BufTy).Contents (Elt Ideal)) (x11 : (⟨S4096x1, .f32⟩ : BufTy).Contents (Elt Ideal)) (x12 : (⟨S4096x2048, .f32⟩ : BufTy).Contents (Elt Ideal)) (x13 : (⟨S4096x4096, .f32⟩ : BufTy).Contents (Elt Ideal)) (x14 : (⟨S4096x1, .f32⟩ : BufTy).Contents (Elt Ideal)) : Cert.Lstm.Inputs :=
  ⟨x0, x1, x2, x3, x4, x5, x6, x7, x8, x9, x10, x11, x12, x13, x14⟩

/-! ## The host's operations read at a row and a column -/

section Stages

variable (a : Cert.Lstm.Inputs) (W : Cert.Lstm.Mat 4096 2048) (U : Cert.Lstm.Mat 4096 4096) (b : Cert.Lstm.Mat 4096 1)
  (p q : Fin 4096)

/-- The product of a 4096 x 2048 weight with the input, at row `p` and column `q`, is the sum over the contracted index. -/
theorem dotX_apply (x : Cert.Lstm.Mat 2048 4096) :
    Host.dotGeneral dot_S4096x2048_S2048x4096_S4096x4096_1_0_0_1_n_n none W x (ix2 p q)
      = ∑ k : Fin 2048, W (ix2 p k) * x (ix2 k q) :=
  HostDot.dotGeneral_nn_apply _ none W x p q

/-- The product of a 4096 x 4096 weight with the previous output, at row `p` and column `q`. -/
theorem dotH_apply (h : Cert.Lstm.Mat 4096 4096) :
    Host.dotGeneral dot_S4096x4096_S4096x4096_S4096x4096_1_0_0_1_n_n none U h (ix2 p q)
      = ∑ k : Fin 4096, U (ix2 p k) * h (ix2 k q) :=
  HostDot.dotGeneral_nn_apply _ none U h p q

/-- The bias column repeated along the rows reads, at `(p, q)`, the bias at `(p, 0)`. -/
theorem bias_apply :
    broadcastInDim S4096x4096 ![0, 1] Facts₀.bcast_S4096x1_S4096x4096_0_1 b (ix2 p q) = b (ix2 p (0 : Fin 1)) :=
  HostForms.colMat_apply b _ p q

/-- The two products, their sum and the repeated bias column, read at `(p, q)`, are the gate's pre-activation. -/
theorem pre_apply :
    FloatOps.addf (FloatOps.addf
        (Host.dotGeneral dot_S4096x2048_S2048x4096_S4096x4096_1_0_0_1_n_n none W a.x (ix2 p q))
        (Host.dotGeneral dot_S4096x4096_S4096x4096_S4096x4096_1_0_0_1_n_n none U a.h (ix2 p q)))
        (broadcastInDim S4096x4096 ![0, 1] Facts₀.bcast_S4096x1_S4096x4096_0_1 b (ix2 p q))
      = Cert.Lstm.gatePre a W U b p q := by
  rw [dotX_apply, dotH_apply, bias_apply]
  rfl

/-- `1 / (1 + exp(-z))`, spelled with the host's operations and the constant one, is the logistic function of `z` on
    every extended real: that expression is the logistic function's definition. -/
theorem logistic_spelled (z : Ideal .f32) :
    FloatOps.hostDivf (FloatOps.ofBits .f32 0x3F800000#32 : Ideal .f32)
        (FloatOps.addf (FloatOps.ofBits .f32 0x3F800000#32 : Ideal .f32) (FloatOps.hostUnary .exp (FloatOps.hostNegf z)))
      = Ideal.logistic z := by
  rw [Ideal.hostDivf_def, Ideal.addf_def, Ideal.hostUnary_exp_def, Ideal.hostNegf_def, Ideal.negf_def, Ideal.ofBits_def,
    Ideal.ofBits_one_f32]
  rfl

/-! ## The four pre-activations -/

theorem pre_f : val_main_v4 (F := Ideal) a.x a.h W U b (ix2 p q) = Cert.Lstm.gatePre a W U b p q := by
  rw [val_main_v4_apply, val_main_v2_apply]
  exact pre_apply a W U b p q

theorem pre_i : val_main_v15 (F := Ideal) a.x a.h W U b (ix2 p q) = Cert.Lstm.gatePre a W U b p q := by
  rw [val_main_v15_apply, val_main_v13_apply]
  exact pre_apply a W U b p q

theorem pre_c : val_main_v26 (F := Ideal) a.x a.h W U b (ix2 p q) = Cert.Lstm.gatePre a W U b p q := by
  rw [val_main_v26_apply, val_main_v24_apply]
  exact pre_apply a W U b p q

theorem pre_o : val_main_v32 (F := Ideal) a.x a.h W U b (ix2 p q) = Cert.Lstm.gatePre a W U b p q := by
  rw [val_main_v32_apply, val_main_v30_apply]
  exact pre_apply a W U b p q

/-! ## The three logistic gates -/

theorem sig_f : val_main_v10 (F := Ideal) a.x a.h W U b (ix2 p q) = Ideal.logistic (Cert.Lstm.gatePre a W U b p q) := by
  rw [val_main_v10_apply, val_main_v9_apply, val_main_cst_0_apply, val_main_v8_apply, val_main_v7_apply,
    val_main_cst_apply, val_main_v6_apply, val_main_v5_apply, pre_f]
  exact logistic_spelled _

theorem sig_i : val_main_v21 (F := Ideal) a.x a.h W U b (ix2 p q) = Ideal.logistic (Cert.Lstm.gatePre a W U b p q) := by
  rw [val_main_v21_apply, val_main_v20_apply, val_main_cst_2_apply, val_main_v19_apply, val_main_v18_apply,
    val_main_cst_1_apply, val_main_v17_apply, val_main_v16_apply, pre_i]
  exact logistic_spelled _

theorem sig_o : val_main_v38 (F := Ideal) a.x a.h W U b (ix2 p q) = Ideal.logistic (Cert.Lstm.gatePre a W U b p q) := by
  rw [val_main_v38_apply, val_main_v37_apply, val_main_cst_4_apply, val_main_v36_apply, val_main_v35_apply,
    val_main_cst_3_apply, val_main_v34_apply, val_main_v33_apply, pre_o]
  exact logistic_spelled _

/-! ## The two results at a row and a column -/

/-- The first result at `(p, q)`: the previous state times the forget gate plus the input gate times the candidate. -/
theorem new_state_at :
    val_main_v41 (F := Ideal) a.x a.h a.s a.Wf a.Uf a.bf a.Wi a.Ui a.bi a.Wc a.Uc a.bc (ix2 p q)
      = Cert.Lstm.newStateAt a p q := by
  rw [val_main_v41_apply, val_main_v39_apply, val_main_v40_apply, val_main_v27_apply, sig_f, sig_i, pre_c]
  rfl

/-- The second result at `(p, q)`: the hyperbolic tangent of the new state times the output gate. -/
theorem out_at :
    val_main_v43 (F := Ideal) a.x a.h a.s a.Wf a.Uf a.bf a.Wi a.Ui a.bi a.Wc a.Uc a.bc a.Wo a.Uo a.bo (ix2 p q)
      = Cert.Lstm.outAt a p q := by
  rw [val_main_v43_apply, val_main_v42_apply, new_state_at, sig_o]
  rfl

end Stages

/-- The reference's first result is the new state. -/
theorem new_state_eq (x0 : (⟨S2048x4096, .f32⟩ : BufTy).Contents (Elt Ideal)) (x1 x2 : (⟨S4096x4096, .f32⟩ : BufTy).Contents (Elt Ideal)) (x3 : (⟨S4096x2048, .f32⟩ : BufTy).Contents (Elt Ideal)) (x4 : (⟨S4096x4096, .f32⟩ : BufTy).Contents (Elt Ideal)) (x5 : (⟨S4096x1, .f32⟩ : BufTy).Contents (Elt Ideal)) (x6 : (⟨S4096x2048, .f32⟩ : BufTy).Contents (Elt Ideal)) (x7 : (⟨S4096x4096, .f32⟩ : BufTy).Contents (Elt Ideal)) (x8 : (⟨S4096x1, .f32⟩ : BufTy).Contents (Elt Ideal)) (x9 : (⟨S4096x2048, .f32⟩ : BufTy).Contents (Elt Ideal)) (x10 : (⟨S4096x4096, .f32⟩ : BufTy).Contents (Elt Ideal)) (x11 : (⟨S4096x1, .f32⟩ : BufTy).Contents (Elt Ideal)) (x12 : (⟨S4096x2048, .f32⟩ : BufTy).Contents (Elt Ideal)) (x13 : (⟨S4096x4096, .f32⟩ : BufTy).Contents (Elt Ideal)) (x14 : (⟨S4096x1, .f32⟩ : BufTy).Contents (Elt Ideal)) :
    val_main_v41 (F := Ideal) x0 x1 x2 x3 x4 x5 x6 x7 x8 x9 x10 x11
      = Cert.Lstm.newState (inputsOf x0 x1 x2 x3 x4 x5 x6 x7 x8 x9 x10 x11 x12 x13 x14) := by
  funext j
  obtain ⟨p, q, rfl⟩ : ∃ (p q : Fin 4096), j = ix2 p q := ⟨j 0, j 1, eq_ix2 j⟩
  exact new_state_at (inputsOf x0 x1 x2 x3 x4 x5 x6 x7 x8 x9 x10 x11 x12 x13 x14) p q

/-- The reference's second result is the output. -/
theorem out_eq (x0 : (⟨S2048x4096, .f32⟩ : BufTy).Contents (Elt Ideal)) (x1 x2 : (⟨S4096x4096, .f32⟩ : BufTy).Contents (Elt Ideal)) (x3 : (⟨S4096x2048, .f32⟩ : BufTy).Contents (Elt Ideal)) (x4 : (⟨S4096x4096, .f32⟩ : BufTy).Contents (Elt Ideal)) (x5 : (⟨S4096x1, .f32⟩ : BufTy).Contents (Elt Ideal)) (x6 : (⟨S4096x2048, .f32⟩ : BufTy).Contents (Elt Ideal)) (x7 : (⟨S4096x4096, .f32⟩ : BufTy).Contents (Elt Ideal)) (x8 : (⟨S4096x1, .f32⟩ : BufTy).Contents (Elt Ideal)) (x9 : (⟨S4096x2048, .f32⟩ : BufTy).Contents (Elt Ideal)) (x10 : (⟨S4096x4096, .f32⟩ : BufTy).Contents (Elt Ideal)) (x11 : (⟨S4096x1, .f32⟩ : BufTy).Contents (Elt Ideal)) (x12 : (⟨S4096x2048, .f32⟩ : BufTy).Contents (Elt Ideal)) (x13 : (⟨S4096x4096, .f32⟩ : BufTy).Contents (Elt Ideal)) (x14 : (⟨S4096x1, .f32⟩ : BufTy).Contents (Elt Ideal)) :
    val_main_v43 (F := Ideal) x0 x1 x2 x3 x4 x5 x6 x7 x8 x9 x10 x11 x12 x13 x14
      = Cert.Lstm.out (inputsOf x0 x1 x2 x3 x4 x5 x6 x7 x8 x9 x10 x11 x12 x13 x14) := by
  funext j
  obtain ⟨p, q, rfl⟩ : ∃ (p q : Fin 4096), j = ix2 p q := ⟨j 0, j 1, eq_ix2 j⟩
  exact out_at (inputsOf x0 x1 x2 x3 x4 x5 x6 x7 x8 x9 x10 x11 x12 x13 x14) p q

end Cert.ReferenceIdeal.RefSpec

end
-- ==== Proof.lean ====
/-
  An LSTM cell computed by one kernel on a grid, against the same cell computed by whole-array operations.

  For each of the four gates the kernel adds, slab by slab of 512 along the contracted axes, the products of the input
  with the gate's input weights and of the previous output with its hidden weights into an accumulator, then adds the
  bias, applies the logistic function (tanh for the candidate), and stores  s · f + i · g  and  tanh of that times o.
  The reference forms the same two matrix products whole. On the extended reals the two agree entry by entry: a sum
  taken in twelve runs is the sum (addition there is commutative and associative, whatever the entries), a change of
  float format is the identity, and the logistic function is 1 / (1 + exp(-z)) by definition. No finiteness of the
  inputs is used.
  The three frames: each kernel program runs its 768 grid points to the end and leaves its arguments as they were, by
  the region's run over the body's four cases; the reference's frame is its run with the results dropped. The
  idealization rewrote no operation, so there is nothing to preserve.
-/
import proofs.«172886_j24756191494330_1_alg».proof.Defs
import proofs.«172886_j24756191494330_1_alg».proof.Proof.Gen.Kernel
import proofs.«172886_j24756191494330_1_alg».proof.Proof.Gen.KernelIdeal
import proofs.«172886_j24756191494330_1_alg».proof.Proof.Gen.ReferenceIdeal
import proofs.«172886_j24756191494330_1_alg».proof.Proof.Gen.ReferenceIdeal.Run
import proofs.«172886_j24756191494330_1_alg».proof.Proof.Gen.ReferenceIdeal.Read
import proofs.«172886_j24756191494330_1_alg».proof.Proof.Gen.Pre_finite_inputs
import proofs.«172886_j24756191494330_1_alg».proof.Proof.Kernel.Region
import proofs.«172886_j24756191494330_1_alg».proof.Proof.KernelIdeal.Result
import proofs.«172886_j24756191494330_1_alg».proof.Proof.RefSpec
import Idealize.ShloMosaic.Adequacy
import Idealize.ShloMosaic.Init

noncomputable section

namespace Cert.Proof

open Idealize.ShloMosaic Idealize.SL.Sem

/-- The word-level kernel runs to the end and leaves its arguments unchanged. -/
theorem frame_kernel : Cert.frame_Kernel := fun m ρ _ =>
  Cert.Kernel.Gen.frame_of m ρ (Cert.Kernel.Body.dats m) (Cert.Kernel.Body.A_eq m) (Cert.Kernel.Body.run_main (F := Bits) m ρ)

/-- So does the idealized kernel. -/
theorem frame_kernel_ideal : Cert.frame_KernelIdeal := fun m ρ _ =>
  Cert.KernelIdeal.Gen.frame_of m ρ (Cert.KernelIdeal.Body.dats m) (Cert.KernelIdeal.Body.A_eq m) (Cert.KernelIdeal.Body.run_main (F := Ideal) m ρ)

/-- The reference's frame is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both idealized programs end with the cell's new state and output of the arguments they agree on. -/
theorem algebraic : Cert.algebraic_KernelIdeal_ReferenceIdeal := by
  intro m ρ m' ρ' _ hagree
  refine ⟨fun c => Cert.Lstm.newState (Cert.KernelIdeal.Body.cellIn m c), fun c => Cert.Lstm.out (Cert.KernelIdeal.Body.cellIn m c),
    Cert.KernelIdeal.Body.run_values m ρ, ?_⟩
  refine (θ_run Cert.ReferenceIdeal.defs _ _).mono (fun r h c => ?_) (Cert.ReferenceIdeal.Value.run (F := Ideal) m' ρ')
  obtain ⟨e0, e1, e2, e3, e4, e5, e6, e7, e8, e9, e10, e11, e12, e13, e14⟩ := hagree c
  have e : Cert.ReferenceIdeal.RefSpec.inputsOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))
      = Cert.KernelIdeal.Body.cellIn m c := by
    unfold Cert.ReferenceIdeal.RefSpec.inputsOf Cert.KernelIdeal.Body.cellIn
    rw [e0, e1, e2, e3, e4, e5, e6, e7, e8, e9, e10, e11, e12, e13, e14]
  exact ⟨(h c).1.trans (((Cert.ReferenceIdeal.Read.val_main_v41_eq _ _ _ _ _ _ _ _ _ _ _ _).trans
        (Cert.ReferenceIdeal.RefSpec.new_state_eq _ _ _ _ _ _ _ _ _ _ _ _ _ _ _)).trans (congrArg Cert.Lstm.newState e)),
    (h c).2.1.trans (((Cert.ReferenceIdeal.Read.val_main_v43_eq _ _ _ _ _ _ _ _ _ _ _ _ _ _ _).trans
        (Cert.ReferenceIdeal.RefSpec.out_eq _ _ _ _ _ _ _ _ _ _ _ _ _ _ _)).trans (congrArg Cert.Lstm.out e)),
    (h c).2.2⟩

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
